-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x256 : Shape := ⟨2, ![4096, 256]⟩
abbrev S4096x1 : Shape := ⟨2, ![4096, 1]⟩
abbrev S1024x256 : Shape := ⟨2, ![1024, 256]⟩
abbrev S512x256 : Shape := ⟨2, ![512, 256]⟩
abbrev S1024x1 : Shape := ⟨2, ![1024, 1]⟩
abbrev S1024 : Shape := ⟨1, ![1024]⟩
abbrev S512 : Shape := ⟨1, ![512]⟩
abbrev S512x1 : Shape := ⟨2, ![512, 1]⟩
abbrev S256x512 : Shape := ⟨2, ![256, 512]⟩
abbrev S1024x512 : Shape := ⟨2, ![1024, 512]⟩
abbrev S_ : Shape := ⟨0, ![]⟩

abbrev nBuf : Space → Nat
  | .hbm => 14
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg1 : BitVec 32 := BitVec.ofNat 32 (i 1).val
  let c1_i32 : BitVec 32 := 1#32
  let v3 : BitVec 1 := Scalar.cmpi .eq arg1 c1_i32
  let arg2 : BitVec 32 := BitVec.ofNat 32 (i 2).val
  let c7_i32 : BitVec 32 := 7#32
  let v4 : BitVec 1 := Scalar.cmpi .eq arg2 c7_i32
  let v5 : BitVec 1 := Scalar.andi v3 v4
  let v70 : BitVec 32 := Scalar.extui v5
  let c0_i32_27 : BitVec 32 := 0#32
  let v71 : BitVec 1 := Scalar.cmpi .ne v70 c0_i32_27
  v71

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c7_i32 : BitVec 32 := 7#32
  let v1 : BitVec 32 := Scalar.select v0 arg2 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 c0_i32_0 arg2
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  transposes_S512x256_p1_0_S256x512 : S512x256.Transposes [1, 0] S256x512
  reduces_S1024x512_S1024 : S1024x512.Reduces [1] S1024
  broadcasts_S1024x1_S1024x512 : S1024x1.Broadcasts S1024x512
  iota_S1024x512_d0_w32 : S1024x512.Iotas .tc 32 [0]
  iota_S1024x512_d1_w32 : S1024x512.Iotas .tc 32 [1]
  reducesTo_S4096x1_S_d0_1 : S4096x1.ReducesTo [0, 1] S_
  h_S_ : 0 < S_.numel
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .f32 = 32 ∨ (Rect.block (s := S4096x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond3 i == 1#1) | 4 => fun i => !(k0_cond3 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩
abbrev S4096x8192 : Shape := ⟨2, ![4096, 8192]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x256, .f32⟩
  | .hbm, ⟨32, _⟩ => ⟨S4096x256, .f32⟩
  | .hbm, ⟨33, _⟩ => ⟨S256x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S256x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x8192, .f32⟩
  | .hbm, ⟨44, _⟩ => ⟨S4096, .i32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1, .f32⟩
  | .hbm, ⟨51, _⟩ => ⟨S4096x8192, .f32⟩
  | .hbm, ⟨52, _⟩ => ⟨S4096x8192, .f32⟩
  | .hbm, ⟨53, _⟩ => ⟨S4096x8192, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1, .f32⟩
  | .hbm, ⟨58, _⟩ => ⟨S4096x8192, .f32⟩
  | .hbm, ⟨59, _⟩ => ⟨S4096x8192, .f32⟩
  | .hbm, ⟨60, _⟩ => ⟨S4096x1, .i32⟩
  | .hbm, ⟨61, _⟩ => ⟨S_, .i32⟩
  | .hbm, ⟨62, _⟩ => ⟨S4096x1, .i32⟩
  | .hbm, ⟨63, _⟩ => ⟨S4096x1, .i1⟩
  | .hbm, ⟨64, _⟩ => ⟨S_, .i32⟩
  | .hbm, ⟨65, _⟩ => ⟨S4096x1, .i32⟩
  | .hbm, ⟨66, _⟩ => ⟨S4096x1, .i32⟩
  | .hbm, ⟨67, _⟩ => ⟨S4096x1, .i32⟩
  | .hbm, ⟨68, _⟩ => ⟨S4096x1x1, .i32⟩
  | .hbm, ⟨69, _⟩ => ⟨S1, .i32⟩
  | .hbm, ⟨70, _⟩ => ⟨S_, .i32⟩
  | .hbm, ⟨71, _⟩ => ⟨S4096x1x1, .i32⟩
  | .hbm, ⟨72, _⟩ => ⟨S4096x1x1, .i1⟩
  | .hbm, ⟨73, _⟩ => ⟨S1x1x1, .i32⟩
  | .hbm, ⟨74, _⟩ => ⟨S4096x1x1, .i32⟩
  | .hbm, ⟨75, _⟩ => ⟨S4096x1x1, .i1⟩
  | .hbm, ⟨76, _⟩ => ⟨S4096x1x1, .i1⟩
  | .hbm, ⟨77, _⟩ => ⟨S_, .i1⟩
  | .hbm, ⟨78, _⟩ => ⟨S4096x1, .i1⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_cst : Ref sig .tc := ⟨.hbm, 45, rfl⟩
abbrev main_call0_v0 : Ref sig .tc := ⟨.hbm, 46, rfl⟩
abbrev main_call0_cst_0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_cst_1 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_v34 : Ref sig .tc := ⟨.hbm, 59, rfl⟩
abbrev main_v35 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_cst : Ref sig .tc := ⟨.hbm, 80, rfl⟩
abbrev main_call1_v14 : Ref sig .tc := ⟨.hbm, 81, rfl⟩
abbrev main_v36 : Ref sig .tc := ⟨.hbm, 82, rfl⟩
abbrev main_cst_7 : Ref sig .tc := ⟨.hbm, 83, rfl⟩
abbrev main_v37 : Ref sig .tc := ⟨.hbm, 84, rfl⟩
abbrev main_cst_8 : Ref sig .tc := ⟨.hbm, 85, rfl⟩
abbrev main_v38 : Ref sig .tc := ⟨.hbm, 86, rfl⟩
abbrev main_v39 : Ref sig .tc := ⟨.hbm, 87, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096x4096 : S_.BroadcastsInDim S4096x4096 (![] : Fin 0 → Fin S4096x4096.rank)
  concatenates_S4096x4096_S4096x4096_S4096x8192_d1 : Shape.Concatenates [S4096x4096, S4096x4096] S4096x8192 1
  reducesTo_S4096x8192_S4096_d1 : S4096x8192.ReducesTo [1] S4096
  bcast_S_S4096 : S_.BroadcastsInDim S4096 (![] : Fin 0 → Fin S4096.rank)
  bcast_S4096x1_S4096x8192_0_1 : S4096x1.BroadcastsInDim S4096x8192 (![0, 1] : Fin 2 → Fin S4096x8192.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  dot_S4096x256_S256x4096_S4096x4096_1_0_0_1_n_n_wf : DotDims.WF S4096x256 S256x4096 S4096x4096 [1] [0] [0] [1] [] []
  gather_S4096x8192_S4096x1x1_S4096x1_n_1_0_0_1_2_11_wf : GatherDims.WF S4096x8192 S4096x1x1 S4096x1 [] [1] [0] [1] [0] 2 ![1, 1]

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def gather_S4096x8192_S4096x1x1_S4096x1_n_1_0_0_1_2_11 : GatherDims S4096x8192 S4096x1x1 S4096x1 where
  offsetDims := []
  collapsedSliceDims := [1]
  operandBatchingDims := [0]
  startIndicesBatchingDims := [0]
  startIndexMap := [1]
  indexVectorDim := 2
  sliceSizes := ![1, 1]
  wf := gather_S4096x8192_S4096x1x1_S4096x1_n_1_0_0_1_2_11_wf

class Facts : Prop extends Facts₀ where

variable [Facts]
-- ==== Proof.KConds.lean ====
/-
  The grid of the kernel is 4 × 2 × 8: a block of 1024 query rows, then the source of the keys (the second input, then
  the third), then a block of 512 key rows.  Its 64 points are run in order, sixteen to a query block.  The body
  branches three times on the point: at the first of a query block's sixteen points it resets its three running
  columns (maximum, sum, diagonal); while the keys come from the second input — the first eight of the sixteen — it
  adds to the diagonal; at the last of the sixteen it copies the three columns to its outputs.  This module states the
  three conditions as the body computes them, decides each over the 64 points in closed form (position 0, positions
  below 8, position 15 within the sixteen), says where the outputs are idle and where they are written back, and names
  the staging buffers the body is called on and the three scratch buffers that carry the running columns.
-/
import proofs.«115192_j55619826483436_1_alg».proof.Proof.Gen.Kernel.Frame
import proofs.«115192_j55619826483436_1_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions -/

/-- The body resets its running columns: keys from the second input and key block 0. -/
abbrev condFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The keys come from the second input: the diagonal is added to. -/
abbrev condPos (i : grid0.Coords) : Prop :=
  (Scalar.cmpi .ne (Scalar.extui (Scalar.cmpi .eq (BitVec.ofNat 32 (i 1).val) 0#32)) 0#32) = 1#1
/-- The body copies its running columns out: keys from the third input and key block 7. -/
abbrev condLast (i : grid0.Coords) : Prop := k0_cond3 i = 1#1

theorem hcondFirst : ∀ t : Fin cfg0.N, condFirst (grid0.coords t) ↔ t.val % 16 = 0 :=
  (by decide +kernel : ∀ t : Fin grid0.N, condFirst (grid0.coords t) ↔ t.val % 16 = 0)
theorem hcondPos : ∀ t : Fin cfg0.N, condPos (grid0.coords t) ↔ t.val % 16 < 8 :=
  (by decide +kernel : ∀ t : Fin grid0.N, condPos (grid0.coords t) ↔ t.val % 16 < 8)
theorem hcondLast : ∀ t : Fin cfg0.N, condLast (grid0.coords t) ↔ t.val % 16 = 15 :=
  (by decide +kernel : ∀ t : Fin grid0.N, condLast (grid0.coords t) ↔ t.val % 16 = 15)

theorem N_eq : cfg0.N = 64 := by decide +kernel

/-! ## Where the windows are idle and where they are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from a query block's last point the three outputs are idle and not written back. -/
theorem idle3 : ∀ t : Fin cfg0.N, ¬condLast (grid0.coords t) → cfg0.idle 3 (grid0.coords t) = true := by decide +kernel
theorem idle4 : ∀ t : Fin cfg0.N, ¬condLast (grid0.coords t) → cfg0.idle 4 (grid0.coords t) = true := by decide +kernel
theorem idle5 : ∀ t : Fin cfg0.N, ¬condLast (grid0.coords t) → cfg0.idle 5 (grid0.coords t) = true := by decide +kernel
theorem noFlush3 : ∀ t : Fin cfg0.N, ¬condLast (grid0.coords t) → (cfg0.win 3).flush t = false := by decide +kernel
theorem noFlush4 : ∀ t : Fin cfg0.N, ¬condLast (grid0.coords t) → (cfg0.win 4).flush t = false := by decide +kernel
theorem noFlush5 : ∀ t : Fin cfg0.N, ¬condLast (grid0.coords t) → (cfg0.win 5).flush t = false := by decide +kernel
/-- At the last point they are live. -/
theorem live3 : ∀ t : Fin cfg0.N, condLast (grid0.coords t) → cfg0.idle 3 (grid0.coords t) = false := by decide +kernel
theorem live4 : ∀ t : Fin cfg0.N, condLast (grid0.coords t) → cfg0.idle 4 (grid0.coords t) = false := by decide +kernel
theorem live5 : ∀ t : Fin cfg0.N, condLast (grid0.coords t) → cfg0.idle 5 (grid0.coords t) = false := by decide +kernel

/-! ## The buffers the body is called on -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)

/-- The scratch buffers: the running maximum, the running sum, the running diagonal. -/
abbrev scM : Memref sig .tc .vmem S1024x1 .f32 := Memref.whole cc0_scratch0
abbrev scL : Memref sig .tc .vmem S1024x1 .f32 := Memref.whole cc0_scratch1
abbrev scD : Memref sig .tc .vmem S1024x1 .f32 := Memref.whole cc0_scratch2

/-- The body at a point, on those buffers. -/
theorem bodyAt0_eq (t : Fin cfg0.N) :
    (bodyAt0 (F := F) t) = cc0__kernel (grid0.coords t) (ms0 t) (hs0 t) (ms1 t) (hs1 t) (ms2 t) (hs2 t) (ms3 t) (hs3 t) (ms4 t) (hs4 t) (ms5 t) (hs5 t)
      scM (Memref.isWhole_whole _) scL (Memref.isWhole_whole _) scD (Memref.isWhole_whole _) := rfl

/-- What the launch lends the body besides the windows: the three scratch buffers at some contents, and the
    generator register. -/
theorem PhiA_eq (c : Dev nD) :
    (Pipeline.ΦA spec0 c : sProp 𝕄)
      = iprop(iprop((∃ d, owns (c : Thread nD τ) scM fullShare d) ∗ (∃ d, owns (c : Thread nD τ) scL fullShare d) ∗ (∃ d, owns (c : Thread nD τ) scD fullShare d)) ∗ (∃ r, prngReg c r)) := by
  unfold Pipeline.ΦA; rw [scopedRest0_eq]; simp only [scM, scL, scD, owns_whole]; try rfl

end Cert.Kernel.Body

end
-- ==== Proof.KRunA.lean ====
/-
  The body at the first point of a query block: keys from the second input, key block 0.  It first stores the initial
  values into its three running columns — minus infinity, zero, zero — whatever they held, then reads its input
  blocks and the columns back and stores each column again: the block's maximum, the block's sum of shifted
  exponentials, the block's diagonal pick.  It stores nothing into the outputs, which it hands back as it found them.
-/
import proofs.«115192_j55619826483436_1_alg».proof.Proof.KConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole buffers — the inputs at their blocks, the outputs at whatever they hold, the running columns at anything
    — the body runs, leaves inputs and outputs as they were, and leaves each running column with the stores listed
    (last first); the lists are found by the run. -/
noncomputable def runA (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : condFirst i) (hc2 : condPos i) (hc3 : ¬condLast i)
    (x0 : Vec F S1024x256 .f32) (x1 x2 : Vec F S512x256 .f32) :
    Σ' (LM : List (View.Piece (Elt F) S1024x1 .f32)) (LL : List (View.Piece (Elt F) S1024x1 .f32)), { LD : List (View.Piece (Elt F) S1024x1 .f32) //
      ∀ (xi3 xi4 xi5 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4 ∗ owns (c : Thread nD τ) arg8 fullShare xi5
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4 ∗ owns (c : Thread nD τ) arg8 fullShare xi5
                ∗ (∃ f, arg9.view.loc (c : Thread nD τ) ↦[arg9.view.set]{fullShare} arg9.view.writes (Elt F) f LM)
                ∗ (∃ f, arg10.view.loc (c : Thread nD τ) ↦[arg10.view.set]{fullShare} arg10.view.writes (Elt F) f LL)
                ∗ (∃ f, arg11.view.loc (c : Thread nD τ) ↦[arg11.view.set]{fullShare} arg11.view.writes (Elt F) f LD)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, ?_, fun xi3 xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dM, %fM, -, HM⟩, ⟨%dL, %fL, -, HL⟩, ⟨%dD, %fD, -, HD⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HM]; · iexists _; iexact HM
    isplitl [HL]; · iexists _; iexact HL
    iexists _; iexact HD

end Cert.Kernel.Body

end
-- ==== Proof.KRunB.lean ====
/-
  The body at a point in the middle of a query block's first eight: not the first point, keys from the second input,
  not the last point.  It reads its three input blocks and its three running columns, and stores each running column
  once: the new maximum, the rescaled sum with the block's terms added, the diagonal with the block's pick added.  It
  stores nothing into the outputs, which it hands back as it found them.
-/
import proofs.«115192_j55619826483436_1_alg».proof.Proof.KConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole buffers — the inputs at their blocks, the outputs at whatever they hold, the running columns at what the
    point before left — the body runs, leaves inputs and outputs as they were, and leaves each running column with the
    stores listed (last first); the lists are found by the run. -/
noncomputable def runB (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : ¬condFirst i) (hc2 : condPos i) (hc3 : ¬condLast i)
    (x0 : Vec F S1024x256 .f32) (x1 x2 : Vec F S512x256 .f32) (xsM xsL xsD : Vec F S1024x1 .f32) :
    Σ' (LM : List (View.Piece (Elt F) S1024x1 .f32)) (LL : List (View.Piece (Elt F) S1024x1 .f32)), { LD : List (View.Piece (Elt F) S1024x1 .f32) //
      ∀ (xi3 xi4 xi5 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4 ∗ owns (c : Thread nD τ) arg8 fullShare xi5
            ∗ owns (c : Thread nD τ) arg9 fullShare xsM ∗ owns (c : Thread nD τ) arg10 fullShare xsL ∗ owns (c : Thread nD τ) arg11 fullShare xsD
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4 ∗ owns (c : Thread nD τ) arg8 fullShare xi5
                ∗ (∃ f, arg9.view.loc (c : Thread nD τ) ↦[arg9.view.set]{fullShare} arg9.view.writes (Elt F) f LM)
                ∗ (∃ f, arg10.view.loc (c : Thread nD τ) ↦[arg10.view.set]{fullShare} arg10.view.writes (Elt F) f LL)
                ∗ (∃ f, arg11.view.loc (c : Thread nD τ) ↦[arg11.view.set]{fullShare} arg11.view.writes (Elt F) f LD)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, ?_, fun xi3 xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fM, %hfM, HM⟩, ⟨%fL, %hfL, HL⟩, ⟨%fD, %hfD, HD⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfM; obtain rfl := harg10.eq_unread hfL; obtain rfl := harg11.eq_unread hfD
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HM]; · iexists _; iexact HM
    isplitl [HL]; · iexists _; iexact HL
    iexists _; iexact HD

end Cert.Kernel.Body

end
-- ==== Proof.KRunC.lean ====
/-
  The body at a point where the keys come from the third input and which is not a query block's last: it updates the
  running maximum and the running sum from the block, does not touch the running diagonal (that column belongs to the
  positives alone), and stores nothing into the outputs.
-/
import proofs.«115192_j55619826483436_1_alg».proof.Proof.KConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole buffers — the inputs at their blocks, the outputs and the running diagonal at whatever they hold, the
    running maximum and sum at what the point before left — the body runs, leaves inputs, outputs and the running
    diagonal as they were, and leaves the running maximum and sum with the stores listed (last first); the lists are
    found by the run. -/
noncomputable def runC (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : ¬condFirst i) (hc2 : ¬condPos i) (hc3 : ¬condLast i)
    (x0 : Vec F S1024x256 .f32) (x1 x2 : Vec F S512x256 .f32) (xsM xsL : Vec F S1024x1 .f32) :
    Σ' (LM : List (View.Piece (Elt F) S1024x1 .f32)), { LL : List (View.Piece (Elt F) S1024x1 .f32) //
      ∀ (xi3 xi4 xi5 xsD : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4 ∗ owns (c : Thread nD τ) arg8 fullShare xi5
            ∗ owns (c : Thread nD τ) arg9 fullShare xsM ∗ owns (c : Thread nD τ) arg10 fullShare xsL ∗ owns (c : Thread nD τ) arg11 fullShare xsD
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4 ∗ owns (c : Thread nD τ) arg8 fullShare xi5
                ∗ (∃ f, arg9.view.loc (c : Thread nD τ) ↦[arg9.view.set]{fullShare} arg9.view.writes (Elt F) f LM)
                ∗ (∃ f, arg10.view.loc (c : Thread nD τ) ↦[arg10.view.set]{fullShare} arg10.view.writes (Elt F) f LL)
                ∗ owns (c : Thread nD τ) arg11 fullShare xsD) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, fun xi3 xi4 xi5 xsD E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fM, %hfM, HM⟩, ⟨%fL, %hfL, HL⟩, ⟨%fD, %hfD, HD⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfM; obtain rfl := harg10.eq_unread hfL; obtain rfl := harg11.eq_unread hfD
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HM]; · iexists _; iexact HM
    isplitl [HL]; · iexists _; iexact HL
    iexists _; isplitr; · ipureintro; exact harg11.read_unread _
    iexact HD

end Cert.Kernel.Body

end
-- ==== Proof.KRunD.lean ====
/-
  The body at the last point of a query block: keys from the third input, key block 7.  It updates the running maximum
  and the running sum from the block as at every point, leaves the running diagonal alone, and then copies the three
  running columns — the maximum and the sum as just stored, the diagonal as the positives left it — into its three
  outputs, whatever those held.
-/
import proofs.«115192_j55619826483436_1_alg».proof.Proof.KConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole buffers — the inputs at their blocks, the outputs at anything, the running columns at what the point
    before left — the body runs, leaves the inputs and the running diagonal as they were, and leaves the running
    maximum, the running sum and each output with the stores listed (last first); the lists are found by the run. -/
noncomputable def runD (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : ¬condFirst i) (hc2 : ¬condPos i) (hc3 : condLast i)
    (x0 : Vec F S1024x256 .f32) (x1 x2 : Vec F S512x256 .f32) (xsM xsL xsD : Vec F S1024x1 .f32) :
    Σ' (L3 : List (View.Piece (Elt F) S1024x1 .f32)) (L4 : List (View.Piece (Elt F) S1024x1 .f32)) (L5 : List (View.Piece (Elt F) S1024x1 .f32)) (LM : List (View.Piece (Elt F) S1024x1 .f32)), { LL : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xsM ∗ owns (c : Thread nD τ) arg10 fullShare xsL ∗ owns (c : Thread nD τ) arg11 fullShare xsD
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LM)
                ∗ (∃ f, arg10.view.loc (c : Thread nD τ) ↦[arg10.view.set]{fullShare} arg10.view.writes (Elt F) f LL)
                ∗ owns (c : Thread nD τ) arg11 fullShare xsD) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fM, %hfM, HM⟩, ⟨%fL, %hfL, HL⟩, ⟨%fD, %hfD, HD⟩, Hk⟩
    obtain rfl := harg3.eq_unread hf0; obtain rfl := harg4.eq_unread hf1; obtain rfl := harg5.eq_unread hf2
    obtain rfl := harg9.eq_unread hfM; obtain rfl := harg10.eq_unread hfL; obtain rfl := harg11.eq_unread hfD
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    isplitl [HM]; · iexists _; iexact HM
    isplitl [HL]; · iexists _; iexact HL
    iexists _; isplitr; · ipureintro; exact harg11.read_unread _
    iexact HD

end Cert.Kernel.Body

end
-- ==== Proof.KState.lean ====
/-
  What the kernel's buffers hold after each of the 64 points.  A point falls in one of four cases (first of its query
  block; a later point with keys from the second input; a point with keys from the third input that is not the last;
  the last).  In each case the body's run lists the stores it made into each buffer, and every such list covers the
  whole buffer, so the buffer's contents afterwards are those stores read back.  The contents after point `n` are
  then defined by recursion on `n`: the case of point `n` applied to the input blocks at `n` and, for the running
  columns, to what point `n - 1` left (the first point of a query block starts afresh).  The outputs are only stored
  at a query block's last point; elsewhere their entry here is a placeholder nothing reads.
-/
import proofs.«115192_j55619826483436_1_alg».proof.Proof.KRunA
import proofs.«115192_j55619826483436_1_alg».proof.Proof.KRunB
import proofs.«115192_j55619826483436_1_alg».proof.Proof.KRunC
import proofs.«115192_j55619826483436_1_alg».proof.Proof.KRunD

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The views through which the six one-column buffers' contents are stated. -/
abbrev VM : View sig .tc .vmem S1024x1 .f32 := scM.view
abbrev VL : View sig .tc .vmem S1024x1 .f32 := scL.view
abbrev VD : View sig .tc .vmem S1024x1 .f32 := scD.view
abbrev VO3 : View sig .tc .vmem S1024x1 .f32 := (Memref.whole cc0_stg3_0 : Memref sig .tc .vmem S1024x1 .f32).view
abbrev VO4 : View sig .tc .vmem S1024x1 .f32 := (Memref.whole cc0_stg4_0 : Memref sig .tc .vmem S1024x1 .f32).view
abbrev VO5 : View sig .tc .vmem S1024x1 .f32 := (Memref.whole cc0_stg5_0 : Memref sig .tc .vmem S1024x1 .f32).view

/-- A list of stores read back through a view. -/
def readBack (V : View sig .tc .vmem S1024x1 .f32) (L : List (View.Piece (Elt F) S1024x1 .f32)) : Vec F S1024x1 .f32 :=
  V.read (Elt F) (V.writes (Elt F) V.junk L)

/-- The three outputs' staging buffers and the three running columns after a point. -/
structure St (F : FTy → Type) where
  o3 : Vec F S1024x1 .f32
  o4 : Vec F S1024x1 .f32
  o5 : Vec F S1024x1 .f32
  sM : Vec F S1024x1 .f32
  sL : Vec F S1024x1 .f32
  sD : Vec F S1024x1 .f32

/-! ## The four runs at a point of the grid -/

abbrev rA (c : Dev nD) (t : Fin cfg0.N) (h1 : condFirst (grid0.coords t)) (h2 : condPos (grid0.coords t)) (h3 : ¬condLast (grid0.coords t)) :=
  runA (F := F) c (grid0.coords t) (ms0 t) (hs0 t) (ms1 t) (hs1 t) (ms2 t) (hs2 t) (ms3 t) (hs3 t) (ms4 t) (hs4 t) (ms5 t) (hs5 t) scM (Memref.isWhole_whole _) scL (Memref.isWhole_whole _) scD (Memref.isWhole_whole _) h1 h2 h3 (iblk m c 0 t) (iblk m c 1 t) (iblk m c 2 t)
abbrev rB (c : Dev nD) (t : Fin cfg0.N) (h1 : ¬condFirst (grid0.coords t)) (h2 : condPos (grid0.coords t)) (h3 : ¬condLast (grid0.coords t)) (p : St F) :=
  runB (F := F) c (grid0.coords t) (ms0 t) (hs0 t) (ms1 t) (hs1 t) (ms2 t) (hs2 t) (ms3 t) (hs3 t) (ms4 t) (hs4 t) (ms5 t) (hs5 t) scM (Memref.isWhole_whole _) scL (Memref.isWhole_whole _) scD (Memref.isWhole_whole _) h1 h2 h3 (iblk m c 0 t) (iblk m c 1 t) (iblk m c 2 t) p.sM p.sL p.sD
abbrev rC (c : Dev nD) (t : Fin cfg0.N) (h1 : ¬condFirst (grid0.coords t)) (h2 : ¬condPos (grid0.coords t)) (h3 : ¬condLast (grid0.coords t)) (p : St F) :=
  runC (F := F) c (grid0.coords t) (ms0 t) (hs0 t) (ms1 t) (hs1 t) (ms2 t) (hs2 t) (ms3 t) (hs3 t) (ms4 t) (hs4 t) (ms5 t) (hs5 t) scM (Memref.isWhole_whole _) scL (Memref.isWhole_whole _) scD (Memref.isWhole_whole _) h1 h2 h3 (iblk m c 0 t) (iblk m c 1 t) (iblk m c 2 t) p.sM p.sL
abbrev rD (c : Dev nD) (t : Fin cfg0.N) (h1 : ¬condFirst (grid0.coords t)) (h2 : ¬condPos (grid0.coords t)) (h3 : condLast (grid0.coords t)) (p : St F) :=
  runD (F := F) c (grid0.coords t) (ms0 t) (hs0 t) (ms1 t) (hs1 t) (ms2 t) (hs2 t) (ms3 t) (hs3 t) (ms4 t) (hs4 t) (ms5 t) (hs5 t) scM (Memref.isWhole_whole _) scL (Memref.isWhole_whole _) scD (Memref.isWhole_whole _) h1 h2 h3 (iblk m c 0 t) (iblk m c 1 t) (iblk m c 2 t) p.sM p.sL p.sD

/-! ## Every list of stores covers its buffer -/

theorem covA_M (c : Dev nD) (t : Fin cfg0.N) (h1 : condFirst (grid0.coords t)) (h2 : condPos (grid0.coords t)) (h3 : ¬condLast (grid0.coords t)) (y : S1024x1.Idx) :
    ∃ pc ∈ (rA m c t h1 h2 h3).1, y ∈ pc.1.set :=
  View.cover_of_tiledL (rA m c t h1 h2 h3).1 S1024x1.size (by sl_kernel_rfl) y
theorem covA_L (c : Dev nD) (t : Fin cfg0.N) (h1 : condFirst (grid0.coords t)) (h2 : condPos (grid0.coords t)) (h3 : ¬condLast (grid0.coords t)) (y : S1024x1.Idx) :
    ∃ pc ∈ (rA m c t h1 h2 h3).2.1, y ∈ pc.1.set :=
  View.cover_of_tiledL (rA m c t h1 h2 h3).2.1 S1024x1.size (by sl_kernel_rfl) y
theorem covA_D (c : Dev nD) (t : Fin cfg0.N) (h1 : condFirst (grid0.coords t)) (h2 : condPos (grid0.coords t)) (h3 : ¬condLast (grid0.coords t)) (y : S1024x1.Idx) :
    ∃ pc ∈ (rA m c t h1 h2 h3).2.2.1, y ∈ pc.1.set :=
  View.cover_of_tiledL (rA m c t h1 h2 h3).2.2.1 S1024x1.size (by sl_kernel_rfl) y

theorem covB_M (c : Dev nD) (t : Fin cfg0.N) (h1 : ¬condFirst (grid0.coords t)) (h2 : condPos (grid0.coords t)) (h3 : ¬condLast (grid0.coords t)) (p : St F) (y : S1024x1.Idx) :
    ∃ pc ∈ (rB m c t h1 h2 h3 p).1, y ∈ pc.1.set :=
  View.cover_of_tiledL (rB m c t h1 h2 h3 p).1 S1024x1.size (by sl_kernel_rfl) y
theorem covB_L (c : Dev nD) (t : Fin cfg0.N) (h1 : ¬condFirst (grid0.coords t)) (h2 : condPos (grid0.coords t)) (h3 : ¬condLast (grid0.coords t)) (p : St F) (y : S1024x1.Idx) :
    ∃ pc ∈ (rB m c t h1 h2 h3 p).2.1, y ∈ pc.1.set :=
  View.cover_of_tiledL (rB m c t h1 h2 h3 p).2.1 S1024x1.size (by sl_kernel_rfl) y
theorem covB_D (c : Dev nD) (t : Fin cfg0.N) (h1 : ¬condFirst (grid0.coords t)) (h2 : condPos (grid0.coords t)) (h3 : ¬condLast (grid0.coords t)) (p : St F) (y : S1024x1.Idx) :
    ∃ pc ∈ (rB m c t h1 h2 h3 p).2.2.1, y ∈ pc.1.set :=
  View.cover_of_tiledL (rB m c t h1 h2 h3 p).2.2.1 S1024x1.size (by sl_kernel_rfl) y

theorem covC_M (c : Dev nD) (t : Fin cfg0.N) (h1 : ¬condFirst (grid0.coords t)) (h2 : ¬condPos (grid0.coords t)) (h3 : ¬condLast (grid0.coords t)) (p : St F) (y : S1024x1.Idx) :
    ∃ pc ∈ (rC m c t h1 h2 h3 p).1, y ∈ pc.1.set :=
  View.cover_of_tiledL (rC m c t h1 h2 h3 p).1 S1024x1.size (by sl_kernel_rfl) y
theorem covC_L (c : Dev nD) (t : Fin cfg0.N) (h1 : ¬condFirst (grid0.coords t)) (h2 : ¬condPos (grid0.coords t)) (h3 : ¬condLast (grid0.coords t)) (p : St F) (y : S1024x1.Idx) :
    ∃ pc ∈ (rC m c t h1 h2 h3 p).2.1, y ∈ pc.1.set :=
  View.cover_of_tiledL (rC m c t h1 h2 h3 p).2.1 S1024x1.size (by sl_kernel_rfl) y

theorem covD_3 (c : Dev nD) (t : Fin cfg0.N) (h1 : ¬condFirst (grid0.coords t)) (h2 : ¬condPos (grid0.coords t)) (h3 : condLast (grid0.coords t)) (p : St F) (y : S1024x1.Idx) :
    ∃ pc ∈ (rD m c t h1 h2 h3 p).1, y ∈ pc.1.set :=
  View.cover_of_tiledL (rD m c t h1 h2 h3 p).1 S1024x1.size (by sl_kernel_rfl) y
theorem covD_4 (c : Dev nD) (t : Fin cfg0.N) (h1 : ¬condFirst (grid0.coords t)) (h2 : ¬condPos (grid0.coords t)) (h3 : condLast (grid0.coords t)) (p : St F) (y : S1024x1.Idx) :
    ∃ pc ∈ (rD m c t h1 h2 h3 p).2.1, y ∈ pc.1.set :=
  View.cover_of_tiledL (rD m c t h1 h2 h3 p).2.1 S1024x1.size (by sl_kernel_rfl) y
theorem covD_5 (c : Dev nD) (t : Fin cfg0.N) (h1 : ¬condFirst (grid0.coords t)) (h2 : ¬condPos (grid0.coords t)) (h3 : condLast (grid0.coords t)) (p : St F) (y : S1024x1.Idx) :
    ∃ pc ∈ (rD m c t h1 h2 h3 p).2.2.1, y ∈ pc.1.set :=
  View.cover_of_tiledL (rD m c t h1 h2 h3 p).2.2.1 S1024x1.size (by sl_kernel_rfl) y
theorem covD_M (c : Dev nD) (t : Fin cfg0.N) (h1 : ¬condFirst (grid0.coords t)) (h2 : ¬condPos (grid0.coords t)) (h3 : condLast (grid0.coords t)) (p : St F) (y : S1024x1.Idx) :
    ∃ pc ∈ (rD m c t h1 h2 h3 p).2.2.2.1, y ∈ pc.1.set :=
  View.cover_of_tiledL (rD m c t h1 h2 h3 p).2.2.2.1 S1024x1.size (by sl_kernel_rfl) y
theorem covD_L (c : Dev nD) (t : Fin cfg0.N) (h1 : ¬condFirst (grid0.coords t)) (h2 : ¬condPos (grid0.coords t)) (h3 : condLast (grid0.coords t)) (p : St F) (y : S1024x1.Idx) :
    ∃ pc ∈ (rD m c t h1 h2 h3 p).2.2.2.2.1, y ∈ pc.1.set :=
  View.cover_of_tiledL (rD m c t h1 h2 h3 p).2.2.2.2.1 S1024x1.size (by sl_kernel_rfl) y

/-! ## What each case leaves -/

/-- A value for an output's entry where the output is idle: never read. -/
def idleOut : Vec F S1024x1 .f32 := VO3.read (Elt F) VO3.junk

def stA (c : Dev nD) (t : Fin cfg0.N) (h1 : condFirst (grid0.coords t)) (h2 : condPos (grid0.coords t)) (h3 : ¬condLast (grid0.coords t)) : St F where
  o3 := idleOut
  o4 := idleOut
  o5 := idleOut
  sM := readBack VM (rA m c t h1 h2 h3).1
  sL := readBack VL (rA m c t h1 h2 h3).2.1
  sD := readBack VD (rA m c t h1 h2 h3).2.2.1

def stB (c : Dev nD) (t : Fin cfg0.N) (h1 : ¬condFirst (grid0.coords t)) (h2 : condPos (grid0.coords t)) (h3 : ¬condLast (grid0.coords t)) (p : St F) : St F where
  o3 := p.o3
  o4 := p.o4
  o5 := p.o5
  sM := readBack VM (rB m c t h1 h2 h3 p).1
  sL := readBack VL (rB m c t h1 h2 h3 p).2.1
  sD := readBack VD (rB m c t h1 h2 h3 p).2.2.1

def stC (c : Dev nD) (t : Fin cfg0.N) (h1 : ¬condFirst (grid0.coords t)) (h2 : ¬condPos (grid0.coords t)) (h3 : ¬condLast (grid0.coords t)) (p : St F) : St F where
  o3 := p.o3
  o4 := p.o4
  o5 := p.o5
  sM := readBack VM (rC m c t h1 h2 h3 p).1
  sL := readBack VL (rC m c t h1 h2 h3 p).2.1
  sD := p.sD

def stD (c : Dev nD) (t : Fin cfg0.N) (h1 : ¬condFirst (grid0.coords t)) (h2 : ¬condPos (grid0.coords t)) (h3 : condLast (grid0.coords t)) (p : St F) : St F where
  o3 := readBack VO3 (rD m c t h1 h2 h3 p).1
  o4 := readBack VO4 (rD m c t h1 h2 h3 p).2.1
  o5 := readBack VO5 (rD m c t h1 h2 h3 p).2.2.1
  sM := readBack VM (rD m c t h1 h2 h3 p).2.2.2.1
  sL := readBack VL (rD m c t h1 h2 h3 p).2.2.2.2.1
  sD := p.sD

/-! ## Point by point -/

/-- The buffers after point `n`. -/
def stAt (c : Dev nD) : (n : ℕ) → n < cfg0.N → St F
  | 0, hn => stA m c ⟨0, hn⟩ ((hcondFirst ⟨0, hn⟩).mpr (Nat.zero_mod _)) ((hcondPos ⟨0, hn⟩).mpr (by show 0 % 16 < 8; omega))
      (fun h => absurd ((hcondLast ⟨0, hn⟩).mp h) (by show ¬(0 % 16 = 15); omega))
  | n + 1, hn =>
    if h1 : (n + 1) % 16 = 0 then
      stA m c ⟨n + 1, hn⟩ ((hcondFirst ⟨n + 1, hn⟩).mpr h1) ((hcondPos ⟨n + 1, hn⟩).mpr (by show (n + 1) % 16 < 8; omega))
        (fun h => absurd ((hcondLast ⟨n + 1, hn⟩).mp h) (by show ¬((n + 1) % 16 = 15); omega))
    else if h2 : (n + 1) % 16 < 8 then
      stB m c ⟨n + 1, hn⟩ (fun h => h1 ((hcondFirst ⟨n + 1, hn⟩).mp h)) ((hcondPos ⟨n + 1, hn⟩).mpr h2)
        (fun h => absurd ((hcondLast ⟨n + 1, hn⟩).mp h) (by show ¬((n + 1) % 16 = 15); omega)) (stAt c n (Nat.lt_of_succ_lt hn))
    else if h3 : (n + 1) % 16 = 15 then
      stD m c ⟨n + 1, hn⟩ (fun h => h1 ((hcondFirst ⟨n + 1, hn⟩).mp h)) (fun h => h2 ((hcondPos ⟨n + 1, hn⟩).mp h))
        ((hcondLast ⟨n + 1, hn⟩).mpr h3) (stAt c n (Nat.lt_of_succ_lt hn))
    else
      stC m c ⟨n + 1, hn⟩ (fun h => h1 ((hcondFirst ⟨n + 1, hn⟩).mp h)) (fun h => h2 ((hcondPos ⟨n + 1, hn⟩).mp h))
        (fun h => h3 ((hcondLast ⟨n + 1, hn⟩).mp h)) (stAt c n (Nat.lt_of_succ_lt hn))

/-- The state before point `t`, for a point that is not the grid's first. -/
abbrev prevSt (c : Dev nD) (t : Fin cfg0.N) : St F :=
  stAt m c (t.val - 1) (Nat.lt_of_le_of_lt (Nat.sub_le _ _) t.isLt)

theorem stAt_A (c : Dev nD) (t : Fin cfg0.N) (h1 : t.val % 16 = 0) :
    stAt m c t.val t.isLt = stA m c t ((hcondFirst t).mpr h1) ((hcondPos t).mpr (by omega))
      (fun h => absurd ((hcondLast t).mp h) (by omega)) := by
  obtain ⟨n, hn⟩ := t
  cases n with
  | zero => rfl
  | succ n => exact (dif_pos h1).trans rfl

theorem stAt_B (c : Dev nD) (t : Fin cfg0.N) (h1 : ¬t.val % 16 = 0) (h2 : t.val % 16 < 8) :
    stAt m c t.val t.isLt = stB m c t (fun h => h1 ((hcondFirst t).mp h)) ((hcondPos t).mpr h2)
      (fun h => absurd ((hcondLast t).mp h) (by omega)) (prevSt m c t) := by
  obtain ⟨n, hn⟩ := t
  cases n with
  | zero => exact absurd (Nat.zero_mod _) h1
  | succ n => exact (dif_neg h1).trans ((dif_pos h2).trans rfl)

theorem stAt_C (c : Dev nD) (t : Fin cfg0.N) (h2 : ¬t.val % 16 < 8) (h3 : ¬t.val % 16 = 15) :
    stAt m c t.val t.isLt = stC m c t (fun h => absurd ((hcondFirst t).mp h) (by omega)) (fun h => h2 ((hcondPos t).mp h))
      (fun h => h3 ((hcondLast t).mp h)) (prevSt m c t) := by
  obtain ⟨n, hn⟩ := t
  cases n with
  | zero => exact absurd (show (0 : ℕ) % 16 < 8 by omega) h2
  | succ n =>
    have h1 : ¬(n + 1) % 16 = 0 := fun h => h2 (by show (n + 1) % 16 < 8; omega)
    exact (dif_neg h1).trans ((dif_neg h2).trans ((dif_neg h3).trans rfl))

theorem stAt_D (c : Dev nD) (t : Fin cfg0.N) (h3 : t.val % 16 = 15) :
    stAt m c t.val t.isLt = stD m c t (fun h => absurd ((hcondFirst t).mp h) (by omega)) (fun h => absurd ((hcondPos t).mp h) (by omega))
      ((hcondLast t).mpr h3) (prevSt m c t) := by
  obtain ⟨n, hn⟩ := t
  cases n with
  | zero => exact absurd h3 (by show ¬(0 % 16 = 15); omega)
  | succ n =>
    have h1 : ¬(n + 1) % 16 = 0 := fun h => by have : (n + 1) % 16 = 15 := h3; omega
    have h2 : ¬(n + 1) % 16 < 8 := fun h => by have : (n + 1) % 16 = 15 := h3; omega
    exact (dif_neg h1).trans ((dif_neg h2).trans ((dif_pos h3).trans rfl))

end Cert.Kernel.Body

end
-- ==== Proof.KFrame.lean ====
/-
  The kernel's frame: every fair execution of the program ends, faults nowhere and leaves the three inputs as they
  were.  The launch of the 64 points is the library's; what is owed to it is, for every point, that the body run on the
  buffers the launch hands it ends and leaves them as the point-by-point account says.  Between points the three
  running columns live in scratch buffers the launch does not describe, so the invariant carried from point to point
  names their contents: before the first point anything, afterwards what the point before left.  At each point the
  case it falls in decides which run applies; the run's lists of stores cover the buffers they go to, so the buffers
  hold those stores read back.  The host lines after the launch touch none of the launch's arrays.
-/
import proofs.«115192_j55619826483436_1_alg».proof.Proof.KState

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before point `n`: nothing known of the scratch before the first point; afterwards the three running columns at
    what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (stAt m c n hn).sM ∗ owns (c : Thread nD τ) scL fullShare (stAt m c n hn).sL
      ∗ owns (c : Thread nD τ) scD fullShare (stAt m c n hn).sD) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (stAt m c n hn).sM ∗ owns (c : Thread nD τ) scL fullShare (stAt m c n hn).sL
      ∗ owns (c : Thread nD τ) scD fullShare (stAt m c n hn).sD) ∗ (∃ r, prngReg c r)) := rfl

theorem PhiS_pos (c : Dev nD) (n : ℕ) (h : n ≤ cfg0.N) (hz : n ≠ 0) :
    PhiS m c n h = iprop(iprop(owns (c : Thread nD τ) scM fullShare (stAt m c (n - 1) (by omega)).sM ∗ owns (c : Thread nD τ) scL fullShare (stAt m c (n - 1) (by omega)).sL
      ∗ owns (c : Thread nD τ) scD fullShare (stAt m c (n - 1) (by omega)).sD) ∗ (∃ r, prngReg c r)) := by
  cases n with
  | zero => exact absurd rfl hz
  | succ n => rfl

/-! ## The proof data -/

/-- The arrays as the launch finds them; after the body at point `t` each input's buffer at its block and each output's
    at the account's entry; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stAt m c t.val t.isLt).o3
    | ⟨4, _⟩ => (stAt m c t.val t.isLt).o4
    | ⟨5, _⟩ => (stAt m c t.val t.isLt).o5
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (stAt m c t.val t.isLt).o3 := by dsimp only [dats]
theorem after4 (c : Dev nD) (t : Fin cfg0.N) : (dats m 0 c).after 4 t = (stAt m c t.val t.isLt).o4 := by dsimp only [dats]
theorem after5 (c : Dev nD) (t : Fin cfg0.N) : (dats m 0 c).after 5 t = (stAt m c t.val t.isLt).o5 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any point.  The inputs' buffers hold their blocks; the position of the point among its query block's
    sixteen says which case it is in and so which run applies; the invariant hands the run the running columns and
    takes them back at the account's entries for this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt0_eq]
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt N_eq
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h1 : t.val % 16 = 0
  · -- the first point of a query block
    have hF : condFirst (grid0.coords t) := (hcondFirst t).mpr h1
    have hP : condPos (grid0.coords t) := (hcondPos t).mpr (by omega)
    have hL : ¬condLast (grid0.coords t) := fun h => absurd ((hcondLast t).mp h) (by omega)
    rw [Dat.leavesExact_idle (dats m 0 c) 3 t (idle3 t hL) (noFlush3 t hL)]
    rw [Dat.leavesExact_idle (dats m 0 c) 4 t (idle4 t hL) (noFlush4 t hL)]
    rw [Dat.leavesExact_idle (dats m 0 c) 5 t (idle5 t hL) (noFlush5 t hL)]
    rw [stAt_A m c t h1]
    unfold stA readBack; dsimp only
    by_cases hz : t.val = 0
    · rw [PhiS_castSucc m c t, PhiS_zero m c _ _ hz, PhiA_eq]
      iintro ⟨⟨⟨HM, HL, HD⟩, Hg⟩, Ho, ⟨%d0, H0⟩, ⟨%d1, H1⟩, ⟨%d2, H2⟩, ⟨%d3, H3⟩, ⟨%d4, H4⟩, ⟨%d5, H5⟩⟩
      iapply ((rA m c t hF hP hL).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HL]; · iexact HL
      isplitl [HD]; · iexact HD
      iintro ⟨H0, H1, H2, H3, H4, H5, ⟨%eM, HM⟩, ⟨%eL, HL⟩, ⟨%eD, HD⟩⟩
      isplitl [HM HL HD Hg]
      · isplitl [HM HL HD]
        · isplitl [HM]
          · unfold owns; iexists _; isplitr
            swap; · iexact HM
            ipureintro; exact View.read_writes_of_cover _ _ _ _ _ (covA_M m c t hF hP hL)
          isplitl [HL]
          · unfold owns; iexists _; isplitr
            swap; · iexact HL
            ipureintro; exact View.read_writes_of_cover _ _ _ _ _ (covA_L m c t hF hP hL)
          unfold owns; iexists _; isplitr
          swap; · iexact HD
          ipureintro; exact View.read_writes_of_cover _ _ _ _ _ (covA_D m c t hF hP hL)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [PhiS_castSucc m c t, PhiS_pos m c _ _ hz]
      iintro ⟨⟨⟨HM, HL, HD⟩, Hg⟩, Ho, ⟨%d0, H0⟩, ⟨%d1, H1⟩, ⟨%d2, H2⟩, ⟨%d3, H3⟩, ⟨%d4, H4⟩, ⟨%d5, H5⟩⟩
      iapply ((rA m c t hF hP hL).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexists _; iexact HM
      isplitl [HL]; · iexists _; iexact HL
      isplitl [HD]; · iexists _; iexact HD
      iintro ⟨H0, H1, H2, H3, H4, H5, ⟨%eM, HM⟩, ⟨%eL, HL⟩, ⟨%eD, HD⟩⟩
      isplitl [HM HL HD Hg]
      · isplitl [HM HL HD]
        · isplitl [HM]
          · unfold owns; iexists _; isplitr
            swap; · iexact HM
            ipureintro; exact View.read_writes_of_cover _ _ _ _ _ (covA_M m c t hF hP hL)
          isplitl [HL]
          · unfold owns; iexists _; isplitr
            swap; · iexact HL
            ipureintro; exact View.read_writes_of_cover _ _ _ _ _ (covA_L m c t hF hP hL)
          unfold owns; iexists _; isplitr
          swap; · iexact HD
          ipureintro; exact View.read_writes_of_cover _ _ _ _ _ (covA_D m c t hF hP hL)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hz : t.val ≠ 0 := fun h => h1 (by rw [h])
    have hF : ¬condFirst (grid0.coords t) := fun h => h1 ((hcondFirst t).mp h)
    by_cases h2 : t.val % 16 < 8
    · -- a later point with keys from the second input
      have hP : condPos (grid0.coords t) := (hcondPos t).mpr h2
      have hL : ¬condLast (grid0.coords t) := fun h => absurd ((hcondLast t).mp h) (by omega)
      rw [Dat.leavesExact_idle (dats m 0 c) 3 t (idle3 t hL) (noFlush3 t hL)]
      rw [Dat.leavesExact_idle (dats m 0 c) 4 t (idle4 t hL) (noFlush4 t hL)]
      rw [Dat.leavesExact_idle (dats m 0 c) 5 t (idle5 t hL) (noFlush5 t hL)]
      rw [stAt_B m c t h1 h2]
      unfold stB readBack; dsimp only
      rw [PhiS_castSucc m c t, PhiS_pos m c _ _ hz]
      iintro ⟨⟨⟨HM, HL, HD⟩, Hg⟩, Ho, ⟨%d0, H0⟩, ⟨%d1, H1⟩, ⟨%d2, H2⟩, ⟨%d3, H3⟩, ⟨%d4, H4⟩, ⟨%d5, H5⟩⟩
      iapply ((rB m c t hF hP hL (prevSt m c t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HL]; · iexact HL
      isplitl [HD]; · iexact HD
      iintro ⟨H0, H1, H2, H3, H4, H5, ⟨%eM, HM⟩, ⟨%eL, HL⟩, ⟨%eD, HD⟩⟩
      isplitl [HM HL HD Hg]
      · isplitl [HM HL HD]
        · isplitl [HM]
          · unfold owns; iexists _; isplitr
            swap; · iexact HM
            ipureintro; exact View.read_writes_of_cover _ _ _ _ _ (covB_M m c t hF hP hL (prevSt m c t))
          isplitl [HL]
          · unfold owns; iexists _; isplitr
            swap; · iexact HL
            ipureintro; exact View.read_writes_of_cover _ _ _ _ _ (covB_L m c t hF hP hL (prevSt m c t))
          unfold owns; iexists _; isplitr
          swap; · iexact HD
          ipureintro; exact View.read_writes_of_cover _ _ _ _ _ (covB_D m c t hF hP hL (prevSt m c t))
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · have hP : ¬condPos (grid0.coords t) := fun h => h2 ((hcondPos t).mp h)
      by_cases h3 : t.val % 16 = 15
      · -- the last point of a query block
        have hL : condLast (grid0.coords t) := (hcondLast t).mpr h3
        rw [show (dats m 0 c).leavesExact 3 t = owns (c : Thread nD τ) (ms3 t) fullShare ((dats m 0 c).after 3 t) from by
          unfold Dat.leavesExact; rw [live3 t hL], after3]
        rw [show (dats m 0 c).leavesExact 4 t = owns (c : Thread nD τ) (ms4 t) fullShare ((dats m 0 c).after 4 t) from by
          unfold Dat.leavesExact; rw [live4 t hL], after4]
        rw [show (dats m 0 c).leavesExact 5 t = owns (c : Thread nD τ) (ms5 t) fullShare ((dats m 0 c).after 5 t) from by
          unfold Dat.leavesExact; rw [live5 t hL], after5]
        rw [stAt_D m c t h3]
        unfold stD readBack; dsimp only
        rw [PhiS_castSucc m c t, PhiS_pos m c _ _ hz]
        iintro ⟨⟨⟨HM, HL, HD⟩, Hg⟩, Ho, ⟨%d0, H0⟩, ⟨%d1, H1⟩, ⟨%d2, H2⟩, ⟨%d3, H3⟩, ⟨%d4, H4⟩, ⟨%d5, H5⟩⟩
        iapply ((rD m c t hF hP hL (prevSt m c t)).2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HM]; · iexact HM
        isplitl [HL]; · iexact HL
        isplitl [HD]; · iexact HD
        iintro ⟨H0, H1, H2, ⟨%e3, H3⟩, ⟨%e4, H4⟩, ⟨%e5, H5⟩, ⟨%eM, HM⟩, ⟨%eL, HL⟩, HD⟩
        isplitl [HM HL HD Hg]
        · isplitl [HM HL HD]
          · isplitl [HM]
            · unfold owns; iexists _; isplitr
              swap; · iexact HM
              ipureintro; exact View.read_writes_of_cover _ _ _ _ _ (covD_M m c t hF hP hL (prevSt m c t))
            isplitl [HL]
            · unfold owns; iexists _; isplitr
              swap; · iexact HL
              ipureintro; exact View.read_writes_of_cover _ _ _ _ _ (covD_L m c t hF hP hL (prevSt m c t))
            iexact HD
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (covD_3 m c t hF hP hL (prevSt m c t))
        isplitl [H4]
        · unfold owns; iexists _; isplitr
          swap; · iexact H4
          ipureintro; exact View.read_writes_of_cover _ _ _ _ _ (covD_4 m c t hF hP hL (prevSt m c t))
        unfold owns; iexists _; isplitr
        swap; · iexact H5
        ipureintro; exact View.read_writes_of_cover _ _ _ _ _ (covD_5 m c t hF hP hL (prevSt m c t))
      · -- a point with keys from the third input, not the last
        have hL : ¬condLast (grid0.coords t) := fun h => h3 ((hcondLast t).mp h)
        rw [Dat.leavesExact_idle (dats m 0 c) 3 t (idle3 t hL) (noFlush3 t hL)]
        rw [Dat.leavesExact_idle (dats m 0 c) 4 t (idle4 t hL) (noFlush4 t hL)]
        rw [Dat.leavesExact_idle (dats m 0 c) 5 t (idle5 t hL) (noFlush5 t hL)]
        rw [stAt_C m c t h2 h3]
        unfold stC readBack; dsimp only
        rw [PhiS_castSucc m c t, PhiS_pos m c _ _ hz]
        iintro ⟨⟨⟨HM, HL, HD⟩, Hg⟩, Ho, ⟨%d0, H0⟩, ⟨%d1, H1⟩, ⟨%d2, H2⟩, ⟨%d3, H3⟩, ⟨%d4, H4⟩, ⟨%d5, H5⟩⟩
        iapply ((rC m c t hF hP hL (prevSt m c t)).2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexact HM
        isplitl [HL]; · iexact HL
        isplitl [HD]; · iexact HD
        iintro ⟨H0, H1, H2, H3, H4, H5, ⟨%eM, HM⟩, ⟨%eL, HL⟩, HD⟩
        isplitl [HM HL HD Hg]
        · isplitl [HM HL HD]
          · isplitl [HM]
            · unfold owns; iexists _; isplitr
              swap; · iexact HM
              ipureintro; exact View.read_writes_of_cover _ _ _ _ _ (covC_M m c t hF hP hL (prevSt m c t))
            isplitl [HL]
            · unfold owns; iexists _; isplitr
              swap; · iexact HL
              ipureintro; exact View.read_writes_of_cover _ _ _ _ _ (covC_L m c t hF hP hL (prevSt m c t))
            iexact HD
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch back with its contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HM, HL, HD⟩, Hg⟩
  isplitl [HM HL HD]
  · isplitl [HM]; · iexists _; iexact HM
    isplitl [HL]; · iexists _; iexact HL
    iexists _; iexact HD
  iexact Hg

theorem hout (c : Dev nD) : (dats m 0 c).Φ (Fin.last cfg0.N) ⊢ Pipeline.ΦA spec0 c :=
  Phi_out m c _ (by rw [Fin.val_last]; have : cfg0.N = 64 := N_eq; omega)

/-! ## The run and the frame -/

set_option backward.isDefEq.respectTransparency.types false in
/-- Every fair execution of the program ends, and the final state has every array of the launch at what the library
    computes from the proof data and every other buffer as the lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KIConds.lean ====
/-
  The grid of the kernel is 4 × 2 × 8: a block of 1024 query rows, then the source of the keys (the second input, then
  the third), then a block of 512 key rows.  Its 64 points are run in order, sixteen to a query block.  The body
  branches three times on the point: at the first of a query block's sixteen points it resets its three running
  columns (maximum, sum, diagonal); while the keys come from the second input — the first eight of the sixteen — it
  adds to the diagonal; at the last of the sixteen it copies the three columns to its outputs.  This module states the
  three conditions as the body computes them, decides each over the 64 points in closed form (position 0, positions
  below 8, position 15 within the sixteen), says where the outputs are idle and where they are written back, and names
  the staging buffers the body is called on and the three scratch buffers that carry the running columns.
-/
import proofs.«115192_j55619826483436_1_alg».proof.Proof.Gen.KernelIdeal.Frame
import proofs.«115192_j55619826483436_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The three conditions -/

/-- The body resets its running columns: keys from the second input and key block 0. -/
abbrev condFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The keys come from the second input: the diagonal is added to. -/
abbrev condPos (i : grid0.Coords) : Prop :=
  (Scalar.cmpi .ne (Scalar.extui (Scalar.cmpi .eq (BitVec.ofNat 32 (i 1).val) 0#32)) 0#32) = 1#1
/-- The body copies its running columns out: keys from the third input and key block 7. -/
abbrev condLast (i : grid0.Coords) : Prop := k0_cond3 i = 1#1

theorem hcondFirst : ∀ t : Fin cfg0.N, condFirst (grid0.coords t) ↔ t.val % 16 = 0 :=
  (by decide +kernel : ∀ t : Fin grid0.N, condFirst (grid0.coords t) ↔ t.val % 16 = 0)
theorem hcondPos : ∀ t : Fin cfg0.N, condPos (grid0.coords t) ↔ t.val % 16 < 8 :=
  (by decide +kernel : ∀ t : Fin grid0.N, condPos (grid0.coords t) ↔ t.val % 16 < 8)
theorem hcondLast : ∀ t : Fin cfg0.N, condLast (grid0.coords t) ↔ t.val % 16 = 15 :=
  (by decide +kernel : ∀ t : Fin grid0.N, condLast (grid0.coords t) ↔ t.val % 16 = 15)

theorem N_eq : cfg0.N = 64 := by decide +kernel

/-! ## Where the windows are idle and where they are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from a query block's last point the three outputs are idle and not written back. -/
theorem idle3 : ∀ t : Fin cfg0.N, ¬condLast (grid0.coords t) → cfg0.idle 3 (grid0.coords t) = true := by decide +kernel
theorem idle4 : ∀ t : Fin cfg0.N, ¬condLast (grid0.coords t) → cfg0.idle 4 (grid0.coords t) = true := by decide +kernel
theorem idle5 : ∀ t : Fin cfg0.N, ¬condLast (grid0.coords t) → cfg0.idle 5 (grid0.coords t) = true := by decide +kernel
theorem noFlush3 : ∀ t : Fin cfg0.N, ¬condLast (grid0.coords t) → (cfg0.win 3).flush t = false := by decide +kernel
theorem noFlush4 : ∀ t : Fin cfg0.N, ¬condLast (grid0.coords t) → (cfg0.win 4).flush t = false := by decide +kernel
theorem noFlush5 : ∀ t : Fin cfg0.N, ¬condLast (grid0.coords t) → (cfg0.win 5).flush t = false := by decide +kernel
/-- At the last point they are live. -/
theorem live3 : ∀ t : Fin cfg0.N, condLast (grid0.coords t) → cfg0.idle 3 (grid0.coords t) = false := by decide +kernel
theorem live4 : ∀ t : Fin cfg0.N, condLast (grid0.coords t) → cfg0.idle 4 (grid0.coords t) = false := by decide +kernel
theorem live5 : ∀ t : Fin cfg0.N, condLast (grid0.coords t) → cfg0.idle 5 (grid0.coords t) = false := by decide +kernel

/-! ## The buffers the body is called on -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)

/-- The scratch buffers: the running maximum, the running sum, the running diagonal. -/
abbrev scM : Memref sig .tc .vmem S1024x1 .f32 := Memref.whole cc0_scratch0
abbrev scL : Memref sig .tc .vmem S1024x1 .f32 := Memref.whole cc0_scratch1
abbrev scD : Memref sig .tc .vmem S1024x1 .f32 := Memref.whole cc0_scratch2

/-- The body at a point, on those buffers. -/
theorem bodyAt0_eq (t : Fin cfg0.N) :
    (bodyAt0 (F := F) t) = cc0__kernel (grid0.coords t) (ms0 t) (hs0 t) (ms1 t) (hs1 t) (ms2 t) (hs2 t) (ms3 t) (hs3 t) (ms4 t) (hs4 t) (ms5 t) (hs5 t)
      scM (Memref.isWhole_whole _) scL (Memref.isWhole_whole _) scD (Memref.isWhole_whole _) := rfl

/-- What the launch lends the body besides the windows: the three scratch buffers at some contents, and the
    generator register. -/
theorem PhiA_eq (c : Dev nD) :
    (Pipeline.ΦA spec0 c : sProp 𝕄)
      = iprop(iprop((∃ d, owns (c : Thread nD τ) scM fullShare d) ∗ (∃ d, owns (c : Thread nD τ) scL fullShare d) ∗ (∃ d, owns (c : Thread nD τ) scD fullShare d)) ∗ (∃ r, prngReg c r)) := by
  unfold Pipeline.ΦA; rw [scopedRest0_eq]; simp only [scM, scL, scD, owns_whole]; try rfl

end Cert.KernelIdeal.Body

end
-- ==== Proof.KIRunA.lean ====
/-
  The body at the first point of a query block: keys from the second input, key block 0.  It first stores the initial
  values into its three running columns — minus infinity, zero, zero — whatever they held, then reads its input
  blocks and the columns back and stores each column again: the block's maximum, the block's sum of shifted
  exponentials, the block's diagonal pick.  It stores nothing into the outputs, which it hands back as it found them.
-/
import proofs.«115192_j55619826483436_1_alg».proof.Proof.KIConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- On whole buffers — the inputs at their blocks, the outputs at whatever they hold, the running columns at anything
    — the body runs, leaves inputs and outputs as they were, and leaves each running column with the stores listed
    (last first); the lists are found by the run. -/
noncomputable def runA (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : condFirst i) (hc2 : condPos i) (hc3 : ¬condLast i)
    (x0 : Vec F S1024x256 .f32) (x1 x2 : Vec F S512x256 .f32) :
    Σ' (LM : List (View.Piece (Elt F) S1024x1 .f32)) (LL : List (View.Piece (Elt F) S1024x1 .f32)), { LD : List (View.Piece (Elt F) S1024x1 .f32) //
      ∀ (xi3 xi4 xi5 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4 ∗ owns (c : Thread nD τ) arg8 fullShare xi5
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4 ∗ owns (c : Thread nD τ) arg8 fullShare xi5
                ∗ (∃ f, arg9.view.loc (c : Thread nD τ) ↦[arg9.view.set]{fullShare} arg9.view.writes (Elt F) f LM)
                ∗ (∃ f, arg10.view.loc (c : Thread nD τ) ↦[arg10.view.set]{fullShare} arg10.view.writes (Elt F) f LL)
                ∗ (∃ f, arg11.view.loc (c : Thread nD τ) ↦[arg11.view.set]{fullShare} arg11.view.writes (Elt F) f LD)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, ?_, fun xi3 xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dM, %fM, -, HM⟩, ⟨%dL, %fL, -, HL⟩, ⟨%dD, %fD, -, HD⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HM]; · iexists _; iexact HM
    isplitl [HL]; · iexists _; iexact HL
    iexists _; iexact HD

end Cert.KernelIdeal.Body

end
-- ==== Proof.KIRunB.lean ====
/-
  The body at a point in the middle of a query block's first eight: not the first point, keys from the second input,
  not the last point.  It reads its three input blocks and its three running columns, and stores each running column
  once: the new maximum, the rescaled sum with the block's terms added, the diagonal with the block's pick added.  It
  stores nothing into the outputs, which it hands back as it found them.
-/
import proofs.«115192_j55619826483436_1_alg».proof.Proof.KIConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- On whole buffers — the inputs at their blocks, the outputs at whatever they hold, the running columns at what the
    point before left — the body runs, leaves inputs and outputs as they were, and leaves each running column with the
    stores listed (last first); the lists are found by the run. -/
noncomputable def runB (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : ¬condFirst i) (hc2 : condPos i) (hc3 : ¬condLast i)
    (x0 : Vec F S1024x256 .f32) (x1 x2 : Vec F S512x256 .f32) (xsM xsL xsD : Vec F S1024x1 .f32) :
    Σ' (LM : List (View.Piece (Elt F) S1024x1 .f32)) (LL : List (View.Piece (Elt F) S1024x1 .f32)), { LD : List (View.Piece (Elt F) S1024x1 .f32) //
      ∀ (xi3 xi4 xi5 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4 ∗ owns (c : Thread nD τ) arg8 fullShare xi5
            ∗ owns (c : Thread nD τ) arg9 fullShare xsM ∗ owns (c : Thread nD τ) arg10 fullShare xsL ∗ owns (c : Thread nD τ) arg11 fullShare xsD
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4 ∗ owns (c : Thread nD τ) arg8 fullShare xi5
                ∗ (∃ f, arg9.view.loc (c : Thread nD τ) ↦[arg9.view.set]{fullShare} arg9.view.writes (Elt F) f LM)
                ∗ (∃ f, arg10.view.loc (c : Thread nD τ) ↦[arg10.view.set]{fullShare} arg10.view.writes (Elt F) f LL)
                ∗ (∃ f, arg11.view.loc (c : Thread nD τ) ↦[arg11.view.set]{fullShare} arg11.view.writes (Elt F) f LD)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, ?_, fun xi3 xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fM, %hfM, HM⟩, ⟨%fL, %hfL, HL⟩, ⟨%fD, %hfD, HD⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfM; obtain rfl := harg10.eq_unread hfL; obtain rfl := harg11.eq_unread hfD
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HM]; · iexists _; iexact HM
    isplitl [HL]; · iexists _; iexact HL
    iexists _; iexact HD

end Cert.KernelIdeal.Body

end
-- ==== Proof.KIRunC.lean ====
/-
  The body at a point where the keys come from the third input and which is not a query block's last: it updates the
  running maximum and the running sum from the block, does not touch the running diagonal (that column belongs to the
  positives alone), and stores nothing into the outputs.
-/
import proofs.«115192_j55619826483436_1_alg».proof.Proof.KIConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- On whole buffers — the inputs at their blocks, the outputs and the running diagonal at whatever they hold, the
    running maximum and sum at what the point before left — the body runs, leaves inputs, outputs and the running
    diagonal as they were, and leaves the running maximum and sum with the stores listed (last first); the lists are
    found by the run. -/
noncomputable def runC (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : ¬condFirst i) (hc2 : ¬condPos i) (hc3 : ¬condLast i)
    (x0 : Vec F S1024x256 .f32) (x1 x2 : Vec F S512x256 .f32) (xsM xsL : Vec F S1024x1 .f32) :
    Σ' (LM : List (View.Piece (Elt F) S1024x1 .f32)), { LL : List (View.Piece (Elt F) S1024x1 .f32) //
      ∀ (xi3 xi4 xi5 xsD : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4 ∗ owns (c : Thread nD τ) arg8 fullShare xi5
            ∗ owns (c : Thread nD τ) arg9 fullShare xsM ∗ owns (c : Thread nD τ) arg10 fullShare xsL ∗ owns (c : Thread nD τ) arg11 fullShare xsD
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4 ∗ owns (c : Thread nD τ) arg8 fullShare xi5
                ∗ (∃ f, arg9.view.loc (c : Thread nD τ) ↦[arg9.view.set]{fullShare} arg9.view.writes (Elt F) f LM)
                ∗ (∃ f, arg10.view.loc (c : Thread nD τ) ↦[arg10.view.set]{fullShare} arg10.view.writes (Elt F) f LL)
                ∗ owns (c : Thread nD τ) arg11 fullShare xsD) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, fun xi3 xi4 xi5 xsD E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fM, %hfM, HM⟩, ⟨%fL, %hfL, HL⟩, ⟨%fD, %hfD, HD⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfM; obtain rfl := harg10.eq_unread hfL; obtain rfl := harg11.eq_unread hfD
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HM]; · iexists _; iexact HM
    isplitl [HL]; · iexists _; iexact HL
    iexists _; isplitr; · ipureintro; exact harg11.read_unread _
    iexact HD

end Cert.KernelIdeal.Body

end
-- ==== Proof.KIRunD.lean ====
/-
  The body at the last point of a query block: keys from the third input, key block 7.  It updates the running maximum
  and the running sum from the block as at every point, leaves the running diagonal alone, and then copies the three
  running columns — the maximum and the sum as just stored, the diagonal as the positives left it — into its three
  outputs, whatever those held.
-/
import proofs.«115192_j55619826483436_1_alg».proof.Proof.KIConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- On whole buffers — the inputs at their blocks, the outputs at anything, the running columns at what the point
    before left — the body runs, leaves the inputs and the running diagonal as they were, and leaves the running
    maximum, the running sum and each output with the stores listed (last first); the lists are found by the run. -/
noncomputable def runD (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc1 : ¬condFirst i) (hc2 : ¬condPos i) (hc3 : condLast i)
    (x0 : Vec F S1024x256 .f32) (x1 x2 : Vec F S512x256 .f32) (xsM xsL xsD : Vec F S1024x1 .f32) :
    Σ' (L3 : List (View.Piece (Elt F) S1024x1 .f32)) (L4 : List (View.Piece (Elt F) S1024x1 .f32)) (L5 : List (View.Piece (Elt F) S1024x1 .f32)) (LM : List (View.Piece (Elt F) S1024x1 .f32)), { LL : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xsM ∗ owns (c : Thread nD τ) arg10 fullShare xsL ∗ owns (c : Thread nD τ) arg11 fullShare xsD
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LM)
                ∗ (∃ f, arg10.view.loc (c : Thread nD τ) ↦[arg10.view.set]{fullShare} arg10.view.writes (Elt F) f LL)
                ∗ owns (c : Thread nD τ) arg11 fullShare xsD) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fM, %hfM, HM⟩, ⟨%fL, %hfL, HL⟩, ⟨%fD, %hfD, HD⟩, Hk⟩
    obtain rfl := harg3.eq_unread hf0; obtain rfl := harg4.eq_unread hf1; obtain rfl := harg5.eq_unread hf2
    obtain rfl := harg9.eq_unread hfM; obtain rfl := harg10.eq_unread hfL; obtain rfl := harg11.eq_unread hfD
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    isplitl [HM]; · iexists _; iexact HM
    isplitl [HL]; · iexists _; iexact HL
    iexists _; isplitr; · ipureintro; exact harg11.read_unread _
    iexact HD

end Cert.KernelIdeal.Body

end
-- ==== Proof.KIState.lean ====
/-
  What the kernel's buffers hold after each of the 64 points.  A point falls in one of four cases (first of its query
  block; a later point with keys from the second input; a point with keys from the third input that is not the last;
  the last).  In each case the body's run lists the stores it made into each buffer, and every such list covers the
  whole buffer, so the buffer's contents afterwards are those stores read back.  The contents after point `n` are
  then defined by recursion on `n`: the case of point `n` applied to the input blocks at `n` and, for the running
  columns, to what point `n - 1` left (the first point of a query block starts afresh).  The outputs are only stored
  at a query block's last point; elsewhere their entry here is a placeholder nothing reads.
-/
import proofs.«115192_j55619826483436_1_alg».proof.Proof.KIRunA
import proofs.«115192_j55619826483436_1_alg».proof.Proof.KIRunB
import proofs.«115192_j55619826483436_1_alg».proof.Proof.KIRunC
import proofs.«115192_j55619826483436_1_alg».proof.Proof.KIRunD

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The views through which the six one-column buffers' contents are stated. -/
abbrev VM : View sig .tc .vmem S1024x1 .f32 := scM.view
abbrev VL : View sig .tc .vmem S1024x1 .f32 := scL.view
abbrev VD : View sig .tc .vmem S1024x1 .f32 := scD.view
abbrev VO3 : View sig .tc .vmem S1024x1 .f32 := (Memref.whole cc0_stg3_0 : Memref sig .tc .vmem S1024x1 .f32).view
abbrev VO4 : View sig .tc .vmem S1024x1 .f32 := (Memref.whole cc0_stg4_0 : Memref sig .tc .vmem S1024x1 .f32).view
abbrev VO5 : View sig .tc .vmem S1024x1 .f32 := (Memref.whole cc0_stg5_0 : Memref sig .tc .vmem S1024x1 .f32).view

/-- A list of stores read back through a view. -/
def readBack (V : View sig .tc .vmem S1024x1 .f32) (L : List (View.Piece (Elt F) S1024x1 .f32)) : Vec F S1024x1 .f32 :=
  V.read (Elt F) (V.writes (Elt F) V.junk L)

/-- The three outputs' staging buffers and the three running columns after a point. -/
structure St (F : FTy → Type) where
  o3 : Vec F S1024x1 .f32
  o4 : Vec F S1024x1 .f32
  o5 : Vec F S1024x1 .f32
  sM : Vec F S1024x1 .f32
  sL : Vec F S1024x1 .f32
  sD : Vec F S1024x1 .f32

/-! ## The four runs at a point of the grid -/

abbrev rA (c : Dev nD) (t : Fin cfg0.N) (h1 : condFirst (grid0.coords t)) (h2 : condPos (grid0.coords t)) (h3 : ¬condLast (grid0.coords t)) :=
  runA (F := F) c (grid0.coords t) (ms0 t) (hs0 t) (ms1 t) (hs1 t) (ms2 t) (hs2 t) (ms3 t) (hs3 t) (ms4 t) (hs4 t) (ms5 t) (hs5 t) scM (Memref.isWhole_whole _) scL (Memref.isWhole_whole _) scD (Memref.isWhole_whole _) h1 h2 h3 (iblk m c 0 t) (iblk m c 1 t) (iblk m c 2 t)
abbrev rB (c : Dev nD) (t : Fin cfg0.N) (h1 : ¬condFirst (grid0.coords t)) (h2 : condPos (grid0.coords t)) (h3 : ¬condLast (grid0.coords t)) (p : St F) :=
  runB (F := F) c (grid0.coords t) (ms0 t) (hs0 t) (ms1 t) (hs1 t) (ms2 t) (hs2 t) (ms3 t) (hs3 t) (ms4 t) (hs4 t) (ms5 t) (hs5 t) scM (Memref.isWhole_whole _) scL (Memref.isWhole_whole _) scD (Memref.isWhole_whole _) h1 h2 h3 (iblk m c 0 t) (iblk m c 1 t) (iblk m c 2 t) p.sM p.sL p.sD
abbrev rC (c : Dev nD) (t : Fin cfg0.N) (h1 : ¬condFirst (grid0.coords t)) (h2 : ¬condPos (grid0.coords t)) (h3 : ¬condLast (grid0.coords t)) (p : St F) :=
  runC (F := F) c (grid0.coords t) (ms0 t) (hs0 t) (ms1 t) (hs1 t) (ms2 t) (hs2 t) (ms3 t) (hs3 t) (ms4 t) (hs4 t) (ms5 t) (hs5 t) scM (Memref.isWhole_whole _) scL (Memref.isWhole_whole _) scD (Memref.isWhole_whole _) h1 h2 h3 (iblk m c 0 t) (iblk m c 1 t) (iblk m c 2 t) p.sM p.sL
abbrev rD (c : Dev nD) (t : Fin cfg0.N) (h1 : ¬condFirst (grid0.coords t)) (h2 : ¬condPos (grid0.coords t)) (h3 : condLast (grid0.coords t)) (p : St F) :=
  runD (F := F) c (grid0.coords t) (ms0 t) (hs0 t) (ms1 t) (hs1 t) (ms2 t) (hs2 t) (ms3 t) (hs3 t) (ms4 t) (hs4 t) (ms5 t) (hs5 t) scM (Memref.isWhole_whole _) scL (Memref.isWhole_whole _) scD (Memref.isWhole_whole _) h1 h2 h3 (iblk m c 0 t) (iblk m c 1 t) (iblk m c 2 t) p.sM p.sL p.sD

/-! ## Every list of stores covers its buffer -/

theorem covA_M (c : Dev nD) (t : Fin cfg0.N) (h1 : condFirst (grid0.coords t)) (h2 : condPos (grid0.coords t)) (h3 : ¬condLast (grid0.coords t)) (y : S1024x1.Idx) :
    ∃ pc ∈ (rA m c t h1 h2 h3).1, y ∈ pc.1.set :=
  View.cover_of_tiledL (rA m c t h1 h2 h3).1 S1024x1.size (by sl_kernel_rfl) y
theorem covA_L (c : Dev nD) (t : Fin cfg0.N) (h1 : condFirst (grid0.coords t)) (h2 : condPos (grid0.coords t)) (h3 : ¬condLast (grid0.coords t)) (y : S1024x1.Idx) :
    ∃ pc ∈ (rA m c t h1 h2 h3).2.1, y ∈ pc.1.set :=
  View.cover_of_tiledL (rA m c t h1 h2 h3).2.1 S1024x1.size (by sl_kernel_rfl) y
theorem covA_D (c : Dev nD) (t : Fin cfg0.N) (h1 : condFirst (grid0.coords t)) (h2 : condPos (grid0.coords t)) (h3 : ¬condLast (grid0.coords t)) (y : S1024x1.Idx) :
    ∃ pc ∈ (rA m c t h1 h2 h3).2.2.1, y ∈ pc.1.set :=
  View.cover_of_tiledL (rA m c t h1 h2 h3).2.2.1 S1024x1.size (by sl_kernel_rfl) y

theorem covB_M (c : Dev nD) (t : Fin cfg0.N) (h1 : ¬condFirst (grid0.coords t)) (h2 : condPos (grid0.coords t)) (h3 : ¬condLast (grid0.coords t)) (p : St F) (y : S1024x1.Idx) :
    ∃ pc ∈ (rB m c t h1 h2 h3 p).1, y ∈ pc.1.set :=
  View.cover_of_tiledL (rB m c t h1 h2 h3 p).1 S1024x1.size (by sl_kernel_rfl) y
theorem covB_L (c : Dev nD) (t : Fin cfg0.N) (h1 : ¬condFirst (grid0.coords t)) (h2 : condPos (grid0.coords t)) (h3 : ¬condLast (grid0.coords t)) (p : St F) (y : S1024x1.Idx) :
    ∃ pc ∈ (rB m c t h1 h2 h3 p).2.1, y ∈ pc.1.set :=
  View.cover_of_tiledL (rB m c t h1 h2 h3 p).2.1 S1024x1.size (by sl_kernel_rfl) y
theorem covB_D (c : Dev nD) (t : Fin cfg0.N) (h1 : ¬condFirst (grid0.coords t)) (h2 : condPos (grid0.coords t)) (h3 : ¬condLast (grid0.coords t)) (p : St F) (y : S1024x1.Idx) :
    ∃ pc ∈ (rB m c t h1 h2 h3 p).2.2.1, y ∈ pc.1.set :=
  View.cover_of_tiledL (rB m c t h1 h2 h3 p).2.2.1 S1024x1.size (by sl_kernel_rfl) y

theorem covC_M (c : Dev nD) (t : Fin cfg0.N) (h1 : ¬condFirst (grid0.coords t)) (h2 : ¬condPos (grid0.coords t)) (h3 : ¬condLast (grid0.coords t)) (p : St F) (y : S1024x1.Idx) :
    ∃ pc ∈ (rC m c t h1 h2 h3 p).1, y ∈ pc.1.set :=
  View.cover_of_tiledL (rC m c t h1 h2 h3 p).1 S1024x1.size (by sl_kernel_rfl) y
theorem covC_L (c : Dev nD) (t : Fin cfg0.N) (h1 : ¬condFirst (grid0.coords t)) (h2 : ¬condPos (grid0.coords t)) (h3 : ¬condLast (grid0.coords t)) (p : St F) (y : S1024x1.Idx) :
    ∃ pc ∈ (rC m c t h1 h2 h3 p).2.1, y ∈ pc.1.set :=
  View.cover_of_tiledL (rC m c t h1 h2 h3 p).2.1 S1024x1.size (by sl_kernel_rfl) y

theorem covD_3 (c : Dev nD) (t : Fin cfg0.N) (h1 : ¬condFirst (grid0.coords t)) (h2 : ¬condPos (grid0.coords t)) (h3 : condLast (grid0.coords t)) (p : St F) (y : S1024x1.Idx) :
    ∃ pc ∈ (rD m c t h1 h2 h3 p).1, y ∈ pc.1.set :=
  View.cover_of_tiledL (rD m c t h1 h2 h3 p).1 S1024x1.size (by sl_kernel_rfl) y
theorem covD_4 (c : Dev nD) (t : Fin cfg0.N) (h1 : ¬condFirst (grid0.coords t)) (h2 : ¬condPos (grid0.coords t)) (h3 : condLast (grid0.coords t)) (p : St F) (y : S1024x1.Idx) :
    ∃ pc ∈ (rD m c t h1 h2 h3 p).2.1, y ∈ pc.1.set :=
  View.cover_of_tiledL (rD m c t h1 h2 h3 p).2.1 S1024x1.size (by sl_kernel_rfl) y
theorem covD_5 (c : Dev nD) (t : Fin cfg0.N) (h1 : ¬condFirst (grid0.coords t)) (h2 : ¬condPos (grid0.coords t)) (h3 : condLast (grid0.coords t)) (p : St F) (y : S1024x1.Idx) :
    ∃ pc ∈ (rD m c t h1 h2 h3 p).2.2.1, y ∈ pc.1.set :=
  View.cover_of_tiledL (rD m c t h1 h2 h3 p).2.2.1 S1024x1.size (by sl_kernel_rfl) y
theorem covD_M (c : Dev nD) (t : Fin cfg0.N) (h1 : ¬condFirst (grid0.coords t)) (h2 : ¬condPos (grid0.coords t)) (h3 : condLast (grid0.coords t)) (p : St F) (y : S1024x1.Idx) :
    ∃ pc ∈ (rD m c t h1 h2 h3 p).2.2.2.1, y ∈ pc.1.set :=
  View.cover_of_tiledL (rD m c t h1 h2 h3 p).2.2.2.1 S1024x1.size (by sl_kernel_rfl) y
theorem covD_L (c : Dev nD) (t : Fin cfg0.N) (h1 : ¬condFirst (grid0.coords t)) (h2 : ¬condPos (grid0.coords t)) (h3 : condLast (grid0.coords t)) (p : St F) (y : S1024x1.Idx) :
    ∃ pc ∈ (rD m c t h1 h2 h3 p).2.2.2.2.1, y ∈ pc.1.set :=
  View.cover_of_tiledL (rD m c t h1 h2 h3 p).2.2.2.2.1 S1024x1.size (by sl_kernel_rfl) y

/-! ## What each case leaves -/

/-- A value for an output's entry where the output is idle: never read. -/
def idleOut : Vec F S1024x1 .f32 := VO3.read (Elt F) VO3.junk

def stA (c : Dev nD) (t : Fin cfg0.N) (h1 : condFirst (grid0.coords t)) (h2 : condPos (grid0.coords t)) (h3 : ¬condLast (grid0.coords t)) : St F where
  o3 := idleOut
  o4 := idleOut
  o5 := idleOut
  sM := readBack VM (rA m c t h1 h2 h3).1
  sL := readBack VL (rA m c t h1 h2 h3).2.1
  sD := readBack VD (rA m c t h1 h2 h3).2.2.1

def stB (c : Dev nD) (t : Fin cfg0.N) (h1 : ¬condFirst (grid0.coords t)) (h2 : condPos (grid0.coords t)) (h3 : ¬condLast (grid0.coords t)) (p : St F) : St F where
  o3 := p.o3
  o4 := p.o4
  o5 := p.o5
  sM := readBack VM (rB m c t h1 h2 h3 p).1
  sL := readBack VL (rB m c t h1 h2 h3 p).2.1
  sD := readBack VD (rB m c t h1 h2 h3 p).2.2.1

def stC (c : Dev nD) (t : Fin cfg0.N) (h1 : ¬condFirst (grid0.coords t)) (h2 : ¬condPos (grid0.coords t)) (h3 : ¬condLast (grid0.coords t)) (p : St F) : St F where
  o3 := p.o3
  o4 := p.o4
  o5 := p.o5
  sM := readBack VM (rC m c t h1 h2 h3 p).1
  sL := readBack VL (rC m c t h1 h2 h3 p).2.1
  sD := p.sD

def stD (c : Dev nD) (t : Fin cfg0.N) (h1 : ¬condFirst (grid0.coords t)) (h2 : ¬condPos (grid0.coords t)) (h3 : condLast (grid0.coords t)) (p : St F) : St F where
  o3 := readBack VO3 (rD m c t h1 h2 h3 p).1
  o4 := readBack VO4 (rD m c t h1 h2 h3 p).2.1
  o5 := readBack VO5 (rD m c t h1 h2 h3 p).2.2.1
  sM := readBack VM (rD m c t h1 h2 h3 p).2.2.2.1
  sL := readBack VL (rD m c t h1 h2 h3 p).2.2.2.2.1
  sD := p.sD

/-! ## Point by point -/

/-- The buffers after point `n`. -/
def stAt (c : Dev nD) : (n : ℕ) → n < cfg0.N → St F
  | 0, hn => stA m c ⟨0, hn⟩ ((hcondFirst ⟨0, hn⟩).mpr (Nat.zero_mod _)) ((hcondPos ⟨0, hn⟩).mpr (by show 0 % 16 < 8; omega))
      (fun h => absurd ((hcondLast ⟨0, hn⟩).mp h) (by show ¬(0 % 16 = 15); omega))
  | n + 1, hn =>
    if h1 : (n + 1) % 16 = 0 then
      stA m c ⟨n + 1, hn⟩ ((hcondFirst ⟨n + 1, hn⟩).mpr h1) ((hcondPos ⟨n + 1, hn⟩).mpr (by show (n + 1) % 16 < 8; omega))
        (fun h => absurd ((hcondLast ⟨n + 1, hn⟩).mp h) (by show ¬((n + 1) % 16 = 15); omega))
    else if h2 : (n + 1) % 16 < 8 then
      stB m c ⟨n + 1, hn⟩ (fun h => h1 ((hcondFirst ⟨n + 1, hn⟩).mp h)) ((hcondPos ⟨n + 1, hn⟩).mpr h2)
        (fun h => absurd ((hcondLast ⟨n + 1, hn⟩).mp h) (by show ¬((n + 1) % 16 = 15); omega)) (stAt c n (Nat.lt_of_succ_lt hn))
    else if h3 : (n + 1) % 16 = 15 then
      stD m c ⟨n + 1, hn⟩ (fun h => h1 ((hcondFirst ⟨n + 1, hn⟩).mp h)) (fun h => h2 ((hcondPos ⟨n + 1, hn⟩).mp h))
        ((hcondLast ⟨n + 1, hn⟩).mpr h3) (stAt c n (Nat.lt_of_succ_lt hn))
    else
      stC m c ⟨n + 1, hn⟩ (fun h => h1 ((hcondFirst ⟨n + 1, hn⟩).mp h)) (fun h => h2 ((hcondPos ⟨n + 1, hn⟩).mp h))
        (fun h => h3 ((hcondLast ⟨n + 1, hn⟩).mp h)) (stAt c n (Nat.lt_of_succ_lt hn))

/-- The state before point `t`, for a point that is not the grid's first. -/
abbrev prevSt (c : Dev nD) (t : Fin cfg0.N) : St F :=
  stAt m c (t.val - 1) (Nat.lt_of_le_of_lt (Nat.sub_le _ _) t.isLt)

theorem stAt_A (c : Dev nD) (t : Fin cfg0.N) (h1 : t.val % 16 = 0) :
    stAt m c t.val t.isLt = stA m c t ((hcondFirst t).mpr h1) ((hcondPos t).mpr (by omega))
      (fun h => absurd ((hcondLast t).mp h) (by omega)) := by
  obtain ⟨n, hn⟩ := t
  cases n with
  | zero => rfl
  | succ n => exact (dif_pos h1).trans rfl

theorem stAt_B (c : Dev nD) (t : Fin cfg0.N) (h1 : ¬t.val % 16 = 0) (h2 : t.val % 16 < 8) :
    stAt m c t.val t.isLt = stB m c t (fun h => h1 ((hcondFirst t).mp h)) ((hcondPos t).mpr h2)
      (fun h => absurd ((hcondLast t).mp h) (by omega)) (prevSt m c t) := by
  obtain ⟨n, hn⟩ := t
  cases n with
  | zero => exact absurd (Nat.zero_mod _) h1
  | succ n => exact (dif_neg h1).trans ((dif_pos h2).trans rfl)

theorem stAt_C (c : Dev nD) (t : Fin cfg0.N) (h2 : ¬t.val % 16 < 8) (h3 : ¬t.val % 16 = 15) :
    stAt m c t.val t.isLt = stC m c t (fun h => absurd ((hcondFirst t).mp h) (by omega)) (fun h => h2 ((hcondPos t).mp h))
      (fun h => h3 ((hcondLast t).mp h)) (prevSt m c t) := by
  obtain ⟨n, hn⟩ := t
  cases n with
  | zero => exact absurd (show (0 : ℕ) % 16 < 8 by omega) h2
  | succ n =>
    have h1 : ¬(n + 1) % 16 = 0 := fun h => h2 (by show (n + 1) % 16 < 8; omega)
    exact (dif_neg h1).trans ((dif_neg h2).trans ((dif_neg h3).trans rfl))

theorem stAt_D (c : Dev nD) (t : Fin cfg0.N) (h3 : t.val % 16 = 15) :
    stAt m c t.val t.isLt = stD m c t (fun h => absurd ((hcondFirst t).mp h) (by omega)) (fun h => absurd ((hcondPos t).mp h) (by omega))
      ((hcondLast t).mpr h3) (prevSt m c t) := by
  obtain ⟨n, hn⟩ := t
  cases n with
  | zero => exact absurd h3 (by show ¬(0 % 16 = 15); omega)
  | succ n =>
    have h1 : ¬(n + 1) % 16 = 0 := fun h => by have : (n + 1) % 16 = 15 := h3; omega
    have h2 : ¬(n + 1) % 16 < 8 := fun h => by have : (n + 1) % 16 = 15 := h3; omega
    exact (dif_neg h1).trans ((dif_neg h2).trans ((dif_pos h3).trans rfl))

end Cert.KernelIdeal.Body

end
-- ==== Proof.KIPieces.lean ====
/-
  The account of the buffers, in terms of the body's arithmetic.  The stores a run lists carry, as their values, the
  body's pure functions of what it loaded; a load of a buffer the same run stored earlier reads that store.  So after a
  point each running column is a function of the point's scores and of the column before: the new maximum, the
  rescaled sum, the diagonal plus the point's pick.  At a query block's first point the columns before are the reset
  values; with keys from the third input the diagonal stays; at the last point the outputs receive the three columns.
-/
import proofs.«115192_j55619826483436_1_alg».proof.Proof.KIState
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

theorem hz : (![0, 0] : Fin 2 → Nat) = fun _ => 0 := funext fun a => by fin_cases a <;> rfl

/-- The scores of point `t`: the body's score function of the three input blocks there. -/
abbrev scoreAt (c : Dev nD) (t : Fin cfg0.N) : FVec F S1024x512 .f32 :=
  k0_pay8 (grid0.coords t) (iblk m c 0 t) (iblk m c 1 t) (iblk m c 2 t)

/-- The two grid coordinates the diagonal's offset is computed from, as the body reads them. -/
abbrev qWord (t : Fin cfg0.N) : BitVec 32 := BitVec.ofNat 32 ((grid0.coords t) 0).val
abbrev kWord (t : Fin cfg0.N) : BitVec 32 := BitVec.ofNat 32 ((grid0.coords t) 2).val

/-! ## The first point of a query block: from the reset values -/

theorem stA_sM (c : Dev nD) (t : Fin cfg0.N) (h1 : condFirst (grid0.coords t)) (h2 : condPos (grid0.coords t)) (h3 : ¬condLast (grid0.coords t)) : (stA m c t h1 h2 h3).sM = k0_pay3 (scoreAt m c t) (k0_pay5 (F := F)) := by
  unfold stA readBack
  dsimp only
  rw [View.read_writes_eq_canon _ _ _ (covA_M m c t h1 h2 h3)]
  unfold rA runA
  dsimp only
  sl_unfold_words
  rw [View.canon_cons_unit_zero (S := S1024x1) hz, View.readCov_unit_zero (S := S1024x1) _ hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]
theorem stA_sL (c : Dev nD) (t : Fin cfg0.N) (h1 : condFirst (grid0.coords t)) (h2 : condPos (grid0.coords t)) (h3 : ¬condLast (grid0.coords t)) : (stA m c t h1 h2 h3).sL = k0_pay2 (scoreAt m c t) (k0_pay5 (F := F)) (k0_pay6 (F := F)) := by
  unfold stA readBack
  dsimp only
  rw [View.read_writes_eq_canon _ _ _ (covA_L m c t h1 h2 h3)]
  unfold rA runA
  dsimp only
  sl_unfold_words
  rw [View.canon_cons_unit_zero (S := S1024x1) hz, View.readCov_unit_zero (S := S1024x1) _ hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]
theorem stA_sD (c : Dev nD) (t : Fin cfg0.N) (h1 : condFirst (grid0.coords t)) (h2 : condPos (grid0.coords t)) (h3 : ¬condLast (grid0.coords t)) : (stA m c t h1 h2 h3).sD = k0_pay4 (qWord t) (kWord t) (scoreAt m c t) (k0_pay7 (F := F)) := by
  unfold stA readBack
  dsimp only
  rw [View.read_writes_eq_canon _ _ _ (covA_D m c t h1 h2 h3)]
  unfold rA runA
  dsimp only
  sl_unfold_words
  rw [View.canon_cons_unit_zero (S := S1024x1) hz, View.readCov_unit_zero (S := S1024x1) _ hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]

/-! ## A later point with keys from the second input -/

theorem stB_sM (c : Dev nD) (t : Fin cfg0.N) (h1 : ¬condFirst (grid0.coords t)) (h2 : condPos (grid0.coords t)) (h3 : ¬condLast (grid0.coords t)) (p : St F) : (stB m c t h1 h2 h3 p).sM = k0_pay3 (scoreAt m c t) p.sM := by
  unfold stB readBack
  dsimp only
  rw [View.read_writes_eq_canon _ _ _ (covB_M m c t h1 h2 h3 p)]
  unfold rB runB
  dsimp only
  sl_unfold_words
  rw [View.canon_unit_zero (S := S1024x1) hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]
theorem stB_sL (c : Dev nD) (t : Fin cfg0.N) (h1 : ¬condFirst (grid0.coords t)) (h2 : condPos (grid0.coords t)) (h3 : ¬condLast (grid0.coords t)) (p : St F) : (stB m c t h1 h2 h3 p).sL = k0_pay2 (scoreAt m c t) p.sM p.sL := by
  unfold stB readBack
  dsimp only
  rw [View.read_writes_eq_canon _ _ _ (covB_L m c t h1 h2 h3 p)]
  unfold rB runB
  dsimp only
  sl_unfold_words
  rw [View.canon_unit_zero (S := S1024x1) hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]
theorem stB_sD (c : Dev nD) (t : Fin cfg0.N) (h1 : ¬condFirst (grid0.coords t)) (h2 : condPos (grid0.coords t)) (h3 : ¬condLast (grid0.coords t)) (p : St F) : (stB m c t h1 h2 h3 p).sD = k0_pay4 (qWord t) (kWord t) (scoreAt m c t) p.sD := by
  unfold stB readBack
  dsimp only
  rw [View.read_writes_eq_canon _ _ _ (covB_D m c t h1 h2 h3 p)]
  unfold rB runB
  dsimp only
  sl_unfold_words
  rw [View.canon_unit_zero (S := S1024x1) hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]

/-! ## Keys from the third input, not the last point -/

theorem stC_sM (c : Dev nD) (t : Fin cfg0.N) (h1 : ¬condFirst (grid0.coords t)) (h2 : ¬condPos (grid0.coords t)) (h3 : ¬condLast (grid0.coords t)) (p : St F) : (stC m c t h1 h2 h3 p).sM = k0_pay3 (scoreAt m c t) p.sM := by
  unfold stC readBack
  dsimp only
  rw [View.read_writes_eq_canon _ _ _ (covC_M m c t h1 h2 h3 p)]
  unfold rC runC
  dsimp only
  sl_unfold_words
  rw [View.canon_unit_zero (S := S1024x1) hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]
theorem stC_sL (c : Dev nD) (t : Fin cfg0.N) (h1 : ¬condFirst (grid0.coords t)) (h2 : ¬condPos (grid0.coords t)) (h3 : ¬condLast (grid0.coords t)) (p : St F) : (stC m c t h1 h2 h3 p).sL = k0_pay2 (scoreAt m c t) p.sM p.sL := by
  unfold stC readBack
  dsimp only
  rw [View.read_writes_eq_canon _ _ _ (covC_L m c t h1 h2 h3 p)]
  unfold rC runC
  dsimp only
  sl_unfold_words
  rw [View.canon_unit_zero (S := S1024x1) hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]

/-! ## The last point: the outputs receive the columns -/

theorem stD_sM (c : Dev nD) (t : Fin cfg0.N) (h1 : ¬condFirst (grid0.coords t)) (h2 : ¬condPos (grid0.coords t)) (h3 : condLast (grid0.coords t)) (p : St F) : (stD m c t h1 h2 h3 p).sM = k0_pay3 (scoreAt m c t) p.sM := by
  unfold stD readBack
  dsimp only
  rw [View.read_writes_eq_canon _ _ _ (covD_M m c t h1 h2 h3 p)]
  unfold rD runD
  dsimp only
  sl_unfold_words
  rw [View.canon_unit_zero (S := S1024x1) hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]
theorem stD_sL (c : Dev nD) (t : Fin cfg0.N) (h1 : ¬condFirst (grid0.coords t)) (h2 : ¬condPos (grid0.coords t)) (h3 : condLast (grid0.coords t)) (p : St F) : (stD m c t h1 h2 h3 p).sL = k0_pay2 (scoreAt m c t) p.sM p.sL := by
  unfold stD readBack
  dsimp only
  rw [View.read_writes_eq_canon _ _ _ (covD_L m c t h1 h2 h3 p)]
  unfold rD runD
  dsimp only
  sl_unfold_words
  rw [View.canon_unit_zero (S := S1024x1) hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]
theorem stD_o3 (c : Dev nD) (t : Fin cfg0.N) (h1 : ¬condFirst (grid0.coords t)) (h2 : ¬condPos (grid0.coords t)) (h3 : condLast (grid0.coords t)) (p : St F) : (stD m c t h1 h2 h3 p).o3 = k0_pay3 (scoreAt m c t) p.sM := by
  unfold stD readBack
  dsimp only
  rw [View.read_writes_eq_canon _ _ _ (covD_3 m c t h1 h2 h3 p)]
  unfold rD runD
  dsimp only
  sl_unfold_words
  rw [View.canon_unit_zero (S := S1024x1) hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]
theorem stD_o4 (c : Dev nD) (t : Fin cfg0.N) (h1 : ¬condFirst (grid0.coords t)) (h2 : ¬condPos (grid0.coords t)) (h3 : condLast (grid0.coords t)) (p : St F) : (stD m c t h1 h2 h3 p).o4 = k0_pay2 (scoreAt m c t) p.sM p.sL := by
  unfold stD readBack
  dsimp only
  rw [View.read_writes_eq_canon _ _ _ (covD_4 m c t h1 h2 h3 p)]
  unfold rD runD
  dsimp only
  sl_unfold_words
  rw [View.canon_unit_zero (S := S1024x1) hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]
theorem stD_o5 (c : Dev nD) (t : Fin cfg0.N) (h1 : ¬condFirst (grid0.coords t)) (h2 : ¬condPos (grid0.coords t)) (h3 : condLast (grid0.coords t)) (p : St F) : (stD m c t h1 h2 h3 p).o5 = p.sD := by
  unfold stD readBack
  dsimp only
  rw [View.read_writes_eq_canon _ _ _ (covD_5 m c t h1 h2 h3 p)]
  unfold rD runD
  dsimp only
  sl_unfold_words
  rw [View.canon_unit_zero (S := S1024x1) hz]
  simp only [View.readAt_eq_ld, (hs0 t).read_unread, (hs1 t).read_unread, (hs2 t).read_unread,
    (hs3 t).read_unread, (hs4 t).read_unread, (hs5 t).read_unread,
    (Memref.isWhole_whole cc0_scratch0).read_unread, (Memref.isWhole_whole cc0_scratch1).read_unread,
    (Memref.isWhole_whole cc0_scratch2).read_unread,
    View.ld_unit_zero (S := S1024x1) hz, View.ld_unit_zero (S := S1024x256) hz, View.ld_unit_zero (S := S512x256) hz,
    View.readCov_unit_zero (S := S1024x1) _ hz, shapeCast_self]

end Cert.KernelIdeal.Body

end
-- ==== Proof.Spec.lean ====
/-
  The quantity both programs compute, stated over the real numbers.

  Three arrays of 4096 rows and 256 columns are given.  Each row is divided by its Euclidean norm, floored at a small
  positive `ε`; row `i` of the first array is then compared with every row of the second and of the third by their
  inner product, and each of the 8192 products is divided by the temperature `T`.  These are the row's logits: columns
  `0 … 4095` against the second array (the positives), columns `4096 … 8191` against the third (the negatives).  The
  row's value is the log-softmax of its logits at column `i`: the logit there, minus the row's largest logit, minus the
  logarithm of the sum over all columns of the exponentials of the logits so shifted.

  The shift by the maximum does not change a log-softmax over the reals, but both programs make it, so the
  specification makes it too and no cancellation has to be argued when a program is compared with it.
-/
import Idealize.ShloMosaic.PureOps.Ideal

noncomputable section

namespace Cert.Spec

open Idealize.ShloMosaic

/-- An input array read over the reals: 4096 rows of 256 entries. -/
abbrev RArr : Type := Fin 4096 → Fin 256 → ℝ

/-- The floor under a row's norm: the dyadic rational `9223372 / 2^63`, the binary fraction nearest `10⁻¹²`. -/
def eps : ℝ := 9223372 / 2 ^ 63

theorem eps_pos : 0 < eps := by unfold eps; positivity

/-- The temperature: the dyadic rational `13421773 / 2^28`, the binary fraction nearest `1/20`. -/
def temp : ℝ := 13421773 / 268435456

theorem temp_pos : 0 < temp := by unfold temp; positivity

/-- Row `i`'s Euclidean norm, floored at `ε`. -/
def rowNorm (a : RArr) (i : Fin 4096) : ℝ := max (Real.sqrt (∑ k : Fin 256, a i k * a i k)) eps

theorem rowNorm_pos (a : RArr) (i : Fin 4096) : 0 < rowNorm a i := lt_max_of_lt_right eps_pos

/-- Row `i` divided by its floored norm, at column `k`. -/
def unitRow (a : RArr) (i : Fin 4096) (k : Fin 256) : ℝ := a i k / rowNorm a i

/-- The inner product of the normalized row `i` of `a` with the normalized row `j` of `b`. -/
def cosim (a b : RArr) (i j : Fin 4096) : ℝ := ∑ k : Fin 256, unitRow a i k * unitRow b j k

/-- Row `i`'s logit at column `j` of the 8192: against row `j` of `a2` in the first half, against row `j - 4096`
    of `a3` in the second, over the temperature. -/
def logit (a1 a2 a3 : RArr) (i : Fin 4096) (j : Fin 8192) : ℝ :=
  if h : j.val < 4096 then cosim a1 a2 i ⟨j.val, h⟩ / temp
  else cosim a1 a3 i ⟨j.val - 4096, by omega⟩ / temp

/-- Row `i`'s largest logit. -/
def rowMax (a1 a2 a3 : RArr) (i : Fin 4096) : ℝ :=
  Finset.univ.sup' Finset.univ_nonempty (logit a1 a2 a3 i)

/-- The sum over the columns of the exponentials of row `i`'s logits less their maximum. -/
def rowZ (a1 a2 a3 : RArr) (i : Fin 4096) : ℝ :=
  ∑ j : Fin 8192, Real.exp (logit a1 a2 a3 i j - rowMax a1 a2 a3 i)

/-- Row `i`'s log-softmax at its own column `i` (a positive: `i < 4096`). -/
def rowLogp (a1 a2 a3 : RArr) (i : Fin 4096) : ℝ :=
  (logit a1 a2 a3 i ⟨i.val, by omega⟩ - rowMax a1 a2 a3 i) - Real.log (rowZ a1 a2 a3 i)

/-- A real array as the array of extended reals a program at the ideal instance is handed. -/
def lift (a : RArr) : (⟨2, ![4096, 256]⟩ : Shape).Idx → EReal :=
  fun j => ((a (j 0) (j 1) : ℝ) : EReal)

end Cert.Spec

end
-- ==== Proof.Consts.lean ====
/-
  The float literals the two programs spell, as the extended reals their bit patterns denote, and the ideal operations
  on extended reals that are real numbers: there each is the real operation, so a value computed from real inputs by
  these operations is again real.
-/
import proofs.«115192_j55619826483436_1_alg».proof.Proof.Spec
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `-inf` denotes the bottom of the extended reals. -/
theorem ofBits_neg_inf : Ideal.ofBits .f32 0xFF800000#32 = (⊥ : EReal) := by
  simp [Ideal.ofBits, Ideal.ieee]

/-- The floor under the norms: `9223372 / 2^63`. -/
theorem ofBits_eps : Ideal.ofBits .f32 0x2B8CBCCC#32 = ((Cert.Spec.eps : ℝ) : EReal) := by
  -- sign 0, exponent field 87, fraction 834764: (2^23 + 834764) · 2^(87 - 127 - 23) = 9223372 / 2^63
  simp [Ideal.ofBits, Ideal.ieee, Cert.Spec.eps, -EReal.coe_mul]; norm_num

/-- The temperature as the reference spells it: `13421773 / 2^28`. -/
theorem ofBits_temp : Ideal.ofBits .f32 0x3D4CCCCD#32 = ((Cert.Spec.temp : ℝ) : EReal) := by
  -- sign 0, exponent field 122, fraction 5033165: (2^23 + 5033165) · 2^(122 - 127 - 23) = 13421773 / 2^28
  simp [Ideal.ofBits, Ideal.ieee, Cert.Spec.temp, -EReal.coe_mul]; norm_num

/-- The square root of a non-negative real. -/
theorem sqrt_coe {x : ℝ} (h : 0 ≤ x) : Ideal.sqrt (x : EReal) = ((Real.sqrt x : ℝ) : EReal) := by
  rw [Ideal.sqrt_coe, if_neg (not_lt.mpr h)]

/-- The exponential of a real. -/
theorem exp_coe (x : ℝ) : Ideal.exp (x : EReal) = ((Real.exp x : ℝ) : EReal) := rfl

/-- The exponential of `-∞` is `0`. -/
theorem exp_bot : Ideal.exp (⊥ : EReal) = 0 := rfl

/-- The logarithm of a positive real. -/
theorem log_coe {x : ℝ} (h : 0 < x) : Ideal.log (x : EReal) = ((Real.log x : ℝ) : EReal) := by
  rw [Ideal.log_coe, if_neg (not_le.mpr h)]

/-- The quotient of two reals, the divisor not zero. -/
theorem div_coe_coe (x : ℝ) {y : ℝ} (h : y ≠ 0) : Ideal.div (x : EReal) (y : EReal) = ((x / y : ℝ) : EReal) := by
  rw [Ideal.div_coe h, ← EReal.coe_mul, mul_one_div]

/-- A finite sum of reals, cast, is the sum of the casts. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum of a non-empty finite family of reals, as the fold of `max` from `-∞` over their casts. -/
theorem fold_max_coe {ι : Type*} (s : Finset ι) (hs : s.Nonempty) (f : ι → ℝ) :
    s.fold max (⊥ : EReal) (fun i => ((f i : ℝ) : EReal)) = ((s.sup' hs f : ℝ) : EReal) := by
  classical
  induction hs using Finset.Nonempty.cons_induction with
  | singleton a => simp
  | cons a s ha hs ih =>
    rw [Finset.fold_cons, ih, Finset.sup'_cons hs]
    exact (EReal.coe_strictMono.monotone.map_max).symm

end Cert.Consts

end
-- ==== Proof.KIPayload.lean ====
/-
  What the kernel's body computes, read entry by entry at the ideal instance.

  The body's arithmetic is five pure functions of the values it loads.  The scores: the query block and the key block
  (the second input's or the third's, by the point) are each divided row-wise by their floored norms, the normalized
  query rows are multiplied into the normalized key rows, and every product is multiplied by the inverse temperature;
  on real blocks the score of query row `r` and key row `c` is the real number
  `(∑ k, u r k * v c k) / T`.  The new running maximum of row `r` is the old one against the largest score of the
  row; the new running sum is the old one times `exp (old maximum - new maximum)` plus the sum over the row of
  `exp (score - new maximum)`; the new running diagonal is the old one plus the one score of the row, if any, whose
  key row is the query row itself (the others are replaced by zero before the sum).  The reset values are `-∞`, `0`, `0`.
-/
import proofs.«115192_j55619826483436_1_alg».proof.Proof.Gen.KernelIdeal.Skeleton
import proofs.«115192_j55619826483436_1_alg».proof.Proof.Spec
import proofs.«115192_j55619826483436_1_alg».proof.Proof.Consts
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Mathlib.Data.EReal.Basic
import Mathlib.Algebra.Order.BigOperators.Group.Finset
import Mathlib.Tactic.NormNum.Basic

noncomputable section

namespace Cert.KernelIdeal.Payload

open Idealize.ShloMosaic Idealize.ShloMosaic.ValueIdx Cert.KernelIdeal Cert.KernelIdeal.Gen

/-- A block of `n` real rows as the block of extended reals the body loads. -/
def liftBlk {n : ℕ} (b : Fin n → Fin 256 → ℝ) : (⟨2, ![n, 256]⟩ : Shape).Idx → EReal :=
  fun j => ((b (j 0) (j 1) : ℝ) : EReal)

/-- Row `r` of a real block divided by its floored norm, at column `k`. -/
def unitOf {n : ℕ} (b : Fin n → Fin 256 → ℝ) (r : Fin n) (k : Fin 256) : ℝ :=
  b r k / max (Real.sqrt (∑ k : Fin 256, b r k * b r k)) Cert.Spec.eps

section Layout
variable {α : Type}

/-- A vector of `a` entries cast to one column reads, at `(i, u)`, the entry `i`. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column's entry `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a reduction of a matrix over its columns, at row `r` and inserted column `c`. -/
theorem lift_row {a b : ℕ} (h : (⟨2, ![a, b]⟩ : Shape).Reduces [1] ⟨1, ![a]⟩) (r : Fin a) (c : Fin b) :
    h.lift (ix1 r) c = ix2 r c := by
  funext ax
  match ax with
  | ⟨0, _⟩ => rfl
  | ⟨1, _⟩ => rfl

end Layout

/-- The exponential of a vector reads the exponential of the entry. -/
theorem exp_apply {s : Shape} {φ : FTy} (a : FVec Ideal s φ) (i : s.Idx) :
    Idealize.ShloMosaic.exp a i = Ideal.exp (a i) := rfl
/-- The square root of a vector reads the square root of the entry. -/
theorem sqrt_apply {s : Shape} {φ : FTy} (a : FVec Ideal s φ) (i : s.Idx) :
    Idealize.ShloMosaic.sqrt a i = Ideal.sqrt (a i) := rfl

/-- The maximum over the columns of a matrix, from `-∞`, at row `r`: the fold of `max` over the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction (F := Ideal) .maximumf [1] ⟨1, ![a]⟩ src 0xFF800000#32 h hφ hacc (ix1 r)
      = (Finset.univ : Finset (Fin b)).fold max (⊥ : EReal) (fun c => src (ix2 r c)) := by
  refine (Ideal.multiReduction_maximumf_single src 0xFF800000#32 h hφ hacc (ix1 r)).trans ?_
  have e1 : FloatOps.ofBits (F := Ideal) .f32 0xFF800000#32 = (⊥ : EReal) := Cert.Consts.ofBits_neg_inf
  have e2 : (src ∘ h.lift (ix1 r)) = fun c : Fin b => src (ix2 r c) := funext fun c => congrArg src (lift_row h r c)
  rw [e1, e2]
  rfl

/-- The sum over the columns of a matrix at row `r`: the sum over the row. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ c : Fin b, src (ix2 r c) := by
  refine (Ideal.multiReduction_add_single src 0x00000000#32 h hφ hacc (ix1 r)).trans ?_
  exact Finset.sum_congr rfl fun c _ => congrArg src (lift_row h r c)

/-- A select on an equality test of words is the `if` on the equation. -/
theorem select_cmpi_eq {α : Type} (x y : BitVec 32) (A B : α) :
    Scalar.select (IntOp.cmpi .eq x y) A B = if x = y then A else B := by
  show (if IntOp.cmpi .eq x y = 1#1 then A else B) = _
  by_cases h : x = y
  · rw [if_pos h, if_pos (IntOp.cmpi_eq.mpr h)]
  · rw [if_neg h, if_neg (fun h' => h (IntOp.cmpi_eq.mp h'))]

/-- The cast of the larger of two reals is the larger of their casts. -/
theorem coe_max (x y : ℝ) : ((max x y : ℝ) : EReal) = max (x : EReal) (y : EReal) :=
  EReal.coe_strictMono.monotone.map_max

/-- A real entry over its row's floored norm, computed on the extended reals, is the real quotient. -/
theorem unit_coe {n : ℕ} (b : Fin n → Fin 256 → ℝ) (r : Fin n) (k : Fin 256) :
    Ideal.div ((b r k : ℝ) : EReal)
        (max (Ideal.sqrt (∑ k : Fin 256, ((b r k : ℝ) : EReal) * ((b r k : ℝ) : EReal))) (Ideal.ofBits .f32 0x2B8CBCCC#32))
      = ((unitOf b r k : ℝ) : EReal) := by
  have hs : (∑ k : Fin 256, ((b r k : ℝ) : EReal) * ((b r k : ℝ) : EReal)) = ((∑ k : Fin 256, b r k * b r k : ℝ) : EReal) := by
    rw [Cert.Consts.coe_sum]
    exact Finset.sum_congr rfl fun k _ => (EReal.coe_mul _ _).symm
  have hnn : 0 ≤ ∑ k : Fin 256, b r k * b r k := Finset.sum_nonneg fun k _ => mul_self_nonneg _
  rw [hs, Cert.Consts.sqrt_coe hnn, Cert.Consts.ofBits_eps, ← coe_max,
    Cert.Consts.div_coe_coe _ (lt_max_of_lt_right Cert.Spec.eps_pos).ne']
  rfl

/-- A block of real rows, each divided by its floored norm as the body does it, reads the real quotient. -/
theorem normalize_apply {n : ℕ} (b : Fin n → Fin 256 → ℝ)
    (hR : (⟨2, ![n, 256]⟩ : Shape).Reduces [1] ⟨1, ![n]⟩) (hφ : FKind.Formats .f32)
    (hacc : (0x00000000#32 : BitVec 32) = 0x00000000#32)
    (hC : (⟨1, ![n]⟩ : Shape).ShapeCasts ⟨2, ![n, 1]⟩) (hB : (⟨2, ![n, 1]⟩ : Shape).Broadcasts ⟨2, ![n, 256]⟩)
    (r : Fin n) (k : Fin 256) :
    divf (F := Ideal) (φ := .f32) (liftBlk b)
        (broadcastTo ⟨2, ![n, 256]⟩
          (maximumf (sqrt (shapeCast ⟨2, ![n, 1]⟩
              (multiReduction (F := Ideal) .add [1] ⟨1, ![n]⟩ (mulf (F := Ideal) (φ := .f32) (liftBlk b) (liftBlk b)) 0x00000000#32 hR hφ hacc) hC))
            (broadcast ⟨2, ![n, 1]⟩ (Scalar.ofBits (F := Ideal) .f32 0x2B8CBCCC#32))) hB) (ix2 r k)
      = ((unitOf b r k : ℝ) : EReal) := by
  rw [divf_apply, broadcastTo_col_apply, maximumf_apply, sqrt_apply, shapeCast_col_apply, rowSum_apply]
  exact unit_coe b r k

section Matmul
variable [Cert.KernelIdeal.Facts]

/-- The left operand's index at output `i` and contraction index `q`: its row is the output's row, -/
theorem lhs_axis0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
/-- its column the contracted coordinate; -/
theorem lhs_axis1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
/-- the right operand's row is the contracted coordinate, -/
theorem rhs_axis0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
/-- its column the output's column. -/
theorem rhs_axis1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The body's product into the zero splat, at row `r` and column `c`: the sum over the 256 contracted entries. -/
theorem matmul_rc_apply (lhs : FVec Ideal S1024x256 .bf16) (rhs : FVec Ideal S256x512 .bf16) (r : Fin 1024) (c : Fin 512) :
    matmul dot_S1024x256_S256x512_S1024x512_1_0_0_1_n_n none lhs rhs (constant (F := Ideal) S1024x512 .f32 0x00000000#32) (ix2 r c)
      = ∑ k : Fin 256, lhs (ix2 r k) * rhs (ix2 k c) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 r c) ((contrEquiv1 dot_S1024x256_S256x512_S1024x512_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S1024x256_S256x512_S1024x512_1_0_0_1_n_n.rhsIdx (ix2 r c) ((contrEquiv1 dot_S1024x256_S256x512_S1024x512_1_0_0_1_n_n 256 rfl rfl).symm k) = ix2 k c := funext fun a => Fin.ext (by
    match a with
    | ⟨0, _⟩ => exact (rhs_axis0 _ _).trans hk
    | ⟨1, _⟩ => exact rhs_axis1 _ _)
  rw [el, er]

end Matmul

/-- The named inverse temperature denotes `2^28 / 13421773`, the reciprocal of the temperature. -/
theorem inv_temp : Named.named (F := Ideal) Cert.KernelIdeal.κ "inv_temp" (φ := .f32) 0x41A00000#32
    = (((1 / Cert.Spec.temp : ℝ)) : EReal) := by
  rw [IdealRules.named_const.ideal_named_scalar Cert.KernelIdeal.κ "inv_temp" _ _ rfl]
  refine congrArg (fun x : ℝ => (x : EReal)) ?_
  unfold Cert.Spec.temp
  norm_num

/-- The scores on real blocks: query row `r` against key row `c` of the block the point selects. -/
theorem pay8_apply [Cert.KernelIdeal.Facts] (i : grid0.Coords) (b0 : Fin 1024 → Fin 256 → ℝ) (b1 b2 : Fin 512 → Fin 256 → ℝ)
    (r : Fin 1024) (c : Fin 512) :
    k0_pay8 (F := Ideal) i (liftBlk b0) (liftBlk b1) (liftBlk b2) (ix2 r c)
      = (((∑ k : Fin 256, unitOf b0 r k * unitOf (if (i 1).val = 0 then b1 else b2) c k) / Cert.Spec.temp : ℝ) : EReal) := by
  have hsel : (Scalar.select (Scalar.cmpi .eq (BitVec.ofNat 32 (i 1).val) 0#32) (liftBlk b1) (liftBlk b2) : Vec Ideal S512x256 .f32)
      = liftBlk (if (i 1).val = 0 then b1 else b2) := by
    refine (select_eq0 (i 1).val (i 1).isLt (liftBlk b1) (liftBlk b2)).trans ?_
    split <;> rfl
  unfold k0_pay8
  rw [hsel, mulf_apply, broadcast_apply, inv_temp, matmul_rc_apply]
  refine (congrArg (fun x : EReal => x * _) ((Finset.sum_congr rfl fun k _ => ?_).trans
    (Cert.Consts.coe_sum Finset.univ
      (fun k => unitOf b0 r k * unitOf (if (i 1).val = 0 then b1 else b2) c k)).symm)).trans ?_
  · rw [truncf_apply, normalize_apply, transpose_ix2_apply, truncf_apply, normalize_apply, ← EReal.coe_mul]
  · show _ * _ = _
    rw [← EReal.coe_mul, mul_one_div]

/-- The new running maximum of row `r`. -/
theorem pay1_apply [Cert.KernelIdeal.Facts] (S : FVec Ideal S1024x512 .f32) (mv : Vec Ideal S1024x1 .f32) (r : Fin 1024) :
    k0_pay1 (F := Ideal) S mv (ix2 r (0 : Fin 1))
      = max (mv (ix2 r (0 : Fin 1))) ((Finset.univ : Finset (Fin 512)).fold max (⊥ : EReal) (fun c => S (ix2 r c))) := by
  unfold k0_pay1
  rw [maximumf_apply, shapeCast_col_apply, rowMax_apply]

/-- The stored running maximum is the same column. -/
theorem pay3_apply [Cert.KernelIdeal.Facts] (S : FVec Ideal S1024x512 .f32) (mv : Vec Ideal S1024x1 .f32) (r : Fin 1024) :
    k0_pay3 (F := Ideal) S mv (ix2 r (0 : Fin 1)) = k0_pay1 (F := Ideal) S mv (ix2 r (0 : Fin 1)) := by
  unfold k0_pay3
  rw [shapeCast_self]

/-- The new running sum of row `r`. -/
theorem pay2_apply [Cert.KernelIdeal.Facts] (S : FVec Ideal S1024x512 .f32) (mv lv : Vec Ideal S1024x1 .f32) (r : Fin 1024) :
    k0_pay2 (F := Ideal) S mv lv (ix2 r (0 : Fin 1))
      = Ideal.exp (mv (ix2 r (0 : Fin 1)) - k0_pay1 (F := Ideal) S mv (ix2 r (0 : Fin 1))) * lv (ix2 r (0 : Fin 1))
        + ∑ c : Fin 512, Ideal.exp (S (ix2 r c) - k0_pay1 (F := Ideal) S mv (ix2 r (0 : Fin 1))) := by
  unfold k0_pay2
  rw [shapeCast_self, addf_apply, mulf_apply, exp_apply, subf_apply, shapeCast_col_apply, rowSum_apply]
  refine congrArg (fun x : EReal => _ + x) (Finset.sum_congr rfl fun c _ => ?_)
  rw [exp_apply, subf_apply, broadcastTo_col_apply]

/-- The new running diagonal of row `r`: the scores whose column less row equals the point's offset are kept. -/
theorem pay4_apply [Cert.KernelIdeal.Facts] (arg0 arg2 : BitVec 32) (S : FVec Ideal S1024x512 .f32) (dv : Vec Ideal S1024x1 .f32) (r : Fin 1024) :
    k0_pay4 (F := Ideal) arg0 arg2 S dv (ix2 r (0 : Fin 1))
      = dv (ix2 r (0 : Fin 1))
        + ∑ c : Fin 512, (if BitVec.ofNat 32 c.val - BitVec.ofNat 32 r.val = arg0 * 1024#32 - arg2 * 512#32 then S (ix2 r c) else 0) := by
  unfold k0_pay4
  rw [shapeCast_self, addf_apply, shapeCast_col_apply, rowSum_apply]
  refine congrArg (fun x : EReal => _ + x) (Finset.sum_congr rfl fun c _ => ?_)
  rw [select_apply]
  show Scalar.select (IntOp.cmpi .eq
      (IntOp.subi (iota .tc S1024x512 32 [1] iota_S1024x512_d1_w32 (ix2 r c)) (iota .tc S1024x512 32 [0] iota_S1024x512_d0_w32 (ix2 r c)))
      (IntOp.subi (IntOp.muli arg0 1024#32) (IntOp.muli arg2 512#32))) (S (ix2 r c)) (Ideal.ofBits .f32 0x00000000#32) = _
  rw [iota_single_apply, iota_single_apply, select_cmpi_eq, Cert.Consts.ofBits_zero]
  rfl

/-- The offset test in words is the equation of naturals: key row `512 * lk + c` is query row `1024 * q + r`. -/
theorem diag_mask_iff (q : Fin 4) (lk : Fin 8) (r : Fin 1024) (c : Fin 512) :
    (BitVec.ofNat 32 c.val - BitVec.ofNat 32 r.val = BitVec.ofNat 32 q.val * 1024#32 - BitVec.ofNat 32 lk.val * 512#32)
      ↔ 512 * lk.val + c.val = 1024 * q.val + r.val := by
  have hq := q.isLt; have hl := lk.isLt; have hr := r.isLt; have hc := c.isLt
  simp only [BitVec.toNat_eq, BitVec.toNat_sub, BitVec.toNat_mul, BitVec.toNat_ofNat]
  omega

/-- The reset values. -/
theorem pay5_apply [Cert.KernelIdeal.Facts] (r : Fin 1024) : k0_pay5 (F := Ideal) (ix2 r (0 : Fin 1)) = (⊥ : EReal) := by
  unfold k0_pay5
  rw [shapeCast_self]
  exact Cert.Consts.ofBits_neg_inf
theorem pay6_apply [Cert.KernelIdeal.Facts] (r : Fin 1024) : k0_pay6 (F := Ideal) (ix2 r (0 : Fin 1)) = (0 : EReal) := by
  unfold k0_pay6
  rw [shapeCast_self]
  exact Cert.Consts.ofBits_zero
theorem pay7_apply [Cert.KernelIdeal.Facts] (r : Fin 1024) : k0_pay7 (F := Ideal) (ix2 r (0 : Fin 1)) = (0 : EReal) := by
  unfold k0_pay7
  rw [shapeCast_self]
  exact Cert.Consts.ofBits_zero

end Cert.KernelIdeal.Payload

end
-- ==== Proof.KIBlocks.lean ====
/-
  The blocks the body is handed, read off real input arrays.  At point `t` of the 64 — query block `t / 16`, key block
  `t % 8`, keys from the second input while `t % 16 < 8` and from the third afterwards — the first window's block is
  rows `1024 * (t / 16) …` of the first input, and the key window in use holds rows `512 * (t % 8) …` of its input.
  (The key window not in use is parked on a block the body's selection discards.)
-/
import proofs.«115192_j55619826483436_1_alg».proof.Proof.Gen.KernelIdeal.Frame
import proofs.«115192_j55619826483436_1_alg».proof.Proof.Spec
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.SL.Sem Cert.KernelIdeal Cert.KernelIdeal.Gen

theorem N64 : cfg0.N = 64 := N_0

/-- The query row of the whole array that local row `r` of the block at point `t` is. -/
def qRow (t : Fin cfg0.N) (r : Fin 1024) : Fin 4096 :=
  ⟨1024 * (t.val / 16) + r.val, by have := lt_of_lt_of_eq t.isLt N64; omega⟩

/-- The key row of the whole array that local row `c` of the key block at point `t` is. -/
def kRow (t : Fin cfg0.N) (c : Fin 512) : Fin 4096 :=
  ⟨512 * (t.val % 8) + c.val, by omega⟩

/-- Local row `r` of key block `q` (of the eight) as a row of the whole array. -/
def kRowAt (q : Nat) (hq : q ≤ 7) (r : Fin 512) : Fin 4096 := ⟨512 * q + r.val, by omega⟩

/-- Where the three input windows stand at each of the 64 points, decided over the grid: the query window on block
    `t / 16`; the second input's window on block `t % 8` while `t % 16 < 8`, the third's on block `t % 8` afterwards;
    and every key block index at most `7`.  No window moves along the columns. -/
theorem idx_facts : ∀ t : Fin cfg0.N,
    (win0_0.index t (0 : Fin 2) = t.val / 16 ∧ win0_0.index t (1 : Fin 2) = 0)
    ∧ (win0_1.index t (0 : Fin 2) ≤ 7 ∧ win0_1.index t (1 : Fin 2) = 0)
    ∧ (win0_2.index t (0 : Fin 2) ≤ 7 ∧ win0_2.index t (1 : Fin 2) = 0)
    ∧ (t.val % 16 < 8 → win0_1.index t (0 : Fin 2) = t.val % 8)
    ∧ (¬t.val % 16 < 8 → win0_2.index t (0 : Fin 2) = t.val % 8) :=
  (by decide +kernel : ∀ t : Fin grid0.N, _)

variable (m : (ℓ : Loc nD τ sig) → Buf (Elt Ideal) ℓ)

/-- The query window's block. -/
theorem blk0 (c : Dev nD) (t : Fin cfg0.N) (a1 : Cert.Spec.RArr)
    (h : m ((c : Thread nD τ).loc main_arg0) = Cert.Spec.lift a1) :
    (iblk m c 0 t : Vec Ideal S1024x256 .f32) = (fun j : (⟨2, ![1024, 256]⟩ : Shape).Idx => ((a1 (qRow t (j 0)) (j 1) : ℝ) : EReal)) := by
  obtain ⟨⟨e0, e1⟩, -⟩ := idx_facts t
  funext j
  show V m c main_arg0 (((cfg0.win 0).blk t).view.emb j) = _
  rw [V_main_arg0, h]
  have he : ((cfg0.win 0).blk t).view.emb j = ValueIdx.ix2 (qRow t (j 0)) (j 1) := by
    funext a; apply Fin.ext
    match a with
    | ⟨0, _⟩ => show win0_0.index t (0 : Fin 2) * 1024 + 1 * (j 0).val = 1024 * (t.val / 16) + (j 0).val; omega
    | ⟨1, _⟩ => show win0_0.index t (1 : Fin 2) * 256 + 1 * (j 1).val = (j 1).val; omega
  rw [he]
  rfl

/-- A key window's block, whichever block index `q ≤ 7` the window stands on: rows `512 * q …` of its input. -/
theorem blk1_at (c : Dev nD) (t : Fin cfg0.N) (a2 : Cert.Spec.RArr)
    (h : m ((c : Thread nD τ).loc main_arg1) = Cert.Spec.lift a2) (q : Nat) (hq : q ≤ 7)
    (e0 : win0_1.index t (0 : Fin 2) = q) :
    (iblk m c 1 t : Vec Ideal S512x256 .f32)
      = (fun j : (⟨2, ![512, 256]⟩ : Shape).Idx => ((a2 (kRowAt q hq (j 0)) (j 1) : ℝ) : EReal)) := by
  obtain ⟨-, ⟨-, e1⟩, -⟩ := idx_facts t
  funext j
  show V m c main_arg1 (((cfg0.win 1).blk t).view.emb j) = _
  rw [V_main_arg1, h]
  have he : ((cfg0.win 1).blk t).view.emb j
      = ValueIdx.ix2 (kRowAt q hq (j 0)) (j 1) := by
    funext a; apply Fin.ext
    match a with
    | ⟨0, _⟩ => show win0_1.index t (0 : Fin 2) * 512 + 1 * (j 0).val = 512 * q + (j 0).val; omega
    | ⟨1, _⟩ => show win0_1.index t (1 : Fin 2) * 256 + 1 * (j 1).val = (j 1).val; omega
  rw [he]
  rfl

theorem blk2_at (c : Dev nD) (t : Fin cfg0.N) (a3 : Cert.Spec.RArr)
    (h : m ((c : Thread nD τ).loc main_arg2) = Cert.Spec.lift a3) (q : Nat) (hq : q ≤ 7)
    (e0 : win0_2.index t (0 : Fin 2) = q) :
    (iblk m c 2 t : Vec Ideal S512x256 .f32)
      = (fun j : (⟨2, ![512, 256]⟩ : Shape).Idx => ((a3 (kRowAt q hq (j 0)) (j 1) : ℝ) : EReal)) := by
  obtain ⟨-, -, ⟨-, e1⟩, -⟩ := idx_facts t
  funext j
  show V m c main_arg2 (((cfg0.win 2).blk t).view.emb j) = _
  rw [V_main_arg2, h]
  have he : ((cfg0.win 2).blk t).view.emb j
      = ValueIdx.ix2 (kRowAt q hq (j 0)) (j 1) := by
    funext a; apply Fin.ext
    match a with
    | ⟨0, _⟩ => show win0_2.index t (0 : Fin 2) * 512 + 1 * (j 0).val = 512 * q + (j 0).val; omega
    | ⟨1, _⟩ => show win0_2.index t (1 : Fin 2) * 256 + 1 * (j 1).val = (j 1).val; omega
  rw [he]
  rfl

/-- The second input's window while it is in use. -/
theorem blk1 (c : Dev nD) (t : Fin cfg0.N) (ht : t.val % 16 < 8) (a2 : Cert.Spec.RArr)
    (h : m ((c : Thread nD τ).loc main_arg1) = Cert.Spec.lift a2) :
    (iblk m c 1 t : Vec Ideal S512x256 .f32) = (fun j : (⟨2, ![512, 256]⟩ : Shape).Idx => ((a2 (kRow t (j 0)) (j 1) : ℝ) : EReal)) := by
  obtain ⟨-, -, -, e, -⟩ := idx_facts t
  exact blk1_at m c t a2 h (t.val % 8) (by omega) (e ht)

/-- The third input's window while it is in use. -/
theorem blk2 (c : Dev nD) (t : Fin cfg0.N) (ht : ¬t.val % 16 < 8) (a3 : Cert.Spec.RArr)
    (h : m ((c : Thread nD τ).loc main_arg2) = Cert.Spec.lift a3) :
    (iblk m c 2 t : Vec Ideal S512x256 .f32) = (fun j : (⟨2, ![512, 256]⟩ : Shape).Idx => ((a3 (kRow t (j 0)) (j 1) : ℝ) : EReal)) := by
  obtain ⟨-, -, -, -, e⟩ := idx_facts t
  exact blk2_at m c t a3 h (t.val % 8) (by omega) (e ht)

/-- Whatever block a parked key window holds, it is a block of reals (every entry of the input is). -/
theorem blk1_real (c : Dev nD) (t : Fin cfg0.N) (a2 : Cert.Spec.RArr)
    (h : m ((c : Thread nD τ).loc main_arg1) = Cert.Spec.lift a2) :
    ∃ b : Fin 512 → Fin 256 → ℝ, (iblk m c 1 t : Vec Ideal S512x256 .f32) = (fun j : (⟨2, ![512, 256]⟩ : Shape).Idx => ((b (j 0) (j 1) : ℝ) : EReal)) := by
  obtain ⟨-, ⟨hq, -⟩, -⟩ := idx_facts t
  exact ⟨fun r k => a2 (kRowAt (win0_1.index t (0 : Fin 2)) hq r) k, blk1_at m c t a2 h _ hq rfl⟩
theorem blk2_real (c : Dev nD) (t : Fin cfg0.N) (a3 : Cert.Spec.RArr)
    (h : m ((c : Thread nD τ).loc main_arg2) = Cert.Spec.lift a3) :
    ∃ b : Fin 512 → Fin 256 → ℝ, (iblk m c 2 t : Vec Ideal S512x256 .f32) = (fun j : (⟨2, ![512, 256]⟩ : Shape).Idx => ((b (j 0) (j 1) : ℝ) : EReal)) := by
  obtain ⟨-, -, ⟨hq, -⟩, -⟩ := idx_facts t
  exact ⟨fun r k => a3 (kRowAt (win0_2.index t (0 : Fin 2)) hq r) k, blk2_at m c t a3 h _ hq rfl⟩

end Cert.KernelIdeal.Blocks

end
-- ==== Proof.Online.lean ====
/-
  The running form of a log-sum-exp.

  A row's logits `g 0, g 1, …` arrive in blocks of 512.  The running form keeps, after each block, the largest logit
  seen so far, `M`, and the sum over the logits seen so far of `exp (g j - M)`.  When a block raises the maximum from
  `M` to `M'` the old sum is multiplied by `exp (M - M')`, because `exp (M - M') * exp (g j - M) = exp (g j - M')`, and
  the block's own terms `exp (g j - M')` are added.  Before the first block the maximum is `-∞` and the sum `0`;
  `exp (-∞) = 0` makes the first step the same formula.  After the last block the pair is the row's maximum and the
  row's sum of shifted exponentials, which is what a log-softmax computed in one pass uses.
-/
import proofs.«115192_j55619826483436_1_alg».proof.Proof.Spec
import proofs.«115192_j55619826483436_1_alg».proof.Proof.Consts
import Mathlib.Data.EReal.Operations
import Mathlib.Data.Finset.Lattice.Fold
import Mathlib.Data.Fintype.BigOperators
import Mathlib.Algebra.BigOperators.Group.Finset.Basic
import Mathlib.Algebra.Order.BigOperators.Group.Finset
import Mathlib.Analysis.SpecialFunctions.Log.Basic
import Mathlib.Tactic.Ring

noncomputable section

namespace Cert.Online

open Idealize.ShloMosaic Finset

/-- The largest of `g 0, …, g n`. -/
def runMax (g : ℕ → ℝ) (n : ℕ) : ℝ := (range (n + 1)).sup' nonempty_range_add_one g

/-- The sum over `j < n` of `exp (g j - M)`. -/
def expSum (g : ℕ → ℝ) (n : ℕ) (M : ℝ) : ℝ := ∑ j ∈ range n, Real.exp (g j - M)

/-- A non-empty initial segment of the naturals. -/
private theorem range_nonempty_of_pos {n : ℕ} (hn : 0 < n) : (range n).Nonempty := ⟨0, mem_range.mpr hn⟩

/-- With `0 < n`, the running maximum after `n` logits is the largest of `g j` over `j < n`. -/
private theorem runMax_pred (g : ℕ → ℝ) (n : ℕ) (hn : 0 < n) :
    runMax g (n - 1) = (range n).sup' (range_nonempty_of_pos hn) g := by
  obtain ⟨k, rfl⟩ : ∃ k, n = k + 1 := ⟨n - 1, by omega⟩
  have h : k + 1 - 1 = k := by omega
  unfold runMax
  simp only [h]

/-- The largest of a block of 512 values `h 0, …, h 511`, taken as a fold from `-∞` over their casts, is the cast of
    their maximum over `j < 512`. -/
private theorem block_fold (h : ℕ → ℝ) :
    (univ : Finset (Fin 512)).fold max (⊥ : EReal) (fun c => ((h c.val : ℝ) : EReal))
      = (((range 512).sup' (range_nonempty_of_pos (by norm_num)) h : ℝ) : EReal) := by
  rw [Cert.Consts.fold_max_coe univ univ_nonempty (fun c : Fin 512 => h c.val)]
  refine congrArg (fun x : ℝ => (x : EReal)) ?_
  apply le_antisymm
  · apply Finset.sup'_le
    intro c _
    exact Finset.le_sup' h (mem_range.mpr c.isLt)
  · apply Finset.sup'_le
    intro j hj
    exact Finset.le_sup' (fun c : Fin 512 => h c.val) (mem_univ (⟨j, mem_range.mp hj⟩ : Fin 512))

/-- The maximum over `j < n + m` is the larger of the maximum over `j < n` and the maximum of the next `m` values. -/
private theorem sup_range_add (g : ℕ → ℝ) (n m : ℕ) (hn : (range n).Nonempty) (hm : (range m).Nonempty)
    (hnm : (range (n + m)).Nonempty) :
    max ((range n).sup' hn g) ((range m).sup' hm (fun c => g (n + c))) = (range (n + m)).sup' hnm g := by
  apply le_antisymm
  · apply max_le
    · apply Finset.sup'_le
      intro j hj
      exact Finset.le_sup' g (mem_range.mpr (by have := mem_range.mp hj; omega))
    · apply Finset.sup'_le
      intro c hc
      exact Finset.le_sup' g (mem_range.mpr (by have := mem_range.mp hc; omega))
  · apply Finset.sup'_le
    intro j hj
    by_cases hlt : j < n
    · exact le_max_of_le_left (Finset.le_sup' g (mem_range.mpr hlt))
    · have hj' : j - n < m := by have := mem_range.mp hj; omega
      have hg : g j = (fun c => g (n + c)) (j - n) := by
        show g j = g (n + (j - n))
        congr 1
        omega
      rw [hg]
      exact le_max_of_le_right (Finset.le_sup' (fun c => g (n + c)) (mem_range.mpr hj'))

/-- The cast of the larger of two reals is the larger of their casts. -/
private theorem coe_max (x y : ℝ) : ((max x y : ℝ) : EReal) = max (x : EReal) (y : EReal) :=
  EReal.coe_strictMono.monotone.map_max

/-- The first block's maximum, taken against the initial `-∞`. -/
theorem max_first (g : ℕ → ℝ) :
    max (⊥ : EReal) ((univ : Finset (Fin 512)).fold max (⊥ : EReal) (fun c => ((g c.val : ℝ) : EReal)))
      = ((runMax g 511 : ℝ) : EReal) := by
  rw [max_eq_right bot_le, block_fold g]
  rfl

/-- A later block's maximum, taken against the running one: `n` logits seen, `0 < n`. -/
theorem max_step (g : ℕ → ℝ) (n : ℕ) (hn : 0 < n) :
    max ((runMax g (n - 1) : ℝ) : EReal)
        ((univ : Finset (Fin 512)).fold max (⊥ : EReal) (fun c => ((g (n + c.val) : ℝ) : EReal)))
      = ((runMax g (n + 512 - 1) : ℝ) : EReal) := by
  have hb := block_fold (fun c => g (n + c))
  rw [hb, runMax_pred g n hn, runMax_pred g (n + 512) (by omega), ← coe_max]
  exact congrArg (fun x : ℝ => (x : EReal)) (sup_range_add g n 512 _ _ _)

/-- The exponential of a difference of two reals, in the extended reals. -/
private theorem exp_coe_sub (x y : ℝ) :
    Ideal.exp (((x : ℝ) : EReal) - ((y : ℝ) : EReal)) = ((Real.exp (x - y) : ℝ) : EReal) := by
  rw [← EReal.coe_sub, Cert.Consts.exp_coe]

/-- A block's 512 terms `exp (h c - M')`, summed in the extended reals, are the cast of their real sum over `c < 512`. -/
private theorem block_sum (h : ℕ → ℝ) (M' : ℝ) :
    ∑ c : Fin 512, Ideal.exp (((h c.val : ℝ) : EReal) - ((M' : ℝ) : EReal))
      = ((∑ c ∈ range 512, Real.exp (h c - M') : ℝ) : EReal) := by
  rw [← Fin.sum_univ_eq_sum_range (fun c => Real.exp (h c - M')) 512, Cert.Consts.coe_sum]
  apply Finset.sum_congr rfl
  intro c _
  exact exp_coe_sub (h c.val) M'

/-- The first block's sum: the initial maximum is `-∞` and the initial sum `0`. -/
theorem sum_first (g : ℕ → ℝ) (M' : ℝ) :
    Ideal.exp ((⊥ : EReal) - ((M' : ℝ) : EReal)) * 0
        + ∑ c : Fin 512, Ideal.exp (((g c.val : ℝ) : EReal) - ((M' : ℝ) : EReal))
      = ((expSum g 512 M' : ℝ) : EReal) := by
  rw [mul_zero, zero_add, block_sum g M']
  rfl

/-- A later block's sum: the old sum rescaled from the old shift `M` to the new shift `M'`, plus the block's terms. -/
theorem sum_step (g : ℕ → ℝ) (n : ℕ) (M M' : ℝ) :
    Ideal.exp (((M : ℝ) : EReal) - ((M' : ℝ) : EReal)) * ((expSum g n M : ℝ) : EReal)
        + ∑ c : Fin 512, Ideal.exp (((g (n + c.val) : ℝ) : EReal) - ((M' : ℝ) : EReal))
      = ((expSum g (n + 512) M' : ℝ) : EReal) := by
  have hb := block_sum (fun c => g (n + c)) M'
  rw [hb, exp_coe_sub, ← EReal.coe_mul, ← EReal.coe_add]
  refine congrArg (fun x : ℝ => (x : EReal)) ?_
  unfold expSum
  rw [Finset.sum_range_add, Finset.mul_sum]
  congr 1
  apply Finset.sum_congr rfl
  intro j _
  rw [← Real.exp_add]
  congr 1
  ring

/-- Row `i`'s logits as a sequence: `0` past the last column. -/
def rowSeq (a1 a2 a3 : Cert.Spec.RArr) (i : Fin 4096) (j : ℕ) : ℝ :=
  if h : j < 8192 then Cert.Spec.logit a1 a2 a3 i ⟨j, h⟩ else 0

/-- Inside the 8192 columns the sequence is the logit. -/
private theorem rowSeq_val (a1 a2 a3 : Cert.Spec.RArr) (i : Fin 4096) (j : Fin 8192) :
    rowSeq a1 a2 a3 i j.val = Cert.Spec.logit a1 a2 a3 i j := by
  unfold rowSeq
  rw [dif_pos j.isLt]

/-- After all 8192 columns the running maximum is the row's maximum, -/
theorem runMax_rowSeq (a1 a2 a3 : Cert.Spec.RArr) (i : Fin 4096) :
    runMax (rowSeq a1 a2 a3 i) 8191 = Cert.Spec.rowMax a1 a2 a3 i := by
  unfold runMax Cert.Spec.rowMax
  apply le_antisymm
  · apply Finset.sup'_le
    intro j hj
    have hj' : j < 8192 := by have := mem_range.mp hj; omega
    have := rowSeq_val a1 a2 a3 i ⟨j, hj'⟩
    simp only at this
    rw [this]
    exact Finset.le_sup' (Cert.Spec.logit a1 a2 a3 i) (mem_univ _)
  · apply Finset.sup'_le
    intro j _
    rw [← rowSeq_val a1 a2 a3 i j]
    exact Finset.le_sup' (rowSeq a1 a2 a3 i) (mem_range.mpr (by have := j.isLt; omega))

/-- and the running sum at that shift is the row's sum. -/
theorem expSum_rowSeq (a1 a2 a3 : Cert.Spec.RArr) (i : Fin 4096) :
    expSum (rowSeq a1 a2 a3 i) 8192 (Cert.Spec.rowMax a1 a2 a3 i) = Cert.Spec.rowZ a1 a2 a3 i := by
  unfold expSum Cert.Spec.rowZ
  rw [← Fin.sum_univ_eq_sum_range
    (fun j => Real.exp (rowSeq a1 a2 a3 i j - Cert.Spec.rowMax a1 a2 a3 i)) 8192]
  apply Finset.sum_congr rfl
  intro j _
  rw [rowSeq_val]

/-- The row's sum is positive: its logarithm is the real one. -/
theorem rowZ_pos (a1 a2 a3 : Cert.Spec.RArr) (i : Fin 4096) : 0 < Cert.Spec.rowZ a1 a2 a3 i := by
  unfold Cert.Spec.rowZ
  exact Finset.sum_pos (fun j _ => Real.exp_pos _) univ_nonempty

/-- The kernel's last line for a row — the diagonal logit `s`, less the maximum plus the logarithm of the sum — is the
    specification's, which subtracts the maximum first. -/
theorem row_value (s M Z : ℝ) (hZ : 0 < Z) :
    ((s : ℝ) : EReal) - (((M : ℝ) : EReal) + Ideal.log ((Z : ℝ) : EReal)) = (((s - M) - Real.log Z : ℝ) : EReal) := by
  rw [Cert.Consts.log_coe hZ, ← EReal.coe_add, ← EReal.coe_sub]
  congr 1
  ring

end Cert.Online

end
-- ==== Proof.KIValue.lean ====
/-
  The running columns are the running log-sum-exp of the specification's logits.

  Fix real inputs.  For query row `i` let `g j` be the specification's logit of row `i` at column `j`.  At point `t` the
  kernel's scores for local row `r` of query block `t / 16` are `g (512 * (t % 16) + c)`, `c < 512`, for `i` the row of
  the whole array that `r` is: the sixteen points of a query block walk the 8192 columns in order, the first eight
  through the second input and the last eight through the third.  So after point `t`, with `n = 512 * (t % 16 + 1)`
  columns seen, the running maximum of the row is the largest of `g 0 … g (n - 1)`, the running sum is the sum over
  those columns of `exp (g j - that maximum)`, and the running diagonal is `g i` once column `i` has been seen and `0`
  before.  The proof is an induction over the points; each step is one case of the body, whose columns afterwards are
  the body's arithmetic of the scores and the columns before, and the arithmetic is the running form's step.
-/
import proofs.«115192_j55619826483436_1_alg».proof.Proof.KIPieces
import proofs.«115192_j55619826483436_1_alg».proof.Proof.KIPayload
import proofs.«115192_j55619826483436_1_alg».proof.Proof.KIBlocks
import proofs.«115192_j55619826483436_1_alg».proof.Proof.Online

set_option maxRecDepth 16384

noncomputable section

namespace Cert.KernelIdeal.Body

open Idealize.ShloMosaic Idealize.ShloMosaic.TcCoe Idealize.ShloMosaic.ValueIdx
open Idealize.SL.Sem
open Cert.KernelIdeal Cert.KernelIdeal.Gen
open Cert.KernelIdeal.Blocks (qRow kRow)

open Cert.Online (runMax expSum rowSeq)

variable (m : (ℓ : Loc nD τ sig) → Buf (Elt Ideal) ℓ) (c : Dev nD) (a1 a2 a3 : Cert.Spec.RArr)

/-! ## The grid's coordinates in closed form -/

theorem coords_facts : ∀ t : Fin cfg0.N,
    ((grid0.coords t) 0).val = t.val / 16 ∧ ((grid0.coords t) 1).val = (t.val / 8) % 2 ∧ ((grid0.coords t) 2).val = t.val % 8 :=
  (by decide +kernel : ∀ t : Fin grid0.N,
    ((grid0.coords t) 0).val = t.val / 16 ∧ ((grid0.coords t) 1).val = (t.val / 8) % 2 ∧ ((grid0.coords t) 2).val = t.val % 8)

/-! ## The scores -/

/-- The score function on blocks that are casts of real blocks. -/
theorem score_of_blocks [Cert.KernelIdeal.Facts] (i : grid0.Coords) (x0 : Vec Ideal S1024x256 .f32) (x1 x2 : Vec Ideal S512x256 .f32)
    (b0 : Fin 1024 → Fin 256 → ℝ) (b1 b2 : Fin 512 → Fin 256 → ℝ)
    (e0 : x0 = Cert.KernelIdeal.Payload.liftBlk b0) (e1 : x1 = Cert.KernelIdeal.Payload.liftBlk b1)
    (e2 : x2 = Cert.KernelIdeal.Payload.liftBlk b2) (r : Fin 1024) (cc : Fin 512) :
    k0_pay8 (F := Ideal) i x0 x1 x2 (ix2 r cc)
      = (((∑ k : Fin 256, Cert.KernelIdeal.Payload.unitOf b0 r k
            * Cert.KernelIdeal.Payload.unitOf (if (i 1).val = 0 then b1 else b2) cc k) / Cert.Spec.temp : ℝ) : EReal) := by
  subst e0 e1 e2
  exact Cert.KernelIdeal.Payload.pay8_apply i b0 b1 b2 r cc

variable (h1 : m ((c : Thread nD τ).loc main_arg0) = Cert.Spec.lift a1)
  (h2 : m ((c : Thread nD τ).loc main_arg1) = Cert.Spec.lift a2)
  (h3 : m ((c : Thread nD τ).loc main_arg2) = Cert.Spec.lift a3)

include h1 h2 h3 in
/-- At point `t` the score of local row `r` against key `cc` of the block is the logit of the row at column
    `512 * (t % 16) + cc`. -/
theorem score_apply [Cert.KernelIdeal.Facts] (t : Fin cfg0.N) (r : Fin 1024) (cc : Fin 512) :
    scoreAt m c t (ix2 r cc) = ((rowSeq a1 a2 a3 (qRow t r) (512 * (t.val % 16) + cc.val) : ℝ) : EReal) := by
  have hN : t.val < 64 := lt_of_lt_of_eq t.isLt N_eq
  obtain ⟨-, hc1, -⟩ := coords_facts t
  by_cases ht : t.val % 16 < 8
  · obtain ⟨b2, e2⟩ := Cert.KernelIdeal.Blocks.blk2_real m c t a3 h3
    refine (score_of_blocks (grid0.coords t) (iblk m c 0 t) (iblk m c 1 t) (iblk m c 2 t)
      (fun r k => a1 (qRow t r) k) (fun r k => a2 (kRow t r) k) b2
      (Cert.KernelIdeal.Blocks.blk0 m c t a1 h1) (Cert.KernelIdeal.Blocks.blk1 m c t ht a2 h2) e2 r cc).trans ?_
    have hsel : ((grid0.coords t) 1).val = 0 := by rw [hc1]; omega
    rw [if_pos hsel]
    have hj : 512 * (t.val % 16) + cc.val < 8192 := by omega
    have hj' : 512 * (t.val % 16) + cc.val < 4096 := by omega
    have hk : kRow t cc = ⟨512 * (t.val % 16) + cc.val, hj'⟩ := Fin.ext (by show 512 * (t.val % 8) + cc.val = 512 * (t.val % 16) + cc.val; omega)
    congr 1
    unfold rowSeq
    rw [dif_pos hj]
    unfold Cert.Spec.logit
    rw [dif_pos (show (⟨512 * (t.val % 16) + cc.val, hj⟩ : Fin 8192).val < 4096 from hj')]
    simp only [Cert.KernelIdeal.Payload.unitOf, Cert.Spec.cosim, Cert.Spec.unitRow, Cert.Spec.rowNorm, hk]
  · obtain ⟨b1, e1⟩ := Cert.KernelIdeal.Blocks.blk1_real m c t a2 h2
    refine (score_of_blocks (grid0.coords t) (iblk m c 0 t) (iblk m c 1 t) (iblk m c 2 t)
      (fun r k => a1 (qRow t r) k) b1 (fun r k => a3 (kRow t r) k)
      (Cert.KernelIdeal.Blocks.blk0 m c t a1 h1) e1 (Cert.KernelIdeal.Blocks.blk2 m c t ht a3 h3) r cc).trans ?_
    have hsel : ¬((grid0.coords t) 1).val = 0 := by rw [hc1]; omega
    rw [if_neg hsel]
    have hj : 512 * (t.val % 16) + cc.val < 8192 := by omega
    have hj' : ¬(512 * (t.val % 16) + cc.val < 4096) := by omega
    have hj'' : 512 * (t.val % 16) + cc.val - 4096 < 4096 := by omega
    have hk : kRow t cc = ⟨512 * (t.val % 16) + cc.val - 4096, hj''⟩ := Fin.ext (by show 512 * (t.val % 8) + cc.val = 512 * (t.val % 16) + cc.val - 4096; omega)
    congr 1
    unfold rowSeq
    rw [dif_pos hj]
    unfold Cert.Spec.logit
    rw [dif_neg (show ¬(⟨512 * (t.val % 16) + cc.val, hj⟩ : Fin 8192).val < 4096 from hj')]
    simp only [Cert.KernelIdeal.Payload.unitOf, Cert.Spec.cosim, Cert.Spec.unitRow, Cert.Spec.rowNorm, hk]

/-! ## One row, one step -/

/-- The first block's maximum and sum, from the reset values. -/
theorem rowML_first [Cert.KernelIdeal.Facts] (S : FVec Ideal S1024x512 .f32) (g : ℕ → ℝ) (r : Fin 1024)
    (hS : ∀ cc : Fin 512, S (ix2 r cc) = ((g cc.val : ℝ) : EReal)) :
    k0_pay3 (F := Ideal) S (k0_pay5 (F := Ideal)) (ix2 r (0 : Fin 1)) = ((runMax g 511 : ℝ) : EReal)
    ∧ k0_pay2 (F := Ideal) S (k0_pay5 (F := Ideal)) (k0_pay6 (F := Ideal)) (ix2 r (0 : Fin 1))
        = ((expSum g 512 (runMax g 511) : ℝ) : EReal) := by
  have hM : k0_pay1 (F := Ideal) S (k0_pay5 (F := Ideal)) (ix2 r (0 : Fin 1)) = ((runMax g 511 : ℝ) : EReal) := by
    rw [Cert.KernelIdeal.Payload.pay1_apply, Cert.KernelIdeal.Payload.pay5_apply]
    simp only [hS]
    exact Cert.Online.max_first g
  refine ⟨(Cert.KernelIdeal.Payload.pay3_apply S _ r).trans hM, ?_⟩
  rw [Cert.KernelIdeal.Payload.pay2_apply, hM, Cert.KernelIdeal.Payload.pay5_apply, Cert.KernelIdeal.Payload.pay6_apply]
  simp only [hS]
  exact Cert.Online.sum_first g _

/-- A later block's maximum and sum, from the running ones over the `n` columns before. -/
theorem rowML_step [Cert.KernelIdeal.Facts] (S : FVec Ideal S1024x512 .f32) (mv lv : Vec Ideal S1024x1 .f32) (g : ℕ → ℝ) (n : ℕ) (hn : 0 < n)
    (r : Fin 1024) (hS : ∀ cc : Fin 512, S (ix2 r cc) = ((g (n + cc.val) : ℝ) : EReal))
    (hm : mv (ix2 r (0 : Fin 1)) = ((runMax g (n - 1) : ℝ) : EReal))
    (hl : lv (ix2 r (0 : Fin 1)) = ((expSum g n (runMax g (n - 1)) : ℝ) : EReal)) :
    k0_pay3 (F := Ideal) S mv (ix2 r (0 : Fin 1)) = ((runMax g (n + 512 - 1) : ℝ) : EReal)
    ∧ k0_pay2 (F := Ideal) S mv lv (ix2 r (0 : Fin 1)) = ((expSum g (n + 512) (runMax g (n + 512 - 1)) : ℝ) : EReal) := by
  have hM : k0_pay1 (F := Ideal) S mv (ix2 r (0 : Fin 1)) = ((runMax g (n + 512 - 1) : ℝ) : EReal) := by
    rw [Cert.KernelIdeal.Payload.pay1_apply, hm]
    simp only [hS]
    exact Cert.Online.max_step g n hn
  refine ⟨(Cert.KernelIdeal.Payload.pay3_apply S mv r).trans hM, ?_⟩
  rw [Cert.KernelIdeal.Payload.pay2_apply, hM, hm, hl]
  simp only [hS]
  exact Cert.Online.sum_step g n _ _

/-- A block's diagonal pick: of the columns `b … b + 511` only column `i`, if it is among them, is kept. -/
theorem diag_sum (g : ℕ → ℝ) (b i : ℕ) :
    (∑ cc : Fin 512, (if b + cc.val = i then ((g (b + cc.val) : ℝ) : EReal) else 0))
      = if b ≤ i ∧ i < b + 512 then ((g i : ℝ) : EReal) else 0 := by
  by_cases hmem : b ≤ i ∧ i < b + 512
  · rw [if_pos hmem]
    have hc0 : i - b < 512 := by omega
    rw [Finset.sum_eq_single (⟨i - b, hc0⟩ : Fin 512)]
    · have : b + (i - b) = i := by omega
      rw [if_pos (by show b + (i - b) = i; exact this)]
      show ((g (b + (i - b)) : ℝ) : EReal) = _
      rw [this]
    · intro cc _ hne
      rw [if_neg]
      intro h
      exact hne (Fin.ext (by show cc.val = i - b; omega))
    · intro h; exact absurd (Finset.mem_univ _) h
  · rw [if_neg hmem]
    refine Finset.sum_eq_zero fun cc _ => ?_
    rw [if_neg]
    intro h
    exact hmem ⟨by omega, by have := cc.isLt; omega⟩

/-- The diagonal's step at a point with keys from the second input: query block `q`, key block `lk`. -/
theorem rowD_step [Cert.KernelIdeal.Facts] (q lk : ℕ) (hq : q < 4) (hlk : lk < 8) (S : FVec Ideal S1024x512 .f32) (dv : Vec Ideal S1024x1 .f32) (g : ℕ → ℝ)
    (r : Fin 1024) (hS : ∀ cc : Fin 512, S (ix2 r cc) = ((g (512 * lk + cc.val) : ℝ) : EReal))
    (hd : dv (ix2 r (0 : Fin 1)) = (((if 1024 * q + r.val < 512 * lk then g (1024 * q + r.val) else 0 : ℝ)) : EReal)) :
    k0_pay4 (F := Ideal) (BitVec.ofNat 32 q) (BitVec.ofNat 32 lk) S dv (ix2 r (0 : Fin 1))
      = (((if 1024 * q + r.val < 512 * lk + 512 then g (1024 * q + r.val) else 0 : ℝ)) : EReal) := by
  have hmask : ∀ cc : Fin 512, (BitVec.ofNat 32 cc.val - BitVec.ofNat 32 r.val = BitVec.ofNat 32 q * 1024#32 - BitVec.ofNat 32 lk * 512#32)
      ↔ 512 * lk + cc.val = 1024 * q + r.val := fun cc => Cert.KernelIdeal.Payload.diag_mask_iff ⟨q, hq⟩ ⟨lk, hlk⟩ r cc
  rw [Cert.KernelIdeal.Payload.pay4_apply, hd]
  simp only [hmask, hS]
  rw [diag_sum g (512 * lk) (1024 * q + r.val)]
  by_cases hlt : 1024 * q + r.val < 512 * lk
  · rw [if_pos hlt, if_neg (by omega), if_pos (by omega), add_zero]
  · by_cases hin : 1024 * q + r.val < 512 * lk + 512
    · rw [if_neg hlt, if_pos ⟨by omega, hin⟩, if_pos hin, EReal.coe_zero, zero_add]
    · rw [if_neg hlt, if_neg (by omega), if_neg hin, add_zero]

/-- The body's diagonal update at point `t`, with the two coordinates it reads spelled as numbers. -/
theorem pay4_at [Cert.KernelIdeal.Facts] (t : Fin cfg0.N) (q lk : ℕ) (hq : ((grid0.coords t) 0).val = q) (hlk : ((grid0.coords t) 2).val = lk) :
    k0_pay4 (F := Ideal) (qWord t) (kWord t) = k0_pay4 (F := Ideal) (BitVec.ofNat 32 q) (BitVec.ofNat 32 lk) := by
  show k0_pay4 (F := Ideal) (BitVec.ofNat 32 ((grid0.coords t) 0).val) (BitVec.ofNat 32 ((grid0.coords t) 2).val) = _
  rw [hq, hlk]

/-! ## The invariant, point by point -/

/-- The number of a row's columns seen after the point at position `n` of the 64. -/
def seen (n : ℕ) : ℕ := 512 * (n % 16 + 1)

/-- The row of the whole array that local row `r` is, at the point of position `n`. -/
def rowAt (n : ℕ) (hn : n < cfg0.N) (r : Fin 1024) : Fin 4096 := qRow ⟨n, hn⟩ r

theorem rowAt_val (n : ℕ) (hn : n < cfg0.N) (r : Fin 1024) : (rowAt n hn r).val = 1024 * (n / 16) + r.val := rfl

/-- What the three running columns hold at local row `r` after the point at position `n`. -/
def Inv (n : ℕ) (hn : n < cfg0.N) (r : Fin 1024) : Prop :=
  let g := rowSeq a1 a2 a3 (rowAt n hn r)
  let i := (rowAt n hn r).val
  (stAt m c n hn).sM (ix2 r (0 : Fin 1)) = ((runMax g (seen n - 1) : ℝ) : EReal)
  ∧ (stAt m c n hn).sL (ix2 r (0 : Fin 1)) = ((expSum g (seen n) (runMax g (seen n - 1)) : ℝ) : EReal)
  ∧ (stAt m c n hn).sD (ix2 r (0 : Fin 1)) = (((if i < seen n then g i else 0 : ℝ)) : EReal)

set_option maxHeartbeats 2000000 in
include h1 h2 h3 in
theorem inv_all [Cert.KernelIdeal.Facts] : ∀ (n : ℕ) (hn : n < cfg0.N) (r : Fin 1024), Inv m c a1 a2 a3 n hn r := by
  intro n
  induction n with
  | zero =>
    intro hn r
    have hS : ∀ cc : Fin 512, scoreAt m c ⟨0, hn⟩ (ix2 r cc) = ((rowSeq a1 a2 a3 (rowAt 0 hn r) cc.val : ℝ) : EReal) := by
      intro cc
      rw [score_apply m c a1 a2 a3 h1 h2 h3 ⟨0, hn⟩ r cc]
      show ((rowSeq a1 a2 a3 (qRow ⟨0, hn⟩ r) (512 * (0 % 16) + cc.val) : ℝ) : EReal) = _
      rw [show 512 * (0 % 16) + cc.val = cc.val by omega]; rfl
    have hst := stAt_A m c ⟨0, hn⟩ (Nat.zero_mod _)
    have hML := rowML_first (scoreAt m c ⟨0, hn⟩) (rowSeq a1 a2 a3 (rowAt 0 hn r)) r hS
    obtain ⟨hq, -, hk⟩ := coords_facts ⟨0, hn⟩
    unfold Inv
    dsimp only
    rw [show (stAt m c 0 hn) = _ from hst]
    refine ⟨?_, ?_, ?_⟩
    · rw [stA_sM]; exact hML.1
    · rw [stA_sL]; exact hML.2
    · rw [stA_sD]
      rw [pay4_at ⟨0, hn⟩ 0 0 (hq.trans (Nat.zero_div 16)) (hk.trans (Nat.zero_mod 8))]
      refine (rowD_step 0 0 (by omega) (by omega) (scoreAt m c ⟨0, hn⟩) (k0_pay7 (F := Ideal))
        (rowSeq a1 a2 a3 (rowAt 0 hn r)) r
        (by intro cc; rw [hS cc]; congr 2; omega)
        (by rw [Cert.KernelIdeal.Payload.pay7_apply, if_neg (by omega)]; rfl)).trans ?_
      rw [rowAt_val]
      show _ = (((if 1024 * (0 / 16) + r.val < 512 * (0 % 16 + 1) then _ else 0 : ℝ)) : EReal)
      rfl
  | succ n ih =>
    intro hn r
    have hN : n + 1 < 64 := lt_of_lt_of_eq hn N_eq
    have hnp : n < cfg0.N := Nat.lt_of_succ_lt hn
    obtain ⟨hq, -, hk⟩ := coords_facts ⟨n + 1, hn⟩
    have hq' : ((grid0.coords ⟨n + 1, hn⟩) 0).val = (n + 1) / 16 := hq
    have hk' : ((grid0.coords ⟨n + 1, hn⟩) 2).val = (n + 1) % 8 := hk
    have hS : ∀ cc : Fin 512, scoreAt m c ⟨n + 1, hn⟩ (ix2 r cc)
        = ((rowSeq a1 a2 a3 (rowAt (n + 1) hn r) (512 * ((n + 1) % 16) + cc.val) : ℝ) : EReal) :=
      fun cc => score_apply m c a1 a2 a3 h1 h2 h3 ⟨n + 1, hn⟩ r cc
    have hprev : prevSt m c ⟨n + 1, hn⟩ = stAt m c n hnp := rfl
    by_cases c1 : (n + 1) % 16 = 0
    · -- a query block's first point: as at position 0
      have hst := stAt_A m c ⟨n + 1, hn⟩ c1
      have hS0 : ∀ cc : Fin 512, scoreAt m c ⟨n + 1, hn⟩ (ix2 r cc) = ((rowSeq a1 a2 a3 (rowAt (n + 1) hn r) cc.val : ℝ) : EReal) := by
        intro cc; rw [hS cc, c1, Nat.mul_zero, Nat.zero_add]
      have hML := rowML_first (scoreAt m c ⟨n + 1, hn⟩) (rowSeq a1 a2 a3 (rowAt (n + 1) hn r)) r hS0
      have hk0 : ((grid0.coords ⟨n + 1, hn⟩) 2).val = 0 := by rw [hk']; omega
      unfold Inv
      dsimp only
      rw [show (stAt m c (n + 1) hn) = _ from hst]
      have hseen : seen (n + 1) = 512 := by unfold seen; rw [c1]
      refine ⟨?_, ?_, ?_⟩
      · rw [stA_sM, hseen]; exact hML.1
      · rw [stA_sL, hseen]; exact hML.2
      · rw [stA_sD, hseen]
        rw [pay4_at ⟨n + 1, hn⟩ ((n + 1) / 16) 0 hq' hk0]
        refine (rowD_step ((n + 1) / 16) 0 (by omega) (by omega) (scoreAt m c ⟨n + 1, hn⟩) (k0_pay7 (F := Ideal))
          (rowSeq a1 a2 a3 (rowAt (n + 1) hn r)) r
          (by intro cc; rw [hS0 cc]; congr 2; omega)
          (by rw [Cert.KernelIdeal.Payload.pay7_apply, if_neg (by omega)]; rfl)).trans ?_
        rw [rowAt_val]
    · -- a later point of the same query block: the row is the row of the point before
      have hrow : rowAt (n + 1) hn r = rowAt n hnp r := Fin.ext (by rw [rowAt_val, rowAt_val]; omega)
      have hseenp : seen n = 512 * ((n + 1) % 16) := by unfold seen; omega
      have hseen : seen (n + 1) = 512 * ((n + 1) % 16) + 512 := by unfold seen; omega
      have hpos : 0 < 512 * ((n + 1) % 16) := by omega
      obtain ⟨ihM, ihL, ihD⟩ := ih hnp r
      try dsimp only at ihM ihL ihD
      rw [← hrow, hseenp] at ihM ihL ihD
      have hML := fun (p : St Ideal) (hpM : p.sM (ix2 r (0 : Fin 1)) = _) (hpL : p.sL (ix2 r (0 : Fin 1)) = _) =>
        rowML_step (scoreAt m c ⟨n + 1, hn⟩) p.sM p.sL (rowSeq a1 a2 a3 (rowAt (n + 1) hn r)) (512 * ((n + 1) % 16)) hpos r hS hpM hpL
      unfold Inv
      dsimp only
      rw [hseen]
      by_cases c2 : (n + 1) % 16 < 8
      · have hst := stAt_B m c ⟨n + 1, hn⟩ c1 c2
        rw [show (stAt m c (n + 1) hn) = _ from hst, hprev]
        have hkk : ((grid0.coords ⟨n + 1, hn⟩) 2).val = (n + 1) % 16 := by rw [hk']; omega
        refine ⟨?_, ?_, ?_⟩
        · rw [stB_sM]; exact (hML _ ihM ihL).1
        · rw [stB_sL]; exact (hML _ ihM ihL).2
        · rw [stB_sD]
          rw [pay4_at ⟨n + 1, hn⟩ ((n + 1) / 16) ((n + 1) % 16) hq' hkk]
          refine (rowD_step ((n + 1) / 16) ((n + 1) % 16) (by omega) (by omega) (scoreAt m c ⟨n + 1, hn⟩) (stAt m c n hnp).sD
            (rowSeq a1 a2 a3 (rowAt (n + 1) hn r)) r hS
            (by rw [ihD, rowAt_val])).trans ?_
          rw [rowAt_val]
      · have hD : (stAt m c n hnp).sD (ix2 r (0 : Fin 1))
            = (((if (rowAt (n + 1) hn r).val < 512 * ((n + 1) % 16) + 512 then rowSeq a1 a2 a3 (rowAt (n + 1) hn r) (rowAt (n + 1) hn r).val else 0 : ℝ)) : EReal) := by
          rw [ihD]
          have hi : (rowAt (n + 1) hn r).val < 4096 := (rowAt (n + 1) hn r).isLt
          rw [if_pos (by omega), if_pos (by omega)]
        by_cases c3 : (n + 1) % 16 = 15
        · have hst := stAt_D m c ⟨n + 1, hn⟩ c3
          rw [show (stAt m c (n + 1) hn) = _ from hst, hprev]
          refine ⟨?_, ?_, ?_⟩
          · rw [stD_sM]; exact (hML _ ihM ihL).1
          · rw [stD_sL]; exact (hML _ ihM ihL).2
          · show (stAt m c n hnp).sD (ix2 r (0 : Fin 1)) = _
            exact hD
        · have hst := stAt_C m c ⟨n + 1, hn⟩ c2 c3
          rw [show (stAt m c (n + 1) hn) = _ from hst, hprev]
          refine ⟨?_, ?_, ?_⟩
          · rw [stC_sM]; exact (hML _ ihM ihL).1
          · rw [stC_sL]; exact (hML _ ihM ihL).2
          · show (stAt m c n hnp).sD (ix2 r (0 : Fin 1)) = _
            exact hD

end Cert.KernelIdeal.Body

end
-- ==== Proof.KIFrame.lean ====
/-
  The kernel's frame: every fair execution of the program ends, faults nowhere and leaves the three inputs as they
  were.  The launch of the 64 points is the library's; what is owed to it is, for every point, that the body run on the
  buffers the launch hands it ends and leaves them as the point-by-point account says.  Between points the three
  running columns live in scratch buffers the launch does not describe, so the invariant carried from point to point
  names their contents: before the first point anything, afterwards what the point before left.  At each point the
  case it falls in decides which run applies; the run's lists of stores cover the buffers they go to, so the buffers
  hold those stores read back.  The host lines after the launch touch none of the launch's arrays.
-/
import proofs.«115192_j55619826483436_1_alg».proof.Proof.KIState

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The invariant between points -/

/-- Before point `n`: nothing known of the scratch before the first point; afterwards the three running columns at
    what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (stAt m c n hn).sM ∗ owns (c : Thread nD τ) scL fullShare (stAt m c n hn).sL
      ∗ owns (c : Thread nD τ) scD fullShare (stAt m c n hn).sD) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (stAt m c n hn).sM ∗ owns (c : Thread nD τ) scL fullShare (stAt m c n hn).sL
      ∗ owns (c : Thread nD τ) scD fullShare (stAt m c n hn).sD) ∗ (∃ r, prngReg c r)) := rfl

theorem PhiS_pos (c : Dev nD) (n : ℕ) (h : n ≤ cfg0.N) (hz : n ≠ 0) :
    PhiS m c n h = iprop(iprop(owns (c : Thread nD τ) scM fullShare (stAt m c (n - 1) (by omega)).sM ∗ owns (c : Thread nD τ) scL fullShare (stAt m c (n - 1) (by omega)).sL
      ∗ owns (c : Thread nD τ) scD fullShare (stAt m c (n - 1) (by omega)).sD) ∗ (∃ r, prngReg c r)) := by
  cases n with
  | zero => exact absurd rfl hz
  | succ n => rfl

/-! ## The proof data -/

/-- The arrays as the launch finds them; after the body at point `t` each input's buffer at its block and each output's
    at the account's entry; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stAt m c t.val t.isLt).o3
    | ⟨4, _⟩ => (stAt m c t.val t.isLt).o4
    | ⟨5, _⟩ => (stAt m c t.val t.isLt).o5
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (stAt m c t.val t.isLt).o3 := by dsimp only [dats]
theorem after4 (c : Dev nD) (t : Fin cfg0.N) : (dats m 0 c).after 4 t = (stAt m c t.val t.isLt).o4 := by dsimp only [dats]
theorem after5 (c : Dev nD) (t : Fin cfg0.N) : (dats m 0 c).after 5 t = (stAt m c t.val t.isLt).o5 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any point.  The inputs' buffers hold their blocks; the position of the point among its query block's
    sixteen says which case it is in and so which run applies; the invariant hands the run the running columns and
    takes them back at the account's entries for this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt0_eq]
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt N_eq
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h1 : t.val % 16 = 0
  · -- the first point of a query block
    have hF : condFirst (grid0.coords t) := (hcondFirst t).mpr h1
    have hP : condPos (grid0.coords t) := (hcondPos t).mpr (by omega)
    have hL : ¬condLast (grid0.coords t) := fun h => absurd ((hcondLast t).mp h) (by omega)
    rw [Dat.leavesExact_idle (dats m 0 c) 3 t (idle3 t hL) (noFlush3 t hL)]
    rw [Dat.leavesExact_idle (dats m 0 c) 4 t (idle4 t hL) (noFlush4 t hL)]
    rw [Dat.leavesExact_idle (dats m 0 c) 5 t (idle5 t hL) (noFlush5 t hL)]
    rw [stAt_A m c t h1]
    unfold stA readBack; dsimp only
    by_cases hz : t.val = 0
    · rw [PhiS_castSucc m c t, PhiS_zero m c _ _ hz, PhiA_eq]
      iintro ⟨⟨⟨HM, HL, HD⟩, Hg⟩, Ho, ⟨%d0, H0⟩, ⟨%d1, H1⟩, ⟨%d2, H2⟩, ⟨%d3, H3⟩, ⟨%d4, H4⟩, ⟨%d5, H5⟩⟩
      iapply ((rA m c t hF hP hL).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HL]; · iexact HL
      isplitl [HD]; · iexact HD
      iintro ⟨H0, H1, H2, H3, H4, H5, ⟨%eM, HM⟩, ⟨%eL, HL⟩, ⟨%eD, HD⟩⟩
      isplitl [HM HL HD Hg]
      · isplitl [HM HL HD]
        · isplitl [HM]
          · unfold owns; iexists _; isplitr
            swap; · iexact HM
            ipureintro; exact View.read_writes_of_cover _ _ _ _ _ (covA_M m c t hF hP hL)
          isplitl [HL]
          · unfold owns; iexists _; isplitr
            swap; · iexact HL
            ipureintro; exact View.read_writes_of_cover _ _ _ _ _ (covA_L m c t hF hP hL)
          unfold owns; iexists _; isplitr
          swap; · iexact HD
          ipureintro; exact View.read_writes_of_cover _ _ _ _ _ (covA_D m c t hF hP hL)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [PhiS_castSucc m c t, PhiS_pos m c _ _ hz]
      iintro ⟨⟨⟨HM, HL, HD⟩, Hg⟩, Ho, ⟨%d0, H0⟩, ⟨%d1, H1⟩, ⟨%d2, H2⟩, ⟨%d3, H3⟩, ⟨%d4, H4⟩, ⟨%d5, H5⟩⟩
      iapply ((rA m c t hF hP hL).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexists _; iexact HM
      isplitl [HL]; · iexists _; iexact HL
      isplitl [HD]; · iexists _; iexact HD
      iintro ⟨H0, H1, H2, H3, H4, H5, ⟨%eM, HM⟩, ⟨%eL, HL⟩, ⟨%eD, HD⟩⟩
      isplitl [HM HL HD Hg]
      · isplitl [HM HL HD]
        · isplitl [HM]
          · unfold owns; iexists _; isplitr
            swap; · iexact HM
            ipureintro; exact View.read_writes_of_cover _ _ _ _ _ (covA_M m c t hF hP hL)
          isplitl [HL]
          · unfold owns; iexists _; isplitr
            swap; · iexact HL
            ipureintro; exact View.read_writes_of_cover _ _ _ _ _ (covA_L m c t hF hP hL)
          unfold owns; iexists _; isplitr
          swap; · iexact HD
          ipureintro; exact View.read_writes_of_cover _ _ _ _ _ (covA_D m c t hF hP hL)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hz : t.val ≠ 0 := fun h => h1 (by rw [h])
    have hF : ¬condFirst (grid0.coords t) := fun h => h1 ((hcondFirst t).mp h)
    by_cases h2 : t.val % 16 < 8
    · -- a later point with keys from the second input
      have hP : condPos (grid0.coords t) := (hcondPos t).mpr h2
      have hL : ¬condLast (grid0.coords t) := fun h => absurd ((hcondLast t).mp h) (by omega)
      rw [Dat.leavesExact_idle (dats m 0 c) 3 t (idle3 t hL) (noFlush3 t hL)]
      rw [Dat.leavesExact_idle (dats m 0 c) 4 t (idle4 t hL) (noFlush4 t hL)]
      rw [Dat.leavesExact_idle (dats m 0 c) 5 t (idle5 t hL) (noFlush5 t hL)]
      rw [stAt_B m c t h1 h2]
      unfold stB readBack; dsimp only
      rw [PhiS_castSucc m c t, PhiS_pos m c _ _ hz]
      iintro ⟨⟨⟨HM, HL, HD⟩, Hg⟩, Ho, ⟨%d0, H0⟩, ⟨%d1, H1⟩, ⟨%d2, H2⟩, ⟨%d3, H3⟩, ⟨%d4, H4⟩, ⟨%d5, H5⟩⟩
      iapply ((rB m c t hF hP hL (prevSt m c t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HL]; · iexact HL
      isplitl [HD]; · iexact HD
      iintro ⟨H0, H1, H2, H3, H4, H5, ⟨%eM, HM⟩, ⟨%eL, HL⟩, ⟨%eD, HD⟩⟩
      isplitl [HM HL HD Hg]
      · isplitl [HM HL HD]
        · isplitl [HM]
          · unfold owns; iexists _; isplitr
            swap; · iexact HM
            ipureintro; exact View.read_writes_of_cover _ _ _ _ _ (covB_M m c t hF hP hL (prevSt m c t))
          isplitl [HL]
          · unfold owns; iexists _; isplitr
            swap; · iexact HL
            ipureintro; exact View.read_writes_of_cover _ _ _ _ _ (covB_L m c t hF hP hL (prevSt m c t))
          unfold owns; iexists _; isplitr
          swap; · iexact HD
          ipureintro; exact View.read_writes_of_cover _ _ _ _ _ (covB_D m c t hF hP hL (prevSt m c t))
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · have hP : ¬condPos (grid0.coords t) := fun h => h2 ((hcondPos t).mp h)
      by_cases h3 : t.val % 16 = 15
      · -- the last point of a query block
        have hL : condLast (grid0.coords t) := (hcondLast t).mpr h3
        rw [show (dats m 0 c).leavesExact 3 t = owns (c : Thread nD τ) (ms3 t) fullShare ((dats m 0 c).after 3 t) from by
          unfold Dat.leavesExact; rw [live3 t hL], after3]
        rw [show (dats m 0 c).leavesExact 4 t = owns (c : Thread nD τ) (ms4 t) fullShare ((dats m 0 c).after 4 t) from by
          unfold Dat.leavesExact; rw [live4 t hL], after4]
        rw [show (dats m 0 c).leavesExact 5 t = owns (c : Thread nD τ) (ms5 t) fullShare ((dats m 0 c).after 5 t) from by
          unfold Dat.leavesExact; rw [live5 t hL], after5]
        rw [stAt_D m c t h3]
        unfold stD readBack; dsimp only
        rw [PhiS_castSucc m c t, PhiS_pos m c _ _ hz]
        iintro ⟨⟨⟨HM, HL, HD⟩, Hg⟩, Ho, ⟨%d0, H0⟩, ⟨%d1, H1⟩, ⟨%d2, H2⟩, ⟨%d3, H3⟩, ⟨%d4, H4⟩, ⟨%d5, H5⟩⟩
        iapply ((rD m c t hF hP hL (prevSt m c t)).2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HM]; · iexact HM
        isplitl [HL]; · iexact HL
        isplitl [HD]; · iexact HD
        iintro ⟨H0, H1, H2, ⟨%e3, H3⟩, ⟨%e4, H4⟩, ⟨%e5, H5⟩, ⟨%eM, HM⟩, ⟨%eL, HL⟩, HD⟩
        isplitl [HM HL HD Hg]
        · isplitl [HM HL HD]
          · isplitl [HM]
            · unfold owns; iexists _; isplitr
              swap; · iexact HM
              ipureintro; exact View.read_writes_of_cover _ _ _ _ _ (covD_M m c t hF hP hL (prevSt m c t))
            isplitl [HL]
            · unfold owns; iexists _; isplitr
              swap; · iexact HL
              ipureintro; exact View.read_writes_of_cover _ _ _ _ _ (covD_L m c t hF hP hL (prevSt m c t))
            iexact HD
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (covD_3 m c t hF hP hL (prevSt m c t))
        isplitl [H4]
        · unfold owns; iexists _; isplitr
          swap; · iexact H4
          ipureintro; exact View.read_writes_of_cover _ _ _ _ _ (covD_4 m c t hF hP hL (prevSt m c t))
        unfold owns; iexists _; isplitr
        swap; · iexact H5
        ipureintro; exact View.read_writes_of_cover _ _ _ _ _ (covD_5 m c t hF hP hL (prevSt m c t))
      · -- a point with keys from the third input, not the last
        have hL : ¬condLast (grid0.coords t) := fun h => h3 ((hcondLast t).mp h)
        rw [Dat.leavesExact_idle (dats m 0 c) 3 t (idle3 t hL) (noFlush3 t hL)]
        rw [Dat.leavesExact_idle (dats m 0 c) 4 t (idle4 t hL) (noFlush4 t hL)]
        rw [Dat.leavesExact_idle (dats m 0 c) 5 t (idle5 t hL) (noFlush5 t hL)]
        rw [stAt_C m c t h2 h3]
        unfold stC readBack; dsimp only
        rw [PhiS_castSucc m c t, PhiS_pos m c _ _ hz]
        iintro ⟨⟨⟨HM, HL, HD⟩, Hg⟩, Ho, ⟨%d0, H0⟩, ⟨%d1, H1⟩, ⟨%d2, H2⟩, ⟨%d3, H3⟩, ⟨%d4, H4⟩, ⟨%d5, H5⟩⟩
        iapply ((rC m c t hF hP hL (prevSt m c t)).2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexact HM
        isplitl [HL]; · iexact HL
        isplitl [HD]; · iexact HD
        iintro ⟨H0, H1, H2, H3, H4, H5, ⟨%eM, HM⟩, ⟨%eL, HL⟩, HD⟩
        isplitl [HM HL HD Hg]
        · isplitl [HM HL HD]
          · isplitl [HM]
            · unfold owns; iexists _; isplitr
              swap; · iexact HM
              ipureintro; exact View.read_writes_of_cover _ _ _ _ _ (covC_M m c t hF hP hL (prevSt m c t))
            isplitl [HL]
            · unfold owns; iexists _; isplitr
              swap; · iexact HL
              ipureintro; exact View.read_writes_of_cover _ _ _ _ _ (covC_L m c t hF hP hL (prevSt m c t))
            iexact HD
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch back with its contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HM, HL, HD⟩, Hg⟩
  isplitl [HM HL HD]
  · isplitl [HM]; · iexists _; iexact HM
    isplitl [HL]; · iexists _; iexact HL
    iexists _; iexact HD
  iexact Hg

theorem hout (c : Dev nD) : (dats m 0 c).Φ (Fin.last cfg0.N) ⊢ Pipeline.ΦA spec0 c :=
  Phi_out m c _ (by rw [Fin.val_last]; have : cfg0.N = 64 := N_eq; omega)

/-! ## The run and the frame -/

set_option backward.isDefEq.respectTransparency.types false in
/-- Every fair execution of the program ends, and the final state has every array of the launch at what the library
    computes from the proof data and every other buffer as the lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KIOut.lean ====
/-
  What the program returns, from the account of the buffers.  The launch writes each output window's staging buffer
  back to its array at the last point of every query block — point `16 * q + 15` writes rows `1024 * q …` — and at no
  other point, so after the launch row `i` of each of the three output arrays holds what the last point of row `i`'s
  query block left in the corresponding output buffer, at local row `i % 1024`.  The lines after the launch take the
  logarithm of the second array, add the first, subtract that from the third, and average with the sign changed.
-/
import proofs.«115192_j55619826483436_1_alg».proof.Proof.KIFrame
import Idealize.ShloMosaic.Lib.ValueIdx
import Idealize.ShloMosaic.Lib.Pipeline.Value
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ)

/-- The last point of the query block that row `i` of the 4096 belongs to. -/
def lastPt (i : Fin 4096) : Fin cfg0.N := ⟨16 * (i.val / 1024) + 15, by rw [N_eq]; omega⟩
/-- Row `i`'s place within its query block. -/
def locRow (i : Fin 4096) : Fin 1024 := ⟨i.val % 1024, by omega⟩

/-- The three output arrays after the launch. -/
abbrev arrM (c : Dev nD) : FVec F S4096x1 .f32 := (dats m 0 c).arrAt 3 cfg0.N
abbrev arrL (c : Dev nD) : FVec F S4096x1 .f32 := (dats m 0 c).arrAt 4 cfg0.N
abbrev arrD (c : Dev nD) : FVec F S4096x1 .f32 := (dats m 0 c).arrAt 5 cfg0.N

/-- Where the three output windows stand at each of the 64 points: on block `t / 16` of the rows, and on their one
    column. -/
theorem oidx_facts : ∀ t : Fin cfg0.N,
    (win0_3.index t (0 : Fin 2) = t.val / 16 ∧ win0_3.index t (1 : Fin 2) = 0)
    ∧ (win0_4.index t (0 : Fin 2) = t.val / 16 ∧ win0_4.index t (1 : Fin 2) = 0)
    ∧ (win0_5.index t (0 : Fin 2) = t.val / 16 ∧ win0_5.index t (1 : Fin 2) = 0) :=
  (by decide +kernel : ∀ t : Fin grid0.N, _)

/-- At the last point `t` of a query block, row `t / 16 * 1024 + p` is local row `p` of the block that `t` closes. -/
theorem pt_of_row (t : Fin cfg0.N) (h15 : t.val % 16 = 15) (i : Fin 4096) (p : Fin 1024)
    (hi : i.val = t.val / 16 * 1024 + p.val) : lastPt i = t ∧ locRow i = p := by
  have hp := p.isLt
  constructor
  · apply Fin.ext; show 16 * (i.val / 1024) + 15 = t.val; omega
  · apply Fin.ext; show i.val % 1024 = p.val; omega

/-- What row `i` of the first output array ends holding: what the last point of its query block left at its local row. -/
def row3 (c : Dev nD) (i : Fin 4096) : Elt F .f32 :=
  (stAt m c (lastPt i).val (lastPt i).isLt).o3 (ix2 (locRow i) (0 : Fin 1))

theorem row3_at (c : Dev nD) (t : Fin cfg0.N) (i : Fin 4096) (r : Fin 1024) (hl : lastPt i = t) (hr : locRow i = r) :
    row3 m c i = (stAt m c t.val t.isLt).o3 (ix2 r (0 : Fin 1)) := by
  subst hl; subst hr; rfl

/-- The first output array as one function of the row. -/
def G3 (c : Dev nD) : S4096x1.Idx → Elt F .f32 := fun y => row3 m c (y 0)

/-- What a writing point writes back is its block of that function. -/
theorem flushed3_eq (c : Dev nD) (t : Fin cfg0.N) (hf : (cfg0.win 3).flush t = true) :
    (dats m 0 c).flushed 3 t = ((cfg0.win 3).blk t).view.read (Elt F) (G3 m c) := by
  have h15 : t.val % 16 = 15 := (flush0_3 t).mp hf
  have e0 : win0_3.index t (0 : Fin 2) = t.val / 16 := (oidx_facts t).1.1
  have e1 : win0_3.index t (1 : Fin 2) = 0 := (oidx_facts t).1.2
  show (cfg0.win 3).cut (grid0.coords t) ((dats m 0 c).after 3 t) = _
  rw [after3]
  funext j
  have hj0 : (j 0).val < 1024 := (j 0).isLt
  have hj1 : (j 1).val < 1 := (j 1).isLt
  have hi : ((((cfg0.win 3).blk t).view.emb j) 0).val = t.val / 16 * 1024 + (j 0).val := by
    show win0_3.index t (0 : Fin 2) * 1024 + 1 * (j 0).val = _; omega
  obtain ⟨hl, hr⟩ := pt_of_row t h15 ((((cfg0.win 3).blk t).view.emb j) 0) ⟨(j 0).val, hj0⟩ hi
  show (stAt m c t.val t.isLt).o3 _ = row3 m c ((((cfg0.win 3).blk t).view.emb j) 0)
  rw [row3_at m c t _ _ hl hr]
  congr 1
  funext a; apply Fin.ext
  match a with
  | ⟨0, _⟩ => rfl
  | ⟨1, _⟩ => show (j 1).val = 0; omega

/-- A row of the array lies in a point's block iff each coordinate lies in the block's range. -/
theorem mem_blk3 (t : Fin cfg0.N) (i : S4096x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_0).slice (win0_3.rect t)).set ↔ _
  rw [View.set_slice_whole, Rect.mem_set_unit]
  exact Iff.rfl

/-- Every row is written back by the last point of its query block. -/
theorem cover3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have hv : (lastPt (i 0)).val = 16 * ((i 0).val / 1024) + 15 := rfl
  have e0 : win0_3.index (lastPt (i 0)) (0 : Fin 2) = (lastPt (i 0)).val / 16 := (oidx_facts (lastPt (i 0))).1.1
  have e1 : win0_3.index (lastPt (i 0)) (1 : Fin 2) = 0 := (oidx_facts (lastPt (i 0))).1.2
  refine ⟨lastPt (i 0), (flush0_3 _).mpr (by omega), ?_⟩
  rw [mem_blk3]
  intro a
  match a with
  | ⟨0, _⟩ =>
    show win0_3.index (lastPt (i 0)) (0 : Fin 2) * 1024 ≤ (i 0).val ∧ (i 0).val < win0_3.index (lastPt (i 0)) (0 : Fin 2) * 1024 + 1024
    omega
  | ⟨1, _⟩ =>
    show win0_3.index (lastPt (i 0)) (1 : Fin 2) * 1 ≤ (i 1).val ∧ (i 1).val < win0_3.index (lastPt (i 0)) (1 : Fin 2) * 1 + 1
    omega

/-- So the first output array ends holding that function. -/
theorem final3 (c : Dev nD) : (dats m 0 c).arrAt 3 cfg0.N = G3 m c :=
  (dats m 0 c).arrAt_eq_of_cover 3 (G3 m c) (flushed3_eq m c) cover3

/-- What row `i` of the second output array ends holding: what the last point of its query block left at its local row. -/
def row4 (c : Dev nD) (i : Fin 4096) : Elt F .f32 :=
  (stAt m c (lastPt i).val (lastPt i).isLt).o4 (ix2 (locRow i) (0 : Fin 1))

theorem row4_at (c : Dev nD) (t : Fin cfg0.N) (i : Fin 4096) (r : Fin 1024) (hl : lastPt i = t) (hr : locRow i = r) :
    row4 m c i = (stAt m c t.val t.isLt).o4 (ix2 r (0 : Fin 1)) := by
  subst hl; subst hr; rfl

/-- The second output array as one function of the row. -/
def G4 (c : Dev nD) : S4096x1.Idx → Elt F .f32 := fun y => row4 m c (y 0)

/-- What a writing point writes back is its block of that function. -/
theorem flushed4_eq (c : Dev nD) (t : Fin cfg0.N) (hf : (cfg0.win 4).flush t = true) :
    (dats m 0 c).flushed 4 t = ((cfg0.win 4).blk t).view.read (Elt F) (G4 m c) := by
  have h15 : t.val % 16 = 15 := (flush0_4 t).mp hf
  have e0 : win0_4.index t (0 : Fin 2) = t.val / 16 := (oidx_facts t).2.1.1
  have e1 : win0_4.index t (1 : Fin 2) = 0 := (oidx_facts t).2.1.2
  show (cfg0.win 4).cut (grid0.coords t) ((dats m 0 c).after 4 t) = _
  rw [after4]
  funext j
  have hj0 : (j 0).val < 1024 := (j 0).isLt
  have hj1 : (j 1).val < 1 := (j 1).isLt
  have hi : ((((cfg0.win 4).blk t).view.emb j) 0).val = t.val / 16 * 1024 + (j 0).val := by
    show win0_4.index t (0 : Fin 2) * 1024 + 1 * (j 0).val = _; omega
  obtain ⟨hl, hr⟩ := pt_of_row t h15 ((((cfg0.win 4).blk t).view.emb j) 0) ⟨(j 0).val, hj0⟩ hi
  show (stAt m c t.val t.isLt).o4 _ = row4 m c ((((cfg0.win 4).blk t).view.emb j) 0)
  rw [row4_at m c t _ _ hl hr]
  congr 1
  funext a; apply Fin.ext
  match a with
  | ⟨0, _⟩ => rfl
  | ⟨1, _⟩ => show (j 1).val = 0; omega

/-- A row of the array lies in a point's block iff each coordinate lies in the block's range. -/
theorem mem_blk4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0_1).slice (win0_4.rect t)).set ↔ _
  rw [View.set_slice_whole, Rect.mem_set_unit]
  exact Iff.rfl

/-- Every row is written back by the last point of its query block. -/
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hv : (lastPt (i 0)).val = 16 * ((i 0).val / 1024) + 15 := rfl
  have e0 : win0_4.index (lastPt (i 0)) (0 : Fin 2) = (lastPt (i 0)).val / 16 := (oidx_facts (lastPt (i 0))).2.1.1
  have e1 : win0_4.index (lastPt (i 0)) (1 : Fin 2) = 0 := (oidx_facts (lastPt (i 0))).2.1.2
  refine ⟨lastPt (i 0), (flush0_4 _).mpr (by omega), ?_⟩
  rw [mem_blk4]
  intro a
  match a with
  | ⟨0, _⟩ =>
    show win0_4.index (lastPt (i 0)) (0 : Fin 2) * 1024 ≤ (i 0).val ∧ (i 0).val < win0_4.index (lastPt (i 0)) (0 : Fin 2) * 1024 + 1024
    omega
  | ⟨1, _⟩ =>
    show win0_4.index (lastPt (i 0)) (1 : Fin 2) * 1 ≤ (i 1).val ∧ (i 1).val < win0_4.index (lastPt (i 0)) (1 : Fin 2) * 1 + 1
    omega

/-- So the second output array ends holding that function. -/
theorem final4 (c : Dev nD) : (dats m 0 c).arrAt 4 cfg0.N = G4 m c :=
  (dats m 0 c).arrAt_eq_of_cover 4 (G4 m c) (flushed4_eq m c) cover4

/-- What row `i` of the third output array ends holding: what the last point of its query block left at its local row. -/
def row5 (c : Dev nD) (i : Fin 4096) : Elt F .f32 :=
  (stAt m c (lastPt i).val (lastPt i).isLt).o5 (ix2 (locRow i) (0 : Fin 1))

theorem row5_at (c : Dev nD) (t : Fin cfg0.N) (i : Fin 4096) (r : Fin 1024) (hl : lastPt i = t) (hr : locRow i = r) :
    row5 m c i = (stAt m c t.val t.isLt).o5 (ix2 r (0 : Fin 1)) := by
  subst hl; subst hr; rfl

/-- The third output array as one function of the row. -/
def G5 (c : Dev nD) : S4096x1.Idx → Elt F .f32 := fun y => row5 m c (y 0)

/-- What a writing point writes back is its block of that function. -/
theorem flushed5_eq (c : Dev nD) (t : Fin cfg0.N) (hf : (cfg0.win 5).flush t = true) :
    (dats m 0 c).flushed 5 t = ((cfg0.win 5).blk t).view.read (Elt F) (G5 m c) := by
  have h15 : t.val % 16 = 15 := (flush0_5 t).mp hf
  have e0 : win0_5.index t (0 : Fin 2) = t.val / 16 := (oidx_facts t).2.2.1
  have e1 : win0_5.index t (1 : Fin 2) = 0 := (oidx_facts t).2.2.2
  show (cfg0.win 5).cut (grid0.coords t) ((dats m 0 c).after 5 t) = _
  rw [after5]
  funext j
  have hj0 : (j 0).val < 1024 := (j 0).isLt
  have hj1 : (j 1).val < 1 := (j 1).isLt
  have hi : ((((cfg0.win 5).blk t).view.emb j) 0).val = t.val / 16 * 1024 + (j 0).val := by
    show win0_5.index t (0 : Fin 2) * 1024 + 1 * (j 0).val = _; omega
  obtain ⟨hl, hr⟩ := pt_of_row t h15 ((((cfg0.win 5).blk t).view.emb j) 0) ⟨(j 0).val, hj0⟩ hi
  show (stAt m c t.val t.isLt).o5 _ = row5 m c ((((cfg0.win 5).blk t).view.emb j) 0)
  rw [row5_at m c t _ _ hl hr]
  congr 1
  funext a; apply Fin.ext
  match a with
  | ⟨0, _⟩ => rfl
  | ⟨1, _⟩ => show (j 1).val = 0; omega

/-- A row of the array lies in a point's block iff each coordinate lies in the block's range. -/
theorem mem_blk5 (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v0_2).slice (win0_5.rect t)).set ↔ _
  rw [View.set_slice_whole, Rect.mem_set_unit]
  exact Iff.rfl

/-- Every row is written back by the last point of its query block. -/
theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hv : (lastPt (i 0)).val = 16 * ((i 0).val / 1024) + 15 := rfl
  have e0 : win0_5.index (lastPt (i 0)) (0 : Fin 2) = (lastPt (i 0)).val / 16 := (oidx_facts (lastPt (i 0))).2.2.1
  have e1 : win0_5.index (lastPt (i 0)) (1 : Fin 2) = 0 := (oidx_facts (lastPt (i 0))).2.2.2
  refine ⟨lastPt (i 0), (flush0_5 _).mpr (by omega), ?_⟩
  rw [mem_blk5]
  intro a
  match a with
  | ⟨0, _⟩ =>
    show win0_5.index (lastPt (i 0)) (0 : Fin 2) * 1024 ≤ (i 0).val ∧ (i 0).val < win0_5.index (lastPt (i 0)) (0 : Fin 2) * 1024 + 1024
    omega
  | ⟨1, _⟩ =>
    show win0_5.index (lastPt (i 0)) (1 : Fin 2) * 1 ≤ (i 1).val ∧ (i 1).val < win0_5.index (lastPt (i 0)) (1 : Fin 2) * 1 + 1
    omega

/-- So the third output array ends holding that function. -/
theorem final5 (c : Dev nD) : (dats m 0 c).arrAt 5 cfg0.N = G5 m c :=
  (dats m 0 c).arrAt_eq_of_cover 5 (G5 m c) (flushed5_eq m c) cover5

theorem arrM_apply (c : Dev nD) (i : Fin 4096) :
    arrM m c (ix2 i (0 : Fin 1)) = (stAt m c (lastPt i).val (lastPt i).isLt).o3 (ix2 (locRow i) (0 : Fin 1)) := by
  show (dats m 0 c).arrAt 3 cfg0.N (ix2 i (0 : Fin 1)) = _
  rw [final3]; rfl
theorem arrL_apply (c : Dev nD) (i : Fin 4096) :
    arrL m c (ix2 i (0 : Fin 1)) = (stAt m c (lastPt i).val (lastPt i).isLt).o4 (ix2 (locRow i) (0 : Fin 1)) := by
  show (dats m 0 c).arrAt 4 cfg0.N (ix2 i (0 : Fin 1)) = _
  rw [final4]; rfl
theorem arrD_apply (c : Dev nD) (i : Fin 4096) :
    arrD m c (ix2 i (0 : Fin 1)) = (stAt m c (lastPt i).val (lastPt i).isLt).o5 (ix2 (locRow i) (0 : Fin 1)) := by
  show (dats m 0 c).arrAt 5 cfg0.N (ix2 i (0 : Fin 1)) = _
  rw [final5]; rfl

/-- The lines after the launch, as one function of the per-row array they start from. -/
def lossOf (v : FVec F S4096x1 .f32) : FVec F S_ .f32 :=
  Host.negf (Host.divf (Host.reduceAdd v (constant S_ .f32 0x00000000#32) reducesTo_S4096x1_S_d0_1 h_S_) (constant S_ .f32 0x45800000#32))

/-- The program's result: the lines after the launch applied to the third array less (the first plus the logarithm of
    the second). -/
theorem result_eq (c : Dev nD) :
    Pipeline.afterTail₀ cfgs (dats m) 0 (V0 m) [hostOps1] c main_v6
      = lossOf (subf (arrD m c) (addf (arrM m c) (Host.log (arrL m c)))) := by
  unfold Pipeline.afterTail₀
  show StableHlo.after hostOps1 _ (Proc.devRef .tc main_v6) = _
  after_results
  have e3 : Pipeline.withArrays (cfgs 0).spec c (V0 m c) (fun w => (dats m 0 c).arrAt w (cfgs 0).N) (Proc.devRef .tc main_v0_0)
      = arrM m c :=
    Pipeline.withArrays_arr spec0 launch0.win.arr_inj c (V0 m c) (fun w => (dats m 0 c).arrAt w cfg0.N) 3
  have e4 : Pipeline.withArrays (cfgs 0).spec c (V0 m c) (fun w => (dats m 0 c).arrAt w (cfgs 0).N) (Proc.devRef .tc main_v0_1)
      = arrL m c :=
    Pipeline.withArrays_arr spec0 launch0.win.arr_inj c (V0 m c) (fun w => (dats m 0 c).arrAt w cfg0.N) 4
  have e5 : Pipeline.withArrays (cfgs 0).spec c (V0 m c) (fun w => (dats m 0 c).arrAt w (cfgs 0).N) (Proc.devRef .tc main_v0_2)
      = arrD m c :=
    Pipeline.withArrays_arr spec0 launch0.win.arr_inj c (V0 m c) (fun w => (dats m 0 c).arrAt w cfg0.N) 5
  rw [e3, e4, e5]
  rfl

end Cert.KernelIdeal.Body

end
-- ==== Proof.KIFinal.lean ====
/-
  The kernel's result on real inputs.  At the last point of a query block the three outputs receive the three running
  columns; all 8192 columns of the row have been seen, so the columns are the row's maximum logit, its sum of shifted
  exponentials, and its diagonal logit.  The lines after the launch therefore start from the per-row array
  `diagonal - (maximum + log sum)`, which is the specification's row value, the subtraction regrouped.
-/
import proofs.«115192_j55619826483436_1_alg».proof.Proof.KIValue
import proofs.«115192_j55619826483436_1_alg».proof.Proof.KIOut

set_option maxRecDepth 16384

noncomputable section

namespace Cert.KernelIdeal.Body

open Idealize.ShloMosaic Idealize.ShloMosaic.TcCoe Idealize.ShloMosaic.ValueIdx
open Idealize.SL.Sem
open Cert.KernelIdeal Cert.KernelIdeal.Gen
open Cert.KernelIdeal.Blocks (qRow kRow)

open Cert.Online (runMax expSum rowSeq)

variable (m : (ℓ : Loc nD τ sig) → Buf (Elt Ideal) ℓ) (c : Dev nD) (a1 a2 a3 : Cert.Spec.RArr)

/-- At a query block's last point the outputs hold the running columns. -/
theorem last_outputs (t : Fin cfg0.N) (h3 : t.val % 16 = 15) :
    (stAt m c t.val t.isLt).o3 = (stAt m c t.val t.isLt).sM ∧ (stAt m c t.val t.isLt).o4 = (stAt m c t.val t.isLt).sL
    ∧ (stAt m c t.val t.isLt).o5 = (stAt m c t.val t.isLt).sD := by
  rw [stAt_D m c t h3]
  exact ⟨by rw [stD_o3, stD_sM], by rw [stD_o4, stD_sL], by rw [stD_o5]; rfl⟩

variable (h1 : m ((c : Thread nD τ).loc main_arg0) = Cert.Spec.lift a1)
  (h2 : m ((c : Thread nD τ).loc main_arg1) = Cert.Spec.lift a2)
  (h3 : m ((c : Thread nD τ).loc main_arg2) = Cert.Spec.lift a3)

include h1 h2 h3 in
/-- Row `i` of the three output arrays: the row's maximum, its sum, its diagonal logit. -/
theorem out_rows [Cert.KernelIdeal.Facts] (i : Fin 4096) :
    arrM m c (ix2 i (0 : Fin 1)) = ((Cert.Spec.rowMax a1 a2 a3 i : ℝ) : EReal)
    ∧ arrL m c (ix2 i (0 : Fin 1)) = ((Cert.Spec.rowZ a1 a2 a3 i : ℝ) : EReal)
    ∧ arrD m c (ix2 i (0 : Fin 1)) = ((Cert.Spec.logit a1 a2 a3 i ⟨i.val, by omega⟩ : ℝ) : EReal) := by
  have hlast : (lastPt i).val % 16 = 15 := by show (16 * (i.val / 1024) + 15) % 16 = 15; omega
  obtain ⟨e3, e4, e5⟩ := last_outputs m c (lastPt i) hlast
  obtain ⟨iM, iL, iD⟩ := inv_all m c a1 a2 a3 h1 h2 h3 (lastPt i).val (lastPt i).isLt (locRow i)
  try dsimp only at iM iL iD
  have hrow : rowAt (lastPt i).val (lastPt i).isLt (locRow i) = i :=
    Fin.ext (by rw [rowAt_val]; show 1024 * ((16 * (i.val / 1024) + 15) / 16) + i.val % 1024 = i.val; omega)
  have hseen : seen (lastPt i).val = 8192 := by unfold seen; rw [hlast]
  rw [hrow, hseen] at iM iL iD
  have hM : runMax (rowSeq a1 a2 a3 i) (8192 - 1) = Cert.Spec.rowMax a1 a2 a3 i := Cert.Online.runMax_rowSeq a1 a2 a3 i
  refine ⟨?_, ?_, ?_⟩
  · rw [arrM_apply, e3, iM, hM]
  · rw [arrL_apply, e4, iL, hM, Cert.Online.expSum_rowSeq]
  · rw [arrD_apply, e5, iD, if_pos (by have := i.isLt; omega)]
    unfold rowSeq
    rw [dif_pos (by have := i.isLt; omega)]

include h1 h2 h3 in
/-- The per-row array the lines after the launch start from. -/
theorem kernel_row [Cert.KernelIdeal.Facts] :
    subf (arrD m c) (addf (arrM m c) (Host.log (arrL m c)))
      = fun idx : S4096x1.Idx => ((Cert.Spec.rowLogp a1 a2 a3 ⟨(idx 0).val, (idx 0).isLt⟩ : ℝ) : EReal) := by
  funext idx
  obtain ⟨rM, rL, rD⟩ := out_rows m c a1 a2 a3 h1 h2 h3 ⟨(idx 0).val, (idx 0).isLt⟩
  have hidx : idx = ix2 (⟨(idx 0).val, (idx 0).isLt⟩ : Fin 4096) (0 : Fin 1) := by
    funext a
    match a with
    | ⟨0, _⟩ => rfl
    | ⟨1, _⟩ => exact Fin.ext (by have h : (idx 1).val < 1 := (idx 1).isLt; show (idx 1).val = 0; omega)
  show FloatOps.subf (arrD m c idx) (FloatOps.addf (arrM m c idx) (FloatOps.hostUnary .log (arrL m c idx))) = _
  rw [hidx, rM, rL, rD]
  simp only [Ideal.subf_def, Ideal.addf_def, Ideal.hostUnary_log_def]
  exact Cert.Online.row_value _ _ _ (Cert.Online.rowZ_pos a1 a2 a3 _)

include h1 h2 h3 in
/-- The program's result on real inputs: the lines after the launch applied to the specification's row values. -/
theorem kernel_value [Cert.KernelIdeal.Facts] :
    Pipeline.afterTail₀ cfgs (dats m) 0 (V0 m) [hostOps1] c main_v6
      = lossOf (F := Ideal) (fun idx : S4096x1.Idx => ((Cert.Spec.rowLogp a1 a2 a3 ⟨(idx 0).val, (idx 0).isLt⟩ : ℝ) : EReal)) := by
  rw [result_eq, kernel_row m c a1 a2 a3 h1 h2 h3]

end Cert.KernelIdeal.Body

end
-- ==== Proof.RefLogits.lean ====
/-
  The reference's logits.  Its first thirty-odd operations divide each input row by its floored norm, multiply the
  first normalized array by the transposes of the second and of the third, divide both products by the temperature and
  join them side by side.  Read at row `i` and column `j` on inputs that are real arrays, the joined array holds the
  specification's logit.

  On real inputs every stage is the cast of a real number: the sum of squares of a row is a non-negative real, so its
  square root is the real square root; the floored norm is positive, so the quotient by it is the real quotient; the
  temperature is positive, so the quotient by it is the real quotient too.  The three arrays go through the same
  normalizing operations and the two products through the same division, so one reading serves all of them.
-/
import proofs.«115192_j55619826483436_1_alg».proof.Proof.RefReadP
import proofs.«115192_j55619826483436_1_alg».proof.Proof.Spec
import proofs.«115192_j55619826483436_1_alg».proof.Proof.Consts
import Idealize.ShloMosaic.Lib.ValueIdx
import Idealize.ShloMosaic.Lib.Pipeline.Value
import Idealize.ShloMosaic.PureOps.Ideal.Laws

noncomputable section

namespace Cert.RefLogits

open Idealize.ShloMosaic Cert.ReferenceIdeal Cert.ReferenceIdeal.Gen Cert.ReferenceIdeal.ReadP Cert.Spec

/-- The cast of reals into the extended reals commutes with the maximum. -/
theorem coe_max (x y : ℝ) : max (x : EReal) (y : EReal) = ((max x y : ℝ) : EReal) :=
  (EReal.coe_strictMono.monotone.map_max).symm

/-- A lifted array read at row `i`, column `k`. -/
theorem lift_ix2 (a : RArr) (i : Fin 4096) (k : Fin 256) :
    lift a (ValueIdx.ix2 i k) = ((a i k : ℝ) : EReal) := rfl

/-- The second array is normalized by the same operations as the first. -/
theorem v15_eq (x : (⟨S4096x256, .f32⟩ : BufTy).Contents (Elt Ideal)) :
    val_main_v15 (F := Ideal) x = val_main_v7 (F := Ideal) x := rfl

/-- The product with the third array is formed and divided as the product with the second. -/
theorem v31_eq (x y : (⟨S4096x256, .f32⟩ : BufTy).Contents (Elt Ideal)) :
    val_main_v31 (F := Ideal) x y = val_main_v27 (F := Ideal) x y := rfl

/-- The sum of the squares of row `i`. -/
theorem sumsq_apply (a : RArr) (i : Fin 4096) :
    val_main_v1 (F := Ideal) (lift a) (ValueIdx.ix1 i) = ((∑ k : Fin 256, a i k * a i k : ℝ) : EReal) := by
  rw [val_main_v1_apply, Cert.Consts.coe_sum]
  simp only [val_main_cst_apply, val_main_v0_apply, Ideal.ofBits_def, Ideal.mulf_def, Cert.Consts.ofBits_zero, zero_add]
  refine Finset.sum_congr rfl fun k _ => ?_
  rw [EReal.coe_mul]
  rfl

/-- Row `i` over its floored norm, at column `k`. -/
theorem unit_apply (a : RArr) (i : Fin 4096) (k : Fin 256) :
    val_main_v7 (F := Ideal) (lift a) (ValueIdx.ix2 i k) = ((unitRow a i k : ℝ) : EReal) := by
  rw [val_main_v7_apply, val_main_v6_apply, val_main_v5_apply, val_main_v3_apply, val_main_v2_apply, val_main_v4_apply,
    val_main_cst_0_apply]
  have e1 : idx_main_v2 (idx_main_v6 (ValueIdx.ix2 i k)) = ValueIdx.ix1 i :=
    funext fun a => Fin.ext (by match a with | ⟨0, _⟩ => rfl)
  rw [e1, sumsq_apply]
  simp only [Ideal.hostDivf_def, Ideal.hostUnary_sqrt_def, Ideal.maximumf_def, Ideal.ofBits_def, Cert.Consts.ofBits_eps]
  rw [Cert.Consts.sqrt_coe (Finset.sum_nonneg fun k _ => mul_self_nonneg _), coe_max, lift_ix2]
  exact Cert.Consts.div_coe_coe _ (rowNorm_pos a i).ne'

/-- The inner product of two normalized rows. -/
theorem dot_apply (a b : RArr) (i j : Fin 4096) :
    val_main_v25 (F := Ideal) (lift a) (lift b) (ValueIdx.ix2 i j) = ((cosim a b i j : ℝ) : EReal) := by
  rw [val_main_v25_apply]
  unfold cosim
  rw [Cert.Consts.coe_sum]
  refine Finset.sum_congr rfl fun k _ => ?_
  rw [show lidx_main_v25 (ValueIdx.ix2 i j) k = ValueIdx.ix2 i k from
        funext fun a => Fin.ext (by match a with | ⟨0, _⟩ => rfl | ⟨1, _⟩ => rfl),
    val_main_v24_apply,
    show idx_main_v24 (ridx_main_v25 (ValueIdx.ix2 i j) k) = ValueIdx.ix2 j k from
        funext fun a => Fin.ext (by match a with | ⟨0, _⟩ => rfl | ⟨1, _⟩ => rfl),
    v15_eq, unit_apply, unit_apply, EReal.coe_mul]

/-- The inner product over the temperature. -/
theorem cos_apply (a b : RArr) (i j : Fin 4096) :
    val_main_v27 (F := Ideal) (lift a) (lift b) (ValueIdx.ix2 i j) = ((cosim a b i j / temp : ℝ) : EReal) := by
  rw [val_main_v27_apply, dot_apply, val_main_v26_apply, val_main_cst_5_apply]
  simp only [Ideal.hostDivf_def, Ideal.ofBits_def, Cert.Consts.ofBits_temp]
  exact Cert.Consts.div_coe_coe _ temp_pos.ne'

/-- The joined array of logits at an index is the specification's logit there. -/
theorem logits_apply [Cert.ReferenceIdeal.Facts] (a1 a2 a3 : Cert.Spec.RArr) (idx : S4096x8192.Idx) :
    Cert.ReferenceIdeal.ReadP.val_main_v32 (F := Ideal) (Cert.Spec.lift a1) (Cert.Spec.lift a2) (Cert.Spec.lift a3) idx
      = ((Cert.Spec.logit a1 a2 a3 ⟨(idx 0).val, (idx 0).isLt⟩ ⟨(idx 1).val, (idx 1).isLt⟩ : ℝ) : EReal) := by
  -- the index by its row `p` and its column `q`
  obtain ⟨p, q, rfl⟩ : ∃ (p : Fin 4096) (q : Fin 8192), idx = ValueIdx.ix2 p q :=
    ⟨idx 0, idx 1, ValueIdx.eq_ix2 idx⟩
  show val_main_v32 (F := Ideal) (lift a1) (lift a2) (lift a3) (ValueIdx.ix2 p q) = ((logit a1 a2 a3 p q : ℝ) : EReal)
  unfold val_main_v32 logit
  by_cases h : q.val < 4096
  · -- a column below 4096 lies in the first piece, at the same column
    rw [dif_pos h]
    exact (concatenate_pair_apply_left (t := S4096x8192) (s₁ := S4096x4096) (s₂ := S4096x4096) 1 _ _ _
      (ValueIdx.ix2 p q) rfl (ValueIdx.ix2 p (⟨q.val, h⟩ : Fin 4096))
      (fun b => by match b with | ⟨0, _⟩ => rfl | ⟨1, _⟩ => rfl)).trans (cos_apply a1 a2 p ⟨q.val, h⟩)
  · -- a column from 4096 on lies in the second piece, at the column `r` with `r + 4096 = q`
    rw [dif_neg h]
    generalize hq : (⟨q.val - 4096, by omega⟩ : Fin 4096) = r
    have hr : r.val + 4096 = q.val := by
      subst hq
      exact Nat.sub_add_cancel (Nat.le_of_not_lt h)
    refine (concatenate_pair_apply_right (t := S4096x8192) (s₁ := S4096x4096) (s₂ := S4096x4096) 1 _ _ _
      (ValueIdx.ix2 p q) rfl rfl (ValueIdx.ix2 p r)
      (fun b hb => by
        match b with
        | ⟨0, _⟩ => rfl
        | ⟨1, _⟩ => exact absurd rfl hb)
      hr).trans ?_
    rw [v31_eq]
    exact cos_apply a1 a3 p r

end Cert.RefLogits

end
-- ==== Proof.RefRow.lean ====
/-
  The reference's value for a row.  Over the joined logits it takes each row's maximum, subtracts it, exponentiates,
  sums, takes the logarithm and subtracts that too (a log-softmax); then it picks, in row `i`, the entry of column
  `i`.  The pick is a gather whose index vector is `0, 1, …, 4095`: every index is within `0 … 8191`, so the
  out-of-range fill is never chosen.  On real inputs the picked entry is the specification's row value.

  The first part is about shapes and words only: an `and` over ones is one, a row's maximum from `-∞` over casts of
  reals is the cast of their supremum, the gather with a batching axis 0 and a start index on axis 1 reads entry
  `(i, index i)`, and the word `i` for `i < 4096` is not negative and at most `8191`.  The second part walks the
  reference's operations from the logits to the picked entry, each read at an index.
-/
import proofs.«115192_j55619826483436_1_alg».proof.Proof.RefReadP
import proofs.«115192_j55619826483436_1_alg».proof.Proof.Spec
import proofs.«115192_j55619826483436_1_alg».proof.Proof.Consts
import proofs.«115192_j55619826483436_1_alg».proof.Proof.RefLogits
import Idealize.ShloMosaic.Lib.ValueIdx
import Idealize.ShloMosaic.Lib.Pipeline.Value
import Idealize.ShloMosaic.PureOps.Ideal.Laws
import Idealize.ShloMosaic.Lib.StableHlo.Predicate

noncomputable section

namespace Cert.RefRow

open Idealize.ShloMosaic Cert.ReferenceIdeal Cert.ReferenceIdeal.Gen

/-! ## Shapes and words -/

/-- A fold of `and` from one over a family of ones is one. -/
theorem fold_andi_ones {ι : Type} (s : Finset ι) (f : ι → BitVec 1) (hf : ∀ i, f i = 1#1) :
    s.fold IntOp.andi 1#1 f = 1#1 := by
  classical
  induction s using Finset.induction_on with
  | empty => rfl
  | insert a s ha ih => rw [Finset.fold_insert ha, ih, hf a]; rfl

/-- An `and`-reduction from one of an array of ones is one at every index. -/
theorem reduce_and_ones (p : S4096x1x1.Idx → BitVec 1) (init : S_.Idx → BitVec 1) (hinit : ∀ i, init i = 1#1)
    (hp : ∀ i, p i = 1#1) (idx : S4096x1.Idx) :
    Host.reduce IntOp.andi p init reducesTo_S4096x1x1_S4096x1_d2 h_S_ idx = 1#1 := by
  rw [Host.reduce_eq_fold, hinit]
  exact fold_andi_ones _ _ hp

/-- A maximum-reduction from `-∞` along the columns of an array that holds casts of reals: at row `j` it is the cast of
    the largest entry of that row.  The fold runs over the 8192 column coordinates, the row's coordinate kept. -/
theorem reduce_max_row (x : S4096x8192.Idx → EReal) (init : S_.Idx → EReal) (hinit : ∀ i, init i = ⊥)
    (f : Fin 4096 → Fin 8192 → ℝ)
    (hx : ∀ idx : S4096x8192.Idx, x idx = ((f ⟨(idx 0).val, (idx 0).isLt⟩ ⟨(idx 1).val, (idx 1).isLt⟩ : ℝ) : EReal))
    (j : S4096.Idx) :
    Host.reduce (FloatOps.maximumf (F := Ideal) (φ := .f32)) x init reducesTo_S4096x8192_S4096_d1 h_S_ j
      = ((Finset.univ.sup' Finset.univ_nonempty (f ⟨(j 0).val, (j 0).isLt⟩) : ℝ) : EReal) := by
  have h : S4096x8192.Reduces [1] S4096 := by decide
  rw [Host.reduce_eq_fold_single _ x init reducesTo_S4096x8192_S4096_d1 h h_S_ j, hinit]
  have hfun : (x ∘ h.lift j) = fun k : Fin 8192 => ((f ⟨(j 0).val, (j 0).isLt⟩ k : ℝ) : EReal) := by
    funext k
    show x (h.lift j k) = _
    rw [hx]
    rfl
  rw [hfun]
  exact Cert.Consts.fold_max_coe (Finset.univ : Finset (Fin 8192)) Finset.univ_nonempty (f ⟨(j 0).val, (j 0).isLt⟩)

/-- The gather's dimension numbers: operand axis 0 is a batching axis paired with axis 0 of the start indices, operand
    axis 1 is collapsed and is the one the start index names, every slice has size one. -/
abbrev D := gather_S4096x8192_S4096x1x1_S4096x1_n_1_0_0_1_2_11

/-- A number below 2³¹ is the value of its 32-bit word. -/
theorem toNat_ofNat_small (n : ℕ) (hn : n < 2 ^ 31) : (BitVec.ofNat 32 n).toNat = n := by
  rw [BitVec.toNat_ofNat]; exact Nat.mod_eq_of_lt (by omega)

/-- With the start index of row `i` the word `i`, the gather's entry `(i, 0)` is the operand's entry `(i, i)`: on the
    batching axis the operand index is the result's row, on the collapsed axis it is the start index read signed and
    clamped to `0 … 8191`, which leaves `i < 4096` as it is. -/
theorem gather_diag {α : Type} (x : S4096x8192.Idx → α) (ix : IVec S4096x1x1 32)
    (hix : ∀ i3 : S4096x1x1.Idx, ix i3 = BitVec.ofNat 32 (i3 0).val) (idx : S4096x1.Idx) :
    Host.gather D x ix idx
      = x (ValueIdx.ix2 (⟨(idx 0).val, ValueIdx.idx2_lt0 idx⟩ : Fin 4096)
            (⟨(idx 0).val, by have := ValueIdx.idx2_lt0 idx; omega⟩ : Fin 8192)) := by
  have hlt : (idx 0).val < 4096 := ValueIdx.idx2_lt0 idx
  unfold Host.gather
  congr 1
  funext a
  refine Fin.ext ?_
  match a with
  | ⟨0, _⟩ =>
    show D.start idx ix 0 + D.batchCoord idx 0 + D.offCoord idx 0 = (idx 0).val
    rw [D.start_batching idx ix 0 (by decide), D.offCoord_eq_zero idx 0 (by decide), Nat.zero_add, Nat.add_zero]
    rfl
  | ⟨1, _⟩ =>
    show D.start idx ix 1 + D.batchCoord idx 1 + D.offCoord idx 1 = (idx 0).val
    rw [D.batchCoord_eq_zero idx 1 (by decide), D.offCoord_eq_zero idx 1 (by decide), Nat.add_zero]
    unfold GatherDims.start
    rw [dif_pos (by decide : (1 : Fin 2) ∈ D.startIndexMap), hix]
    have hsi : ((D.siIdx idx ⟨List.idxOf (1 : Fin 2) D.startIndexMap, List.idxOf_lt_length_iff.2 (by decide)⟩) 0).val
        = (idx 0).val := rfl
    rw [hsi, StableHlo.Predicate.toInt_ofNat_small _ (by omega), Int.toNat_natCast]
    show min (idx 0).val (8192 - 1) = (idx 0).val
    omega

/-- The word of a number below 2³¹ is not negative. -/
theorem slt_zero (n : ℕ) (hn : n < 2 ^ 31) : IntOp.cmpi .slt (BitVec.ofNat 32 n) 0#32 = 0#1 := by
  refine ValueIdx.eq_zero_of_ne_one fun h => ?_
  have := (StableHlo.Predicate.slt_iff_toNat (by rw [toNat_ofNat_small n hn]; exact hn) (by decide)).1 h
  exact absurd this (by simp)

/-- The word of a number below 4096 lies in `0 … 8191`. -/
theorem in_range (n : ℕ) (hn : n < 4096) :
    IntOp.andi (IntOp.cmpi .sge (BitVec.ofNat 32 n) 0#32) (IntOp.cmpi .sle (BitVec.ofNat 32 n) 8191#32) = 1#1 := by
  have hn' : n < 2 ^ 31 := by omega
  have h1 : IntOp.cmpi .sge (BitVec.ofNat 32 n) 0#32 = 1#1 :=
    (StableHlo.Predicate.sge_iff_toNat (by rw [toNat_ofNat_small n hn']; exact hn') (by decide)).2 (by simp)
  have h2 : IntOp.cmpi .sle (BitVec.ofNat 32 n) 8191#32 = 1#1 :=
    (StableHlo.Predicate.sle_iff_toNat (by rw [toNat_ofNat_small n hn']; exact hn') (by decide)).2
      (by rw [toNat_ofNat_small n hn']; show n ≤ 8191; omega)
  rw [h1, h2]; rfl

/-! ## The reference's operations, read at an index -/

section Chain

variable (a1 a2 a3 : Cert.Spec.RArr)

/-- The sum of the shifted exponentials is positive: every term is. -/
theorem rowZ_pos (i : Fin 4096) : 0 < Cert.Spec.rowZ a1 a2 a3 i :=
  Finset.sum_pos (fun _ _ => Real.exp_pos _) Finset.univ_nonempty

/-- The row maximum: the fold of `max` from `-∞` over the row's logits is the largest of them. -/
theorem rowmax_apply (j : S4096.Idx) :
    ReadP.val_main_call0_v0 (F := Ideal) (Cert.Spec.lift a1) (Cert.Spec.lift a2) (Cert.Spec.lift a3) j
      = ((Cert.Spec.rowMax a1 a2 a3 ⟨(j 0).val, (j 0).isLt⟩ : ℝ) : EReal) := by
  unfold ReadP.val_main_call0_v0 Cert.Spec.rowMax
  exact reduce_max_row _ _ (fun i => (ReadP.val_main_call0_cst_apply (F := Ideal) i).trans Cert.Consts.ofBits_neg_inf)
    (Cert.Spec.logit a1 a2 a3) (fun idx => Cert.RefLogits.logits_apply a1 a2 a3 idx) j

/-- Taking the maximum with `-∞` once more changes nothing. -/
theorem rowmax2_apply (j : S4096.Idx) :
    ReadP.val_main_call0_v2 (F := Ideal) (Cert.Spec.lift a1) (Cert.Spec.lift a2) (Cert.Spec.lift a3) j
      = ((Cert.Spec.rowMax a1 a2 a3 ⟨(j 0).val, (j 0).isLt⟩ : ℝ) : EReal) := by
  rw [ReadP.val_main_call0_v2_apply, ReadP.val_main_call0_v1_apply, ReadP.val_main_call0_cst_0_apply, rowmax_apply]
  show max (Ideal.ofBits .f32 0xFF800000#32) _ = _
  rw [Cert.Consts.ofBits_neg_inf]
  exact max_bot_left _

/-- The logit less its row's maximum. -/
theorem shifted_apply (idx : S4096x8192.Idx) :
    ReadP.val_main_call0_v5 (F := Ideal) (Cert.Spec.lift a1) (Cert.Spec.lift a2) (Cert.Spec.lift a3) idx
      = ((Cert.Spec.logit a1 a2 a3 ⟨(idx 0).val, (idx 0).isLt⟩ ⟨(idx 1).val, (idx 1).isLt⟩
          - Cert.Spec.rowMax a1 a2 a3 ⟨(idx 0).val, (idx 0).isLt⟩ : ℝ) : EReal) := by
  rw [ReadP.val_main_call0_v5_apply, ReadP.val_main_call0_v4_apply, ReadP.val_main_call0_v3_apply, rowmax2_apply,
    Cert.RefLogits.logits_apply]
  exact (EReal.coe_sub _ _).symm

/-- Its exponential. -/
theorem exp_apply (idx : S4096x8192.Idx) :
    ReadP.val_main_call0_v6 (F := Ideal) (Cert.Spec.lift a1) (Cert.Spec.lift a2) (Cert.Spec.lift a3) idx
      = ((Real.exp (Cert.Spec.logit a1 a2 a3 ⟨(idx 0).val, (idx 0).isLt⟩ ⟨(idx 1).val, (idx 1).isLt⟩
          - Cert.Spec.rowMax a1 a2 a3 ⟨(idx 0).val, (idx 0).isLt⟩) : ℝ) : EReal) := by
  rw [ReadP.val_main_call0_v6_apply, shifted_apply]
  exact Cert.Consts.exp_coe _

/-- The row's sum of exponentials, from an initial zero. -/
theorem rowsum_apply (j : S4096.Idx) :
    ReadP.val_main_call0_v7 (F := Ideal) (Cert.Spec.lift a1) (Cert.Spec.lift a2) (Cert.Spec.lift a3) j
      = ((Cert.Spec.rowZ a1 a2 a3 ⟨(j 0).val, (j 0).isLt⟩ : ℝ) : EReal) := by
  rw [ReadP.val_main_call0_v7_apply, ReadP.val_main_call0_cst_1_apply]
  show Ideal.ofBits .f32 0x00000000#32 + _ = _
  rw [Cert.Consts.ofBits_zero, zero_add]
  unfold Cert.Spec.rowZ
  rw [Cert.Consts.coe_sum]
  exact Finset.sum_congr rfl fun k _ => exp_apply a1 a2 a3 (ReadP.idx_main_call0_v7 j k)

/-- Its logarithm: the sum is positive. -/
theorem logsum_apply (idx : S4096x1.Idx) :
    ReadP.val_main_call0_v9 (F := Ideal) (Cert.Spec.lift a1) (Cert.Spec.lift a2) (Cert.Spec.lift a3) idx
      = ((Real.log (Cert.Spec.rowZ a1 a2 a3 ⟨(idx 0).val, (idx 0).isLt⟩) : ℝ) : EReal) := by
  rw [ReadP.val_main_call0_v9_apply, ReadP.val_main_call0_v8_apply, rowsum_apply]
  exact Cert.Consts.log_coe (rowZ_pos a1 a2 a3 _)

/-- The log-softmax at an index. -/
theorem logsoftmax_apply (idx : S4096x8192.Idx) :
    ReadP.val_main_v34 (F := Ideal) (Cert.Spec.lift a1) (Cert.Spec.lift a2) (Cert.Spec.lift a3) idx
      = (((Cert.Spec.logit a1 a2 a3 ⟨(idx 0).val, (idx 0).isLt⟩ ⟨(idx 1).val, (idx 1).isLt⟩
            - Cert.Spec.rowMax a1 a2 a3 ⟨(idx 0).val, (idx 0).isLt⟩)
          - Real.log (Cert.Spec.rowZ a1 a2 a3 ⟨(idx 0).val, (idx 0).isLt⟩) : ℝ) : EReal) := by
  rw [ReadP.val_main_v34_apply, ReadP.val_main_call0_v10_apply, logsum_apply, shifted_apply]
  exact (EReal.coe_sub _ _).symm

/-- The index vector before its reshape: the row's number, which is not negative, so the wrap-around is not taken. -/
theorem index4_apply (i : S4096x1.Idx) : ReadP.val_main_call1_v4 (F := Ideal) i = BitVec.ofNat 32 (i 0).val := by
  have hlt : (i 0).val < 4096 := ValueIdx.idx2_lt0 i
  have h35 : ReadP.val_main_v35 (F := Ideal) i = BitVec.ofNat 32 (i 0).val := by
    rw [ReadP.val_main_v35_apply, ReadP.val_main_v33_apply]
  rw [ReadP.val_main_call1_v4_apply, ReadP.val_main_call1_v1_apply, ReadP.val_main_call1_v0_apply, ReadP.val_main_call1_c_apply,
    h35, slt_zero _ (by omega)]
  exact ValueIdx.select_zero _ _

/-- The index vector: entry `i` is the word `i`. -/
theorem index_apply (i3 : S4096x1x1.Idx) : ReadP.val_main_call1_v5 (F := Ideal) i3 = BitVec.ofNat 32 (i3 0).val := by
  rw [ReadP.val_main_call1_v5_apply, index4_apply]
  congr 1
  have h1 : (i3 1).val < 1 := (i3 1).isLt
  have h2 : (i3 2).val < 1 := (i3 2).isLt
  show (((i3 0).val * 1 + (i3 1).val) * 1 + (i3 2).val) / 1 = (i3 0).val
  omega

/-- The in-range mask is one everywhere. -/
theorem mask_apply (idx : S4096x1.Idx) : ReadP.val_main_call1_v12 (F := Ideal) idx = 1#1 := by
  unfold ReadP.val_main_call1_v12
  refine reduce_and_ones _ _ (fun i => ReadP.val_main_call1_c_3_apply (F := Ideal) i) (fun i3 => ?_) idx
  have hlt : (i3 0).val < 4096 := (i3 0).isLt
  rw [ReadP.val_main_call1_v11_apply, ReadP.val_main_call1_v7_apply, ReadP.val_main_call1_v10_apply, ReadP.val_main_call1_v6_apply,
    ReadP.val_main_call1_c_2_apply, ReadP.val_main_call1_v9_apply, ReadP.val_main_call1_v8_apply, ReadP.val_main_call1_c_1_apply,
    index_apply]
  exact in_range _ hlt

/-- The gathered entry of row `i` is the log-softmax at `(i, i)`: the row's value. -/
theorem gather_apply (idx : S4096x1.Idx) :
    ReadP.val_main_call1_v13 (F := Ideal) (Cert.Spec.lift a1) (Cert.Spec.lift a2) (Cert.Spec.lift a3) idx
      = ((Cert.Spec.rowLogp a1 a2 a3 ⟨(idx 0).val, (idx 0).isLt⟩ : ℝ) : EReal) := by
  unfold ReadP.val_main_call1_v13
  rw [gather_diag (ReadP.val_main_v34 (F := Ideal) (Cert.Spec.lift a1) (Cert.Spec.lift a2) (Cert.Spec.lift a3))
    (ReadP.val_main_call1_v5 (F := Ideal)) index_apply idx, logsoftmax_apply]
  rfl

end Chain

/-- The reference's per-row array, before its final mean, holds the specification's row value. -/
theorem ref_row [Cert.ReferenceIdeal.Facts] (a1 a2 a3 : Cert.Spec.RArr) (idx : S4096x1.Idx) :
    Cert.ReferenceIdeal.ReadP.val_main_v36 (F := Ideal) (Cert.Spec.lift a1) (Cert.Spec.lift a2) (Cert.Spec.lift a3) idx
      = ((Cert.Spec.rowLogp a1 a2 a3 ⟨(idx 0).val, (idx 0).isLt⟩ : ℝ) : EReal) := by
  rw [ReadP.val_main_v36_apply, mask_apply, gather_apply]
  exact ValueIdx.select_one _ _

end Cert.RefRow

end
-- ==== Proof.RefValue.lean ====
/-
  The reference's result on real inputs.  Its last three lines — sum the per-row array, divide by 4096, negate — are the
  kernel program's last three lines, and its per-row array holds the specification's row values; so its result is those
  same lines applied to the specification's row values.
-/
import proofs.«115192_j55619826483436_1_alg».proof.Proof.RefRow
import proofs.«115192_j55619826483436_1_alg».proof.Proof.KIOut

noncomputable section

namespace Cert.RefValue

open Idealize.ShloMosaic

theorem ref_value (a1 a2 a3 : Cert.Spec.RArr) :
    Cert.ReferenceIdeal.ReadP.val_main_v39 (F := Ideal) (Cert.Spec.lift a1) (Cert.Spec.lift a2) (Cert.Spec.lift a3)
      = Cert.KernelIdeal.Body.lossOf (F := Ideal)
          (fun idx : Cert.KernelIdeal.S4096x1.Idx => ((Cert.Spec.rowLogp a1 a2 a3 ⟨(idx 0).val, (idx 0).isLt⟩ : ℝ) : EReal)) := by
  have hrow : Cert.ReferenceIdeal.ReadP.val_main_v36 (F := Ideal) (Cert.Spec.lift a1) (Cert.Spec.lift a2) (Cert.Spec.lift a3)
      = fun idx : Cert.ReferenceIdeal.S4096x1.Idx => ((Cert.Spec.rowLogp a1 a2 a3 ⟨(idx 0).val, (idx 0).isLt⟩ : ℝ) : EReal) :=
    funext fun idx => Cert.RefRow.ref_row a1 a2 a3 idx
  unfold Cert.ReferenceIdeal.ReadP.val_main_v39 Cert.ReferenceIdeal.ReadP.val_main_v38 Cert.ReferenceIdeal.ReadP.val_main_v37
  rw [hrow]
  rfl

end Cert.RefValue

end
-- ==== Proof.Finite.lean ====
/-
  The precondition says that every entry of the three inputs is smaller in absolute value than `+∞`.  An extended
  real with that property is a real number, so each input array is the cast of an array of reals.
-/
import proofs.«115192_j55619826483436_1_alg».proof.Pre_finite_inputs
import proofs.«115192_j55619826483436_1_alg».proof.Proof.Gen.Pre_finite_inputs
import proofs.«115192_j55619826483436_1_alg».proof.Proof.Spec
import Idealize.ShloMosaic.Lib.ReduceAll
import Idealize.ShloMosaic.Lib.ValueIdx

noncomputable section

namespace Cert.Finite

open Idealize.ShloMosaic

/-- The result of the precondition has exactly one index. -/
instance : Subsingleton Cert.Pre_finite_inputs.S_.Idx := ⟨fun _ _ => funext fun d => d.elim0⟩

/-- The pattern of `+inf` denotes the top of the extended reals. -/
theorem ofBits_pos_inf : Ideal.ofBits .f32 0x7F800000#32 = (⊤ : EReal) := by
  simp [Ideal.ofBits, Ideal.ieee]

/-- An extended real whose absolute value `max x (-x)` lies below `+∞` is neither infinity: it is the cast of a real. -/
theorem coe_toReal_of_abs_lt_top (x : EReal) (h : max x (-x) < ⊤) : ((x.toReal : ℝ) : EReal) = x := by
  induction x using EReal.rec with
  | bot => simp at h
  | coe r => rfl
  | top => simp at h

/-- One conjunct of the precondition, read back: when the test `|x| < +∞` holds at every entry of an array, the
    array is the cast of the array of its entries' real parts. -/
theorem lift_of_all_finite [Cert.Pre_finite_inputs.Facts]
    (x : FVec Ideal Cert.Pre_finite_inputs.S4096x256 .f32)
    (h : Host.reduce IntOp.andi
          (cmpf .olt (Host.absf x)
            (broadcastInDim Cert.Pre_finite_inputs.S4096x256 ![] Cert.Pre_finite_inputs.Facts.bcast_S_S4096x256
              (constant Cert.Pre_finite_inputs.S_ .f32 0x7F800000#32)))
          (constantI Cert.Pre_finite_inputs.S_ 1 1#1)
          Cert.Pre_finite_inputs.Facts.reducesTo_S4096x256_S_d0_1 Cert.Pre_finite_inputs.Facts.h_S_ ValueIdx.ix0 = 1#1) :
    x = Cert.Spec.lift (fun i k => (x (ValueIdx.ix2 i k)).toReal) := by
  funext j
  have e := Host.reduce_andi_all _ _ _ _ _ h j
  change Ideal.cmp .olt (max (x j) (-(x j))) (Ideal.ofBits .f32 0x7F800000#32) = 1#1 at e
  rw [ofBits_pos_inf] at e
  simp only [Ideal.cmp] at e
  have hlt : max (x j) (-(x j)) < ⊤ := by
    by_contra hn
    rw [decide_eq_false hn] at e
    exact absurd e (by decide)
  have hj : x (ValueIdx.ix2 (j 0) (j 1)) = x j := congrArg x (ValueIdx.eq_ix2 j).symm
  exact ((congrArg (fun y : EReal => ((y.toReal : ℝ) : EReal)) hj).trans (coe_toReal_of_abs_lt_top (x j) hlt)).symm

/-- Under the precondition each input is the cast of a real array. -/
theorem real_of_pre [Cert.Pre_finite_inputs.Facts]
    (x0 x1 x2 : FVec Ideal Cert.Pre_finite_inputs.S4096x256 .f32)
    (h : Cert.Pre_finite_inputs.fn (F := Ideal) x0 x1 x2 = fun _ => 1#1) :
    ∃ a0 a1 a2 : Cert.Spec.RArr,
      x0 = Cert.Spec.lift a0 ∧ x1 = Cert.Spec.lift a1 ∧ x2 = Cert.Spec.lift a2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨_, _, _, lift_of_all_finite x0 h0', lift_of_all_finite x1 h1, lift_of_all_finite x2 h2⟩

end Cert.Finite

end
-- ==== Proof.lean ====
/-
  The certificate.  A contrastive loss is computed twice: by a kernel that walks each row's 8192 logits in sixteen
  blocks, keeping a running maximum, a running sum of shifted exponentials and the row's diagonal logit, and by a
  reference that forms all logits, takes a log-softmax and picks the diagonal.  Over the extended reals, on finite
  inputs, the two agree: both normalize the rows the same way; the kernel multiplies by the inverse temperature where
  the reference divides by the temperature, one value once the kernel's constant is read as the exact reciprocal; the
  running form of a log-sum-exp ends at the one-pass form's maximum and sum; and `d - (M + log Z) = (d - M) - log Z`.
  The three programs run to the end, fault nowhere and leave their inputs alone: for the two kernel programs that is
  the launch of the 64 grid points over the body's four cases; for the reference it is its operations in sequence.
-/
import proofs.«115192_j55619826483436_1_alg».proof.Defs
import proofs.«115192_j55619826483436_1_alg».proof.Proof.Gen.Kernel
import proofs.«115192_j55619826483436_1_alg».proof.Proof.Gen.KernelIdeal
import proofs.«115192_j55619826483436_1_alg».proof.Proof.Gen.ReferenceIdeal
import proofs.«115192_j55619826483436_1_alg».proof.Proof.Gen.Pre_finite_inputs
import proofs.«115192_j55619826483436_1_alg».proof.Proof.KFrame
import proofs.«115192_j55619826483436_1_alg».proof.Proof.KIFinal
import proofs.«115192_j55619826483436_1_alg».proof.Proof.RefValue
import proofs.«115192_j55619826483436_1_alg».proof.Proof.Finite
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel program runs and leaves its inputs alone. -/
theorem frame_k : Cert.frame_Kernel := fun m ρ _ => Cert.Kernel.Body.frame (F := Bits) m ρ

/-- So does the idealized kernel program. -/
theorem frame_ki : Cert.frame_KernelIdeal := fun m ρ _ => Cert.KernelIdeal.Body.frame (F := Ideal) m ρ

/-- So does the reference: its operations in sequence, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one constant the idealization names: the kernel's `20.0` read as `2^28 / 13421773`, the exact reciprocal of the
    temperature the reference divides by. -/
theorem preserves : Cert.preserves_Kernel_KernelIdeal :=
  IdealRules.named_const.statement Cert.KernelIdeal.κ "inv_temp" .f32 0x41A00000#32 ((268435456 / 13421773 : ℝ) : EReal) rfl

/-- On finite inputs both programs end with the mean, sign changed, of the specification's row values. -/
theorem algebraic : Cert.algebraic_KernelIdeal_ReferenceIdeal := by
  intro m ρ m' ρ' hpre hagree
  choose a1 a2 a3 h1 h2 h3 using fun c => Cert.Finite.real_of_pre _ _ _ (hpre c)
  refine ⟨fun c => Cert.KernelIdeal.Body.lossOf (F := Ideal)
      (fun idx : Cert.KernelIdeal.S4096x1.Idx => ((Cert.Spec.rowLogp (a1 c) (a2 c) (a3 c) ⟨(idx 0).val, (idx 0).isLt⟩ : ℝ) : EReal)), ?_, ?_⟩
  · refine (θ_run (Cert.KernelIdeal.defs (F := Ideal)) _ _).mono (fun r h c => ⟨?_, ?_, ?_, ?_⟩)
      (Cert.KernelIdeal.Body.run_main (F := Ideal) m ρ)
    · exact ((h c).2 Cert.KernelIdeal.main_v6 (by decide)).trans
        (Cert.KernelIdeal.Body.kernel_value m c (a1 c) (a2 c) (a3 c) (h1 c) (h2 c) (h3 c))
    · exact ((h c).1 0).trans (((Cert.KernelIdeal.Body.dats m 0 c).arrAt_in 0 rfl _).trans
        ((Cert.KernelIdeal.Body.A_eq m c 0).trans (Cert.KernelIdeal.Gen.V_main_arg0 m c)))
    · exact ((h c).1 1).trans (((Cert.KernelIdeal.Body.dats m 0 c).arrAt_in 1 rfl _).trans
        ((Cert.KernelIdeal.Body.A_eq m c 1).trans (Cert.KernelIdeal.Gen.V_main_arg1 m c)))
    · exact ((h c).1 2).trans (((Cert.KernelIdeal.Body.dats m 0 c).arrAt_in 2 rfl _).trans
        ((Cert.KernelIdeal.Body.A_eq m c 2).trans (Cert.KernelIdeal.Gen.V_main_arg2 m c)))
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v39_eq, (hagree c).1, (hagree c).2.1, (hagree c).2.2, h1 c, h2 c, h3 c]
    exact Cert.RefValue.ref_value (a1 c) (a2 c) (a3 c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
